-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128x128 : Shape := ⟨3, ![1, 128, 128]⟩
abbrev S128x128 : Shape := ⟨2, ![128, 128]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩
abbrev S128 : Shape := ⟨1, ![128]⟩
abbrev S2048x128 : Shape := ⟨2, ![2048, 128]⟩
abbrev S1x2048 : Shape := ⟨2, ![1, 2048]⟩
abbrev S2000x128 : Shape := ⟨2, ![2000, 128]⟩
abbrev S2000x1 : Shape := ⟨2, ![2000, 1]⟩
abbrev S2000x2048 : Shape := ⟨2, ![2000, 2048]⟩
abbrev S2048 : Shape := ⟨1, ![2048]⟩
abbrev S2048x1 : Shape := ⟨2, ![2048, 1]⟩
abbrev S1x1 : Shape := ⟨2, ![1, 1]⟩

abbrev nBuf : Space → Nat
  | .hbm => 102
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S128x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S1x128x128, .f32⟩
  | .hbm, ⟨30, _⟩ => ⟨S128x128, .f32⟩
  | .hbm, ⟨31, _⟩ => ⟨S100000x128, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .bf16⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S1x128, .f32⟩
  | .hbm, ⟨47, _⟩ => ⟨S128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S100000x128, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .bf16⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S100000x128, .bf16⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .bf16⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S100000x1, .i32⟩
  | .hbm, ⟨90, _⟩ => ⟨S2048x128, .f32⟩
  | .hbm, ⟨91, _⟩ => ⟨S1x2048, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S2048x128, .f32⟩
  | .hbm, ⟨97, _⟩ => ⟨S2048x128, .f32⟩
  | .hbm, ⟨98, _⟩ => ⟨S2048x1, .f32⟩
  | .hbm, ⟨99, _⟩ => ⟨S1x1, .f32⟩
  | .hbm, ⟨100, _⟩ => ⟨S2048x1, .f32⟩
  | .hbm, ⟨101, _⟩ => ⟨S2048x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .bf16⟩
  | .local _ .vmem, ⟨6, _⟩ => ⟨S10000x128, .bf16⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S128x128, .f32⟩
  | .local _ .vmem, ⟨11, _⟩ => ⟨S10000x1, .f32⟩
  | .local _ .vmem, ⟨12, _⟩ => ⟨S10000x1, .f32⟩
  | .local _ .vmem, ⟨13, _⟩ => ⟨S10000x128, .bf16⟩
  | .local _ .vmem, ⟨14, _⟩ => ⟨S10000x128, .bf16⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S128x128, .f32⟩
  | .local _ .vmem, ⟨19, _⟩ => ⟨S10000x1, .f32⟩
  | .local _ .vmem, ⟨20, _⟩ => ⟨S10000x1, .f32⟩
  | .local _ .vmem, ⟨21, _⟩ => ⟨S10000x128, .bf16⟩
  | .local _ .vmem, ⟨22, _⟩ => ⟨S10000x128, .bf16⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S2000x1, .f32⟩
  | .local _ .vmem, ⟨27, _⟩ => ⟨S2000x1, .f32⟩
  | .local _ .vmem, ⟨28, _⟩ => ⟨S2000x1, .i32⟩
  | .local _ .vmem, ⟨29, _⟩ => ⟨S2000x1, .i32⟩
  | .local _ .vmem, ⟨30, _⟩ => ⟨S2048x128, .f32⟩
  | .local _ .vmem, ⟨31, _⟩ => ⟨S1x2048, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68_0 : Ref sig .tc := ⟨.hbm, 90, rfl⟩
abbrev main_v68_1 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S2048x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S2048x128_S2048x128_0_0 : ∀ a, (![0, 0] : Fin 2 → Nat) a + S2048x128.size a ≤ S2048x128.size a
  h_S2048x128 : 0 < S2048x128.numel
  inb_S1x2048_S1x2048_0_0 : ∀ a, (![0, 0] : Fin 2 → Nat) a + S1x2048.size a ≤ S1x2048.size a
  h_S1x2048 : 0 < S1x2048.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  iota_S2000x2048_d1_w32 : S2000x2048.Iotas .tc 32 [1]
  broadcasts_S2000x1_S2000x2048 : S2000x1.Broadcasts S2000x2048
  natLt_1_32 : 1 < 32
  shapeCasts_S2048x128_S2048x128 : S2048x128.ShapeCasts S2048x128
  reduces_S2000x2048_S2048 : S2000x2048.Reduces [0] S2048
  shapeCasts_S2048_S1x2048 : S2048.ShapeCasts S1x2048
  shapeCasts_S1x2048_S1x2048 : S1x2048.ShapeCasts S1x2048
  shapeCasts_S1x2048_S2048x1 : S1x2048.ShapeCasts S2048x1
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x2048_S2000x128_S2048x128_0_0_1_1_n_n_wf : DotDims.WF S2000x2048 S2000x128 S2048x128 [0] [0] [1] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .bf16 = 32 ∨ (Rect.block (s := S100000x128) S10000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .bf16 = 32 ∨ (Rect.block (s := S100000x128) S10000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .i32 = 32 ∨ (Rect.block (s := S100000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S2048x128.size a
  hwx3_4 : ∀ i : grid3.Coords, EltTy.bits .f32 = 32 ∨ (Rect.block (s := S2048x128) S2048x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2048.size a ≤ S1x2048.size a
  hwx3_5 : ∀ i : grid3.Coords, EltTy.bits .f32 = 32 ∨ (Rect.block (s := S1x2048) S1x2048.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x2048_S2000x128_S2048x128_0_0_1_1_n_n : DotDims S2000x2048 S2000x128 S2048x128 where
  lhsContracting := [0]
  rhsContracting := [0]
  lhsNonContracting := [1]
  rhsNonContracting := [1]
  lhsBatch := []
  rhsBatch := []
  wf := dot_S2000x2048_S2000x128_S2048x128_0_0_1_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v52) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v68_0) S2048x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68_1) S1x2048.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S128x1, .f32⟩
  | 6 => ⟨S1, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S1x128x128, .f32⟩
  | 49 => ⟨S128x128, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S1x128x128, .f32⟩
  | 101 => ⟨S128x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S2048x128, .f32⟩
  | _ => ⟨S100000x128, .f32⟩

abbrev hbmTy0_1 (i : Nat) : BufTy := match i % 128 with
  | 0 => ⟨S100000x1, .i32⟩
  | 1 => ⟨S2048x128, .f32⟩
  | 2 => ⟨S_, .f32⟩
  | 3 => ⟨S100000, .f32⟩
  | 4 => ⟨S_, .f32⟩
  | 5 => ⟨S2048, .f32⟩
  | 6 => ⟨S100000x1, .i32⟩
  | 7 => ⟨S2048, .f32⟩
  | 8 => ⟨S_, .f32⟩
  | 9 => ⟨S2048, .f32⟩
  | 10 => ⟨S2048, .f32⟩
  | 11 => ⟨S2048x1, .f32⟩
  | 12 => ⟨S2048x128, .f32⟩
  | 13 => ⟨S2048x128, .f32⟩
  | 14 => ⟨S2048x1, .f32⟩
  | 15 => ⟨S1x1, .f32⟩
  | 16 => ⟨S2048x1, .f32⟩
  | 17 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call2_cst : Ref sig .tc := ⟨.hbm, 97, rfl⟩
abbrev main_call2_v0 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_12 : Ref sig .tc := ⟨.hbm, 103, rfl⟩
abbrev main_v76 : Ref sig .tc := ⟨.hbm, 104, rfl⟩
abbrev main_v77 : Ref sig .tc := ⟨.hbm, 105, rfl⟩
abbrev main_c_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call3_cst : Ref sig .tc := ⟨.hbm, 123, rfl⟩
abbrev main_call3_v0 : Ref sig .tc := ⟨.hbm, 124, rfl⟩
abbrev main_v93 : Ref sig .tc := ⟨.hbm, 125, rfl⟩
abbrev main_cst_15 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_16 : Ref sig .tc := ⟨.hbm, 130, rfl⟩
abbrev main_v97 : Ref sig .tc := ⟨.hbm, 131, rfl⟩
abbrev main_cst_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x1_S2048x1_1_0_0_1_n_n_wf : DotDims.WF S2048x128 S128x1 S2048x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.Spec.lean ====
import Idealize.ShloMosaic.Lib.ValueIdx
import Idealize.ShloMosaic.PureOps.Ideal
import Idealize.ShloMosaic.PureOps.Ideal.Laws
import Mathlib.Algebra.BigOperators.Group.Finset.Basic

/-!
# A three-layer graph convolution with mean pooling: the two arrangements, index by index

Nodes `v < 100000`, features `k < 128`, edges `e < 1700000` (the given edges followed by one self-loop per node),
graphs `g < 2048`. An edge `e` reads the node row `rowOf (src e)` (its source word, wrapped if negative, clamped into
the table) and lands on node `v` exactly when its destination word, read signed, is `v`.

`deg v` counts the edges landing on `v`; `dinv v` is `deg v ^ (-1/2)` where `deg v > 0` and `0` elsewhere: a
nonnegative real.

One arrangement (`…K`) scales each node row by `dinv` BEFORE the rows are summed over the edges and the sum by
`dinv` of the landing node AFTERWARDS; the other (`…R`) multiplies each edge's row by the product of the two
`dinv`s inside the sum. A nonnegative real factor moves across a finite sum of extended reals, so the two agree
(`act_aggK`). The pooled sums are taken once as a sum over all nodes of a 0/1 weight times the row (`sumsK`) and
once as a sum over the nodes of the graph (`sumsR`).
-/

open scoped BigOperators

noncomputable section

namespace Cert.Spec

open Idealize.ShloMosaic Idealize.ShloMosaic.ValueIdx

/-- The words of +0.0 and 1.0. -/
abbrev Z : EReal := Ideal.ofBits .f32 0x00000000#32
abbrev ONE : EReal := Ideal.ofBits .f32 0x3F800000#32

/-- A table of node rows. -/
abbrev Tab : Type := Fin 100000 → Fin 128 → EReal

/-- An index word into the node table with a negative word wrapped by the table's length. -/
def wrapW (w : BitVec 32) : BitVec 32 := Scalar.select (IntOp.cmpi .slt w 0#32) (IntOp.addi w 100000#32) w

/-- The node row a (wrapped) index word reads: the word read signed, clamped into the table. -/
def rowOf (w : BitVec 32) : Fin 100000 := ⟨min (wrapW w).toInt.toNat 99999, by omega⟩

/-- Edge `e` lands on node `v`. -/
abbrev lands (dst : IVec ⟨1, ![1700000]⟩ 32) (v : Fin 100000) (e : Fin 1700000) : Prop :=
  (dst (ix1 e)).toInt = (v.val : ℤ)

/-- Node `v` belongs to graph `g`. -/
abbrev inGraph (bt : IVec ⟨1, ![100000]⟩ 32) (g : Fin 2048) (v : Fin 100000) : Prop :=
  (bt (ix1 v)).toInt = (g.val : ℤ)

section
variable (src dst : IVec ⟨1, ![1700000]⟩ 32) (bt : IVec ⟨1, ![100000]⟩ 32)

/-- The number of edges landing on `v`. -/
def deg (v : Fin 100000) : EReal :=
  Z + ∑ _e ∈ Finset.univ.filter (fun e : Fin 1700000 => lands dst v e), ONE

/-- `deg v ^ (-1/2)` where the degree is positive, `0` elsewhere. -/
def dinv (v : Fin 100000) : EReal :=
  Scalar.select (Ideal.cmp .ogt (deg dst v) Z) (Ideal.rsqrt (deg dst v)) Z

/-- A table times a 128 × 128 matrix. -/
def mm (h : Tab) (W : (⟨2, ![128, 128]⟩ : Shape).Idx → EReal) : Tab :=
  fun u k => ∑ j : Fin 128, h u j * W (ix2 j k)

/-- Each node row scaled by the node's `dinv`. -/
def scaled (h : Tab) : Tab := fun u k => h u k * dinv dst u

/-- The rows summed over the edges landing on each node. -/
def aggK (T : Tab) : Tab :=
  fun v k => Z + ∑ e ∈ Finset.univ.filter (fun e : Fin 1700000 => lands dst v e), T (rowOf (src (ix1 e))) k

/-- Scale by the landing node's `dinv`, add the bias, clamp below at zero. -/
def actK (b : (⟨1, ![128]⟩ : Shape).Idx → EReal) (R : Tab) : Tab :=
  fun v k => max (R v k * dinv dst v + b (ix1 k)) Z

/-- The weight of edge `e`: the product of `dinv` at its source row and at its (wrapped, clamped) destination row. -/
def nrm (e : Fin 1700000) : EReal := dinv dst (rowOf (src (ix1 e))) * dinv dst (rowOf (dst (ix1 e)))

/-- The weighted rows summed over the edges landing on each node. -/
def aggR (H : Tab) : Tab :=
  fun v k => Z + ∑ e ∈ Finset.univ.filter (fun e : Fin 1700000 => lands dst v e), H (rowOf (src (ix1 e))) k * nrm src dst e

/-- Add the bias, clamp below at zero. -/
def actR (b : (⟨1, ![128]⟩ : Shape).Idx → EReal) (A : Tab) : Tab :=
  fun v k => max (A v k + b (ix1 k)) Z

/-- The 0/1 weight of node `v` for graph `g`: the node's graph word compared with `g`. -/
def oh (v : Fin 100000) (g : Fin 2048) : EReal :=
  ((((IntOp.cmpi .eq (bt (ix1 v)) (BitVec.ofNat 32 g.val)).setWidth 32).toInt : ℝ) : EReal)

def sumsK (h : Tab) (g : Fin 2048) (k : Fin 128) : EReal := Z + ∑ v : Fin 100000, oh bt v g * h v k
def cntK (g : Fin 2048) : EReal := Z + ∑ v : Fin 100000, oh bt v g
def sumsR (h : Tab) (g : Fin 2048) (k : Fin 128) : EReal :=
  Z + ∑ v ∈ Finset.univ.filter (fun v : Fin 100000 => inGraph bt g v), h v k
def cntR (g : Fin 2048) : EReal := Z + ∑ _v ∈ Finset.univ.filter (fun v : Fin 100000 => inGraph bt g v), ONE

/-- The mean row of each graph (sum over count, the count at least one) times the last weights, plus the last bias. -/
def outOf (sums : Fin 2048 → Fin 128 → EReal) (cnt : Fin 2048 → EReal)
    (lw : (⟨2, ![128, 1]⟩ : Shape).Idx → EReal) (lb : (⟨1, ![1]⟩ : Shape).Idx → EReal) (g : Fin 2048) : EReal :=
  (∑ k : Fin 128, Ideal.div (sums g k) (max (cnt g) ONE) * lw (ix2 k 0)) + lb (ix1 0)

variable (x : (⟨2, ![100000, 128]⟩ : Shape).Idx → EReal)
  (W0 W1 W2 : (⟨2, ![128, 128]⟩ : Shape).Idx → EReal) (b0 b1 b2 : (⟨1, ![128]⟩ : Shape).Idx → EReal)
  (lw : (⟨2, ![128, 1]⟩ : Shape).Idx → EReal) (lb : (⟨1, ![1]⟩ : Shape).Idx → EReal)

/-- The input as a table. -/
abbrev tab0 : Tab := fun u j => x (ix2 u j)

/-- The scale-first arrangement, layer by layer: the scaled products `tK`, their edge sums `rK`. -/
def tK0 : Tab := scaled dst (mm (tab0 x) W0)
def rK0 : Tab := aggK src dst (tK0 dst x W0)
def tK1 : Tab := scaled dst (mm (actK dst b0 (rK0 src dst x W0)) W1)
def rK1 : Tab := aggK src dst (tK1 src dst x W0 W1 b0)
def tK2 : Tab := scaled dst (mm (actK dst b1 (rK1 src dst x W0 W1 b0)) W2)
def rK2 : Tab := aggK src dst (tK2 src dst x W0 W1 W2 b0 b1)
def hK3 : Tab := actK dst b2 (rK2 src dst x W0 W1 W2 b0 b1)
def outK (g : Fin 2048) : EReal :=
  outOf (sumsK bt (hK3 src dst x W0 W1 W2 b0 b1 b2)) (cntK bt) lw lb g

/-- The weight-inside arrangement. -/
def hR1 : Tab := actR b0 (aggR src dst (mm (tab0 x) W0))
def hR2 : Tab := actR b1 (aggR src dst (mm (hR1 src dst x W0 b0) W1))
def hR3 : Tab := actR b2 (aggR src dst (mm (hR2 src dst x W0 W1 b0 b1) W2))
def outR (g : Fin 2048) : EReal :=
  outOf (sumsR bt (hR3 src dst x W0 W1 W2 b0 b1 b2)) (cntR bt) lw lb g

end

/-! ## The laws -/

theorem Z_eq : Z = 0 := Ideal.ofBits_zero_f32

/-- `dinv` is a nonnegative real. -/
theorem dinv_nonneg (dst : IVec ⟨1, ![1700000]⟩ 32) (v : Fin 100000) : ∃ r : ℝ, 0 ≤ r ∧ dinv dst v = (r : EReal) := by
  unfold dinv Scalar.select
  split_ifs with hc
  · -- the degree is positive: its inverse square root is 0 (at ⊤) or a positive real
    have hpos : (0 : EReal) < deg dst v := by
      by_contra hn
      simp [Ideal.cmp, hn] at hc
    induction hx : deg dst v using EReal.rec with
    | bot => rw [hx] at hpos; exact absurd hpos (not_lt.mpr bot_le)
    | top => exact ⟨0, le_refl 0, by rw [Ideal.rsqrt_top]; rfl⟩
    | coe r =>
      rw [hx] at hpos
      have hr : 0 < r := by exact_mod_cast hpos
      refine ⟨(Real.sqrt r)⁻¹, inv_nonneg.mpr (Real.sqrt_nonneg r), ?_⟩
      rw [Ideal.rsqrt_coe, if_neg (not_lt.mpr hr.le), if_neg hr.ne']
  · exact ⟨0, le_refl 0, by rw [Z_eq]; rfl⟩

/-- An edge landing on `v` has `v` as its (wrapped, clamped) destination row. -/
theorem rowOf_of_lands (dst : IVec ⟨1, ![1700000]⟩ 32) (v : Fin 100000) (e : Fin 1700000) (h : lands dst v e) :
    rowOf (dst (ix1 e)) = v := by
  have hv := v.isLt
  have hl : (dst (ix1 e)).toInt = (v.val : ℤ) := h
  have hslt : (dst (ix1 e)).slt 0#32 = false := by
    simp only [BitVec.slt, hl, decide_eq_false_iff_not]
    simp
  have hw : wrapW (dst (ix1 e)) = dst (ix1 e) := by
    unfold wrapW IntOp.cmpi
    simp only [hslt]
    exact select_zero _ _
  apply Fin.ext
  simp only [rowOf, hw, hl]
  omega

/-- A nonnegative real factor moves across a finite sum of extended reals. -/
theorem sum_mul_coe_of_nonneg {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The scale-first edge sum, scaled by the landing node's `dinv`, is the weight-inside edge sum. -/
theorem aggK_scaled (src dst : IVec ⟨1, ![1700000]⟩ 32) (H : Tab) (v : Fin 100000) (k : Fin 128) :
    aggK src dst (scaled dst H) v k * dinv dst v = aggR src dst H v k := by
  obtain ⟨r, hr, hv⟩ := dinv_nonneg dst v
  unfold aggK aggR scaled nrm
  rw [Z_eq, zero_add, zero_add, hv, sum_mul_coe_of_nonneg _ _ r hr]
  refine Finset.sum_congr rfl fun e he => ?_
  rw [rowOf_of_lands dst v e (Finset.mem_filter.mp he).2, hv, mul_assoc]

theorem actK_aggK_scaled (src dst : IVec ⟨1, ![1700000]⟩ 32) (b : (⟨1, ![128]⟩ : Shape).Idx → EReal) (H : Tab) :
    actK dst b (aggK src dst (scaled dst H)) = actR b (aggR src dst H) := by
  funext v k
  unfold actK actR
  rw [aggK_scaled]

/-- The word of `1.0` is the real `1`: sign bit clear, exponent field `127` (the bias), fraction field `0`, so the
    value is `2 ^ 23 * 2 ^ (127 - 127 - 23)`. -/
private theorem ONE_eq : ONE = 1 := by
  have hs : (BitVec.extractLsb' (8 + 23) 1 (0x3F800000#32) == 1#1) = false := by decide
  have he : (BitVec.extractLsb' 23 8 (0x3F800000#32)).toNat = 127 := by decide
  have hf : (BitVec.extractLsb' 0 23 (0x3F800000#32)).toNat = 0 := by decide
  show Ideal.ieee 8 23 (0x3F800000#32) = 1
  unfold Ideal.ieee
  simp only [hs, he, hf]
  norm_num

/-- A graph number is below `2 ^ 31`, so its word read signed is the number itself. -/
private theorem toInt_graphWord (g : Fin 2048) : (BitVec.ofNat 32 g.val).toInt = (g.val : ℤ) := by
  have hg := g.isLt
  rw [BitVec.toInt_ofNat']
  apply Int.bmod_eq_of_le_mul_two <;> omega

/-- A node's graph word is the word of `g` exactly when the node belongs to `g`. -/
private theorem word_eq_iff (bt : IVec ⟨1, ![100000]⟩ 32) (g : Fin 2048) (v : Fin 100000) :
    bt (ix1 v) = BitVec.ofNat 32 g.val ↔ inGraph bt g v := by
  constructor
  · intro h
    show (bt (ix1 v)).toInt = (g.val : ℤ)
    rw [h, toInt_graphWord]
  · intro h
    apply BitVec.eq_of_toInt_eq
    rw [toInt_graphWord]
    exact h

/-- The weight of a node of the graph is `1`. -/
private theorem oh_of_inGraph (bt : IVec ⟨1, ![100000]⟩ 32) (g : Fin 2048) (v : Fin 100000) (h : inGraph bt g v) :
    oh bt v g = 1 := by
  have hw : (bt (ix1 v) == BitVec.ofNat 32 g.val) = true := beq_iff_eq.mpr ((word_eq_iff bt g v).mpr h)
  have h1 : ((BitVec.ofBool true).setWidth 32).toInt = 1 := by decide
  show ((((BitVec.ofBool (bt (ix1 v) == BitVec.ofNat 32 g.val)).setWidth 32).toInt : ℝ) : EReal) = 1
  rw [hw, h1, Int.cast_one, EReal.coe_one]

/-- The weight of a node outside the graph is `0`. -/
private theorem oh_of_not_inGraph (bt : IVec ⟨1, ![100000]⟩ 32) (g : Fin 2048) (v : Fin 100000) (h : ¬ inGraph bt g v) :
    oh bt v g = 0 := by
  have hw : (bt (ix1 v) == BitVec.ofNat 32 g.val) = false :=
    beq_eq_false_iff_ne.mpr fun he => h ((word_eq_iff bt g v).mp he)
  have h0 : ((BitVec.ofBool false).setWidth 32).toInt = 0 := by decide
  show ((((BitVec.ofBool (bt (ix1 v) == BitVec.ofNat 32 g.val)).setWidth 32).toInt : ℝ) : EReal) = 0
  rw [hw, h0, Int.cast_zero, EReal.coe_zero]

/-- The 0/1-weighted sum over all nodes is the sum over the graph's nodes. -/
theorem sumsK_eq_sumsR (bt : IVec ⟨1, ![100000]⟩ 32) (h : Tab) (g : Fin 2048) (k : Fin 128) :
    sumsK bt h g k = sumsR bt h g k := by
  unfold sumsK sumsR
  rw [Finset.sum_filter]
  refine congrArg (fun s => Z + s) (Finset.sum_congr rfl fun v _ => ?_)
  by_cases hv : inGraph bt g v
  · rw [if_pos hv, oh_of_inGraph bt g v hv, one_mul]
  · rw [if_neg hv, oh_of_not_inGraph bt g v hv, zero_mul]

theorem cntK_eq_cntR (bt : IVec ⟨1, ![100000]⟩ 32) (g : Fin 2048) : cntK bt g = cntR bt g := by
  unfold cntK cntR
  rw [Finset.sum_filter]
  refine congrArg (fun s => Z + s) (Finset.sum_congr rfl fun v _ => ?_)
  by_cases hv : inGraph bt g v
  · rw [if_pos hv, oh_of_inGraph bt g v hv, ONE_eq]
  · rw [if_neg hv, oh_of_not_inGraph bt g v hv]

/-- A tile number below fifty and a place below two thousand name one node, and every node is named once: the node
    `v` by the tile `v / 2000` and the place `v % 2000`. -/
private def tileEquiv : Fin 50 × Fin 2000 ≃ Fin 100000 where
  toFun p := ⟨2000 * p.1.val + p.2.val, by omega⟩
  invFun v := (⟨v.val / 2000, by omega⟩, ⟨v.val % 2000, by omega⟩)
  left_inv p := by
    apply Prod.ext
    · apply Fin.ext
      show (2000 * p.1.val + p.2.val) / 2000 = p.1.val
      omega
    · apply Fin.ext
      show (2000 * p.1.val + p.2.val) % 2000 = p.2.val
      omega
  right_inv v := by
    apply Fin.ext
    show 2000 * (v.val / 2000) + v.val % 2000 = v.val
    omega

/-- Fifty tiles of two thousand nodes are all the nodes. -/
theorem sum_tiles {M : Type*} [AddCommMonoid M] (f : Fin 100000 → M) :
    ∑ t : Fin 50, ∑ r : Fin 2000, f ⟨2000 * t.val + r.val, by omega⟩ = ∑ v : Fin 100000, f v := by
  calc ∑ t : Fin 50, ∑ r : Fin 2000, f ⟨2000 * t.val + r.val, by omega⟩
      = ∑ p : Fin 50 × Fin 2000, f (tileEquiv p) := (Fintype.sum_prod_type fun p => f (tileEquiv p)).symm
    _ = ∑ v : Fin 100000, f v := Equiv.sum_comp tileEquiv f

/-- THE TWO ARRANGEMENTS AGREE. -/
theorem outK_eq_outR (src dst : IVec ⟨1, ![1700000]⟩ 32) (bt : IVec ⟨1, ![100000]⟩ 32)
    (x : (⟨2, ![100000, 128]⟩ : Shape).Idx → EReal)
    (W0 W1 W2 : (⟨2, ![128, 128]⟩ : Shape).Idx → EReal) (b0 b1 b2 : (⟨1, ![128]⟩ : Shape).Idx → EReal)
    (lw : (⟨2, ![128, 1]⟩ : Shape).Idx → EReal) (lb : (⟨1, ![1]⟩ : Shape).Idx → EReal) (g : Fin 2048) :
    outK src dst bt x W0 W1 W2 b0 b1 b2 lw lb g = outR src dst bt x W0 W1 W2 b0 b1 b2 lw lb g := by
  have h1 : actK dst b0 (rK0 src dst x W0) = hR1 src dst x W0 b0 := actK_aggK_scaled src dst b0 _
  have h2 : actK dst b1 (rK1 src dst x W0 W1 b0) = hR2 src dst x W0 W1 b0 b1 := by
    unfold rK1 tK1 hR2; rw [h1]; exact actK_aggK_scaled src dst b1 _
  have h3 : hK3 src dst x W0 W1 W2 b0 b1 b2 = hR3 src dst x W0 W1 W2 b0 b1 b2 := by
    unfold hK3 rK2 tK2 hR3; rw [h2]; exact actK_aggK_scaled src dst b2 _
  unfold outK outR outOf
  rw [h3, cntK_eq_cntR]
  simp only [sumsK_eq_sumsR]

end Cert.Spec

end
-- ==== Proof.SpecArgs.lean ====
import proofs.«416809_j1726576853644_2_alg».proof.Proof.Spec

/-! The stacked weights and biases, one layer at a time. -/

noncomputable section

namespace Cert.Spec

open Idealize.ShloMosaic Idealize.ShloMosaic.ValueIdx

/-- Layer `l`'s weight matrix out of the stack of three. -/
def wSlice (ww : (⟨3, ![3, 128, 128]⟩ : Shape).Idx → EReal) (l : Fin 3) : (⟨2, ![128, 128]⟩ : Shape).Idx → EReal :=
  fun i => ww (ix3 l ⟨(i 0).val, (i 0).isLt⟩ ⟨(i 1).val, (i 1).isLt⟩)

theorem wSlice_ix2 (ww : (⟨3, ![3, 128, 128]⟩ : Shape).Idx → EReal) (l : Fin 3) (j k : Fin 128) :
    wSlice ww l (ix2 j k) = ww (ix3 l j k) := rfl

/-- Layer `l`'s bias row out of the stack of three. -/
def bSlice (bb : (⟨2, ![3, 128]⟩ : Shape).Idx → EReal) (l : Fin 3) : (⟨1, ![128]⟩ : Shape).Idx → EReal :=
  fun i => bb (ix2 l ⟨(i 0).val, (i 0).isLt⟩)

theorem bSlice_ix1 (bb : (⟨2, ![3, 128]⟩ : Shape).Idx → EReal) (l : Fin 3) (k : Fin 128) :
    bSlice bb l (ix1 k) = bb (ix2 l k) := rfl

end Cert.Spec

end
-- ==== Proof.KArr.lean ====
import proofs.«416809_j1726576853644_2_alg».proof.Proof.Gen.KernelIdeal.Frame
import proofs.«416809_j1726576853644_2_alg».proof.Proof.Spec

/-! The kernel program's arrays, each named at its literal shape and element type: the contents `V` of the
    TensorCore's buffers (at whatever boundary of the run `V` is) read at one buffer. -/

noncomputable section

namespace Cert.KernelIdeal.Arr

open Cert.KernelIdeal
open Idealize.ShloMosaic Idealize.ShloMosaic.TcCoe Idealize.SL.Sem

variable (V : (c : Dev nD) → (b : Ref sig .tc) → Buf (Elt Ideal) ((c : Thread nD τ).loc b)) (c : Dev nD)

abbrev x : FVec Ideal S100000x128 .f32 := V c main_arg0
abbrev ei : IVec S2x1600000 32 := V c main_arg1
abbrev bt : IVec S100000 32 := V c main_arg2
abbrev lw : FVec Ideal S128x1 .f32 := V c main_arg5
abbrev lb : FVec Ideal S1 .f32 := V c main_arg6
abbrev src : IVec S1700000 32 := V c main_v3
abbrev dst : IVec S1700000 32 := V c main_v6
abbrev dinv1 : FVec Ideal S100000 .f32 := V c main_v14
abbrev dinv2 : FVec Ideal S100000x1 .f32 := V c main_v15
abbrev w0 : FVec Ideal S128x128 .f32 := V c main_v17
abbrev t0 : FVec Ideal S100000x128 .bf16 := V c main_v18
abbrev r0 : FVec Ideal S100000x128 .f32 := V c main_v29
abbrev b0r : FVec Ideal S128 .f32 := V c main_v31
abbrev w1 : FVec Ideal S128x128 .f32 := V c main_v33
abbrev b0 : FVec Ideal S1x128 .f32 := V c main_v34
abbrev t1 : FVec Ideal S100000x128 .bf16 := V c main_v35
abbrev r1 : FVec Ideal S100000x128 .f32 := V c main_v46
abbrev b1r : FVec Ideal S128 .f32 := V c main_v48
abbrev w2 : FVec Ideal S128x128 .f32 := V c main_v50
abbrev b1 : FVec Ideal S1x128 .f32 := V c main_v51
abbrev t2 : FVec Ideal S100000x128 .bf16 := V c main_v52
abbrev r2 : FVec Ideal S100000x128 .f32 := V c main_v63
abbrev b2r : FVec Ideal S128 .f32 := V c main_v65
abbrev b2 : FVec Ideal S1x128 .f32 := V c main_v66
abbrev bt2 : IVec S100000x1 32 := V c main_v67
abbrev sums : FVec Ideal S2048x128 .f32 := V c main_v68_0
abbrev cnt : FVec Ideal S1x2048 .f32 := V c main_v68_1
abbrev out : FVec Ideal S2048x1 .f32 := V c main_v77

/-- The 0/1 weight the pooling kernel gives a node for graph `g`: the node's graph word compared with `g`'s word. -/
abbrev ohW (w : BitVec 32) (g : Fin 2048) : EReal :=
  ((((IntOp.cmpi .eq w (BitVec.ofNat 32 g.val)).setWidth 32).toInt : ℝ) : EReal)

end Cert.KernelIdeal.Arr

end
-- ==== Proof.KMem.lean ====
import proofs.«416809_j1726576853644_2_alg».proof.Proof.Gen.KernelIdeal.Frame
import proofs.«416809_j1726576853644_2_alg».proof.Proof.Spec
import proofs.«416809_j1726576853644_2_alg».proof.Proof.KArr

/-! The stacked weights and biases at any boundary of the run, the launch memory and the last boundary's contents
    read at the TensorCore's references. -/

noncomputable section

namespace Cert.KernelIdeal.Arr

open Cert.KernelIdeal
open Idealize.ShloMosaic Idealize.ShloMosaic.TcCoe Idealize.SL.Sem

variable (V : (c : Dev nD) → (b : Ref sig .tc) → Buf (Elt Ideal) ((c : Thread nD τ).loc b)) (c : Dev nD)

abbrev ww : FVec Ideal S3x128x128 .f32 := V c main_arg3
abbrev bb : FVec Ideal S3x128 .f32 := V c main_arg4

end Cert.KernelIdeal.Arr

namespace Cert.KernelIdeal.Mem

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The memory the program is launched from. -/
abbrev V0 : (c : Dev nD) → (b : Ref sig .tc) → Buf (Elt Ideal) ((c : Thread nD τ).loc b) :=
  fun c b => m ((c : Thread nD τ).loc b)

/-- The contents after the last host operation. -/
abbrev V11 : (c : Dev nD) → (b : Ref sig .tc) → Buf (Elt Ideal) ((c : Thread nD τ).loc b) :=
  fun c b => W11 m ρ c b

end Cert.KernelIdeal.Mem

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibGatherStacked.lean ====
import Idealize.ShloMosaic.Lib.ValueIdx
import Idealize.ShloMosaic.PureOps.Contract

/-!
# Gathers by an index column or by a stack of index columns, read at an index

A table's leading axis has N entries. An index word is read as a SIGNED integer and CLAMPED into [0, N − 1] (a
negative word reads entry 0, a word past the end the last entry).

* `gather_vec`: a vector of N elements gathered by a column of n words: element e is the table at word e.
* `gather_rows_stacked`: an N × D table gathered by a stack of a columns of n words each (an a × n × 1 array):
  result element (j, e, k) is the table's row named by word (j, e), column k.
* `gather_vec_stacked`: the same for a vector of N elements: result element (j, e) is the table at word (j, e).

Every statement is for arbitrary extents and any record of dimension numbers whose lists are the ones named by the
hypotheses, so each applies to a concrete record with rfl for every list.
-/

namespace Cert.LibGatherStacked

open Idealize.ShloMosaic Idealize.ShloMosaic.ValueIdx

theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  -- the one table axis is collapsed, so its slice size is 1 and the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element e is read at (e, 0) of the index column
    have hsi : ∀ c, (GatherDims.siIdx ⟨[], [0], [], sb, [0], 1, ss, wf⟩ (ix1 e) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl

theorem gather_rows_stacked {α : Type} {N D a n w : Nat} (d : GatherDims ⟨2, ![N, D]⟩ ⟨3, ![a, n, 1]⟩ ⟨3, ![a, n, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![a, n, 1]⟩ w) (j : Fin a) (e : Fin n) (k : Fin D) (hN : 0 < N) :
    Host.gather d x idx (ix3 j e k) = x (ix2 ⟨min (idx (ix3 j e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element (j, e, k) is read at (j, e, 0) of the index stack: the two batch
    -- coordinates are the result's first two, the index vector's axis carries the one component 0
    have hsi : ∀ c, (GatherDims.siIdx ⟨[2], [0], [], sb, [0], 2, ss, wf⟩ (ix3 j e k) c : (⟨3, ![a, n, 1]⟩ : Shape).Idx)
        = ix3 j e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 j e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

theorem gather_vec_stacked {α : Type} {N a n w : Nat} (d : GatherDims ⟨1, ![N]⟩ ⟨3, ![a, n, 1]⟩ ⟨2, ![a, n]⟩)
    (hoff : d.offsetDims = []) (hcoll : d.collapsedSliceDims = [0]) (hob : d.operandBatchingDims = [])
    (hsim : d.startIndexMap = [0]) (hivd : d.indexVectorDim = 2)
    (x : (⟨1, ![N]⟩ : Shape).Idx → α) (idx : IVec ⟨3, ![a, n, 1]⟩ w) (j : Fin a) (e : Fin n) (hN : 0 < N) :
    Host.gather d x idx (ix2 j e) = x (ix1 ⟨min (idx (ix3 j e 0)).toInt.toNat (N - 1), by omega⟩) := by
  -- the one table axis is collapsed, so its slice size is 1 and the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element (j, e) is read at (j, e, 0) of the index stack
    have hsi : ∀ c, (GatherDims.siIdx ⟨[], [0], [], sb, [0], 2, ss, wf⟩ (ix2 j e) c : (⟨3, ![a, n, 1]⟩ : Shape).Idx)
        = ix3 j e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 j e 0)).toInt.toNat (N - 1)
    rw [hsi, hsl]
    rfl

end Cert.LibGatherStacked
-- ==== Proof.KHostA.lean ====
import proofs.«416809_j1726576853644_2_alg».proof.Proof.Gen.KernelIdeal.Frame
import proofs.«416809_j1726576853644_2_alg».proof.Proof.Spec
import proofs.«416809_j1726576853644_2_alg».proof.Proof.SpecArgs
import proofs.«416809_j1726576853644_2_alg».proof.Proof.KArr
import proofs.«416809_j1726576853644_2_alg».proof.Proof.KMem
import proofs.«416809_j1726576853644_2_alg».proof.Proof.LibScatterGatherRows
import proofs.«416809_j1726576853644_2_alg».proof.Proof.LibGatherStacked
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostA

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! The host operations before the first kernel: the edge words, the degrees and their inverse square roots, the
    first layer's weights. -/

/-- The source words: the given edges' first row followed by one word per node (its own number). -/
def srcT (ei : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The destination words: the given edges' second row followed by one word per node. -/
def dstT (ei : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

theorem V3_src (c : Dev nD) : Arr.src (V3 m ρ) c = srcT (Arr.ei (Mem.V0 m) c) := by
  show StableHlo.after hostOps0_2 (StableHlo.after hostOps0_1 (StableHlo.after hostOps0 (W0 m ρ c)))
    (Proc.devRef .tc main_v3) = _
  dsimp only [hostOps0, hostOps0_1, hostOps0_2]
  after_results
  rfl

theorem V3_dst (c : Dev nD) : Arr.dst (V3 m ρ) c = dstT (Arr.ei (Mem.V0 m) c) := by
  show StableHlo.after hostOps0_2 (StableHlo.after hostOps0_1 (StableHlo.after hostOps0 (W0 m ρ c)))
    (Proc.devRef .tc main_v6) = _
  dsimp only [hostOps0, hostOps0_1, hostOps0_2]
  after_results
  rfl

/-! ### The node factors

The degrees are ones scattered over the destination words into zeros; the factor is the inverse square root of the degree
where the degree is positive and zero elsewhere, reshaped to a column. Each part of the operations is a function of the
contents before it. -/

/-- The degrees as the program computes them: ones scattered over the destination words into zeros. -/
private def degV (d : IVec S1700000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- The node factors as the program computes them: where the degree is positive its inverse square root, zero elsewhere,
    as a column. -/
private def dinvV (d : IVec S1700000 32) : FVec Ideal S100000x1 .f32 :=
  shapeCast S100000x1
    (select (cmpf .ogt (degV d) (broadcastInDim S100000 ![] bcast_S_S100000 (constant (F := Ideal) S_ .f32 0x00000000#32)))
      (Host.rsqrt (degV d))
      (broadcastInDim S100000 ![] bcast_S_S100000 (constant (F := Ideal) S_ .f32 0x00000000#32)))
    shapeCasts_S100000_S100000x1

/-- The program's degree of node `v` is the number of edges landing on `v`. -/
private theorem degV_apply (d : IVec S1700000 32) (v : Fin 100000) : degV d (ix1 v) = Spec.deg d v := by
  unfold degV Spec.deg
  rw [Cert.LibScatterGatherRows.scatterAdd_vec _ rfl rfl rfl rfl]
  have hidx : ∀ e : Fin 1700000,
      broadcastInDim S1700000x1 ![0] bcast_S1700000_S1700000x1_0 d (ix2 e 0) = d (ix1 e) := fun e =>
    broadcastInDim_apply _ _ _ _ (ix1 e) fun a => by
      match a with
      | ⟨0, _⟩ =>
        show e.val = if (1700000 : Nat) = 1 then 0 else e.val
        rw [if_neg (by decide)]
  simp only [hidx]
  exact congrArg₂ (· + ·) rfl (Finset.sum_congr (Finset.filter_congr fun e _ => Iff.rfl) fun e _ => rfl)

/-- The host's inverse square root of a vector, read at an index. -/
private theorem hostRsqrt_apply (x : FVec Ideal S100000 .f32) (i : S100000.Idx) :
    Host.rsqrt x i = Ideal.rsqrt (x i) := rfl

/-- The program's factor of node `v` is the inverse square root of its degree where that is positive, zero elsewhere. -/
private theorem dinvV_apply (d : IVec S1700000 32) (v : Fin 100000) : dinvV d (ix2 v 0) = Spec.dinv d v := by
  have hz : broadcastInDim S100000 ![] bcast_S_S100000 (constant (F := Ideal) S_ .f32 0x00000000#32) (ix1 v)
      = Spec.Z := rfl
  have hdeg := degV_apply d v
  unfold dinvV Spec.dinv
  -- the equation holds of any vector `D` and any extended real `x` with `D v = x`
  generalize degV d = D at hdeg ⊢
  generalize Spec.deg d v = x at hdeg ⊢
  rw [shapeCast_apply _ _ (ix2 v 0) (ix1 v) (by
    rw [Shape.rowMajor_val_one, Shape.rowMajor_val_two]
    show v.val = v.val * 1 + (0 : Fin 1).val
    simp)]
  rw [select_apply, cmpf_apply, Ideal.cmpf_def, hostRsqrt_apply, hz, hdeg]

open Idealize.ShloMosaic.StableHlo in
/-- Operations run one list after another are the concatenated list run once. -/
private theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The first stretch of host operations in three parts: the edge words; the degrees; the comparison and the inverse
    square root. -/
private abbrev opsA : List (HloOp τ sig (Elt Ideal)) := (hostOps0 (F := Ideal)).take 7
private abbrev opsB : List (HloOp τ sig (Elt Ideal)) := ((hostOps0 (F := Ideal)).drop 7).take 6
private abbrev opsC : List (HloOp τ sig (Elt Ideal)) := (hostOps0 (F := Ideal)).drop 13

private theorem hostOps0_split : (hostOps0 (F := Ideal)) = opsA ++ (opsB ++ opsC) := rfl

section Steps
open Idealize.ShloMosaic.StableHlo

/-- After the first part the destination buffer holds the destination words. -/
private theorem opsA_v6 (c : Dev nD) :
    (after opsA (W0 m ρ c) (Proc.devRef .tc main_v6) : IVec S1700000 32) = dstT (Arr.ei (Mem.V0 m) c) := by
  dsimp only [opsA, hostOps0, List.take]
  after_results
  rfl

/-- The second part leaves in the degree buffer the ones scattered over the destination buffer's words. -/
private theorem opsB_v10 (G : Valuation τ sig (Elt Ideal)) :
    (after opsB G (Proc.devRef .tc main_v10) : FVec Ideal S100000 .f32)
      = degV (G (Proc.devRef .tc main_v6) : IVec S1700000 32) := by
  dsimp only [opsB, hostOps0, List.take, List.drop]
  after_results
  rfl

/-- The third part compares the degree buffer with zero … -/
private theorem opsC_v12 (G : Valuation τ sig (Elt Ideal)) :
    (after opsC G (Proc.devRef .tc main_v12) : IVec S100000 1)
      = cmpf .ogt (G (Proc.devRef .tc main_v10) : FVec Ideal S100000 .f32)
          (broadcastInDim S100000 ![] bcast_S_S100000 (constant (F := Ideal) S_ .f32 0x00000000#32)) := by
  dsimp only [opsC, hostOps0, List.drop]
  after_results

/-- … takes its inverse square root … -/
private theorem opsC_v13 (G : Valuation τ sig (Elt Ideal)) :
    (after opsC G (Proc.devRef .tc main_v13) : FVec Ideal S100000 .f32)
      = Host.rsqrt (F := Ideal) (s := S100000) (φ := .f32) (G (Proc.devRef .tc main_v10)) := by
  dsimp only [opsC, hostOps0, List.drop]
  after_results

/-- … and writes a zero. -/
private theorem opsC_cst2 (G : Valuation τ sig (Elt Ideal)) :
    (after opsC G (Proc.devRef .tc main_cst_2) : FVec Ideal S_ .f32) = constant (F := Ideal) S_ .f32 0x00000000#32 := by
  dsimp only [opsC, hostOps0, List.drop]
  after_results

/-- The two later stretches select between the inverse square root and the zero by the comparison, as a column. -/
private theorem tail_v15 (G : Valuation τ sig (Elt Ideal)) :
    (after hostOps0_2 (after hostOps0_1 G) (Proc.devRef .tc main_v15) : FVec Ideal S100000x1 .f32)
      = shapeCast S100000x1
          (select (G (Proc.devRef .tc main_v12) : IVec S100000 1) (G (Proc.devRef .tc main_v13) : FVec Ideal S100000 .f32)
            (broadcastInDim S100000 ![] bcast_S_S100000 (G (Proc.devRef .tc main_cst_2) : FVec Ideal S_ .f32)))
          shapeCasts_S100000_S100000x1 := by
  dsimp only [hostOps0_1, hostOps0_2]
  after_results
  rfl

end Steps

/-- The node factors at the first kernel's entry: the inverse square root of the number of edges landing on the node. -/
theorem V3_dinv2 (c : Dev nD) (v : Fin 100000) :
    Arr.dinv2 (V3 m ρ) c (ix2 v 0) = Spec.dinv (Arr.dst (V3 m ρ) c) v := by
  have e : (Arr.dinv2 (V3 m ρ) c : S100000x1.Idx → EReal) = dinvV (dstT (Arr.ei (Mem.V0 m) c)) := by
    show StableHlo.after hostOps0_2 (StableHlo.after hostOps0_1 (StableHlo.after hostOps0 (W0 m ρ c)))
      (Proc.devRef .tc main_v15) = _
    rw [tail_v15, hostOps0_split, after_append, after_append, opsC_v12, opsC_v13, opsC_cst2, opsB_v10, opsA_v6]
    rfl
  rw [V3_dst, e]
  exact dinvV_apply _ v

/-- The first layer's weights are the stack's first matrix. -/
theorem V3_w0 (c : Dev nD) (j k : Fin 128) :
    Arr.w0 (V3 m ρ) c (ix2 j k) = Arr.ww (Mem.V0 m) c (ix3 0 j k) := by
  have e : (Arr.w0 (V3 m ρ) c : S128x128.Idx → EReal) =
      shapeCast S128x128 (extractStridedSlice S1x128x128 ![0, 0, 0] (Arr.ww (Mem.V0 m) c)
        slices_S3x128x128_S1x128x128_0_0_0) shapeCasts_S1x128x128_S128x128 := by
    show StableHlo.after hostOps0_2 (StableHlo.after hostOps0_1 (StableHlo.after hostOps0 (W0 m ρ c)))
      (Proc.devRef .tc main_v17) = _
    dsimp only [hostOps0, hostOps0_1, hostOps0_2]
    after_results
    rfl
  rw [e]
  -- the reshape keeps the row-major position; the slice starts at the stack's first matrix
  refine (shapeCast_apply _ _ (ix2 j k) (ix3 (0 : Fin 1) j k) ?_).trans ?_
  · rw [Shape.rowMajor_val_three, Shape.rowMajor_val_two]
    show ((0 : Fin 1).val * 128 + j.val) * 128 + k.val = j.val * 128 + k.val
    simp
  · refine extractStridedSlice_apply _ _ _ (ix3 (0 : Fin 1) j k) (ix3 (0 : Fin 3) j k) fun a => ?_
    match a with
    | ⟨0, _⟩ => rfl
    | ⟨1, _⟩ => show j.val = 0 + j.val; omega
    | ⟨2, _⟩ => show k.val = 0 + k.val; omega

end Cert.KernelIdeal.HostA

end
-- ==== Proof.KHostB.lean ====
import proofs.«416809_j1726576853644_2_alg».proof.Proof.Gen.KernelIdeal.Frame
import proofs.«416809_j1726576853644_2_alg».proof.Proof.Spec
import proofs.«416809_j1726576853644_2_alg».proof.Proof.SpecArgs
import proofs.«416809_j1726576853644_2_alg».proof.Proof.KArr
import proofs.«416809_j1726576853644_2_alg».proof.Proof.KMem
import proofs.«416809_j1726576853644_2_alg».proof.Proof.LibScatterGatherRows
import proofs.«416809_j1726576853644_2_alg».proof.Proof.LibGatherStacked
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostB

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! Between two kernels the host gathers the table's rows by the (wrapped) source words and adds them up at the
    destination words: the edge sum. -/

/-- The host's edge sum as one function of a table `T`, the source words `s` and the destination words `d`:
    the source words wrapped (a negative word plus the table's length), the table's rows gathered by them and
    widened, and the gathered rows added onto zeros at the rows the destination words name. -/
private def edgeFn (T : FVec Ideal S100000x128 .bf16) (s d : IVec S1700000 32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (extf .f32
      (Host.gather gather_S100000x128_S1700000x1_S1700000x128_1_0_n_n_0_1_1128 T
        (broadcastInDim S1700000x1 ![0] bcast_S1700000_S1700000x1_0
          (select
            (cmpi .slt s (broadcastInDim S1700000 ![] bcast_S_S1700000 (constantI S_ 32 0#32)))
            (addi s (broadcastInDim S1700000 ![] bcast_S_S1700000 (constantI S_ 32 100000#32)))
            s)))
      bitsLt_bf16_f32)

/-- A vector of words laid out as a column, read at row `e`: the vector's word `e`. -/
private theorem col_apply (x : IVec S1700000 32) (e : Fin 1700000) :
    broadcastInDim S1700000x1 ![0] bcast_S1700000_S1700000x1_0 x (ix2 e 0) = x (ix1 e) := by
  refine broadcastInDim_apply _ _ x (ix2 e 0) (ix1 e) fun a => ?_
  match a with
  | ⟨0, _⟩ => rfl

/-- THE EDGE SUM AT `(v, k)`: zero plus, over the edges whose destination word read signed is `v`, the table at
    the row the edge's source word names (wrapped, read signed, clamped into the table), column `k`. -/
private theorem edgeFn_apply (T : FVec Ideal S100000x128 .bf16) (s d : IVec S1700000 32) (v : Fin 100000) (k : Fin 128) :
    edgeFn T s d (ix2 v k) = Spec.aggK s d (fun u j => T (ix2 u j)) v k := by
  unfold edgeFn Spec.aggK
  rw [LibScatterGatherRows.scatterAdd_rows _ rfl rfl rfl rfl]
  -- the wrapped source words, named; word `e` of them is the wrapped word `e` of the source words
  generalize hw : (select (cmpi .slt s (broadcastInDim S1700000 ![] bcast_S_S1700000 (constantI S_ 32 0#32)))
      (addi s (broadcastInDim S1700000 ![] bcast_S_S1700000 (constantI S_ 32 100000#32))) s : IVec S1700000 32) = w
  have hw' : ∀ e : Fin 1700000, w (ix1 e) = Spec.wrapW (s (ix1 e)) := fun e => by rw [← hw]; rfl
  clear hw
  refine congrArg₂ (· + ·) ?_ (Finset.sum_congr (Finset.filter_congr fun e _ => ?_) fun e _ => ?_)
  · -- the operand: a zero word broadcast to every element
    rw [broadcastInDim_apply _ _ _ (ix2 v k) ix0 fun a => a.elim0, constant_apply]
  · -- the edges summed: those whose destination word, read signed, is `v`
    rw [col_apply]
  · -- one edge's row: the gathered row is the table's row at the wrapped source word, read signed and clamped
    rw [extf_apply, LibScatterGatherRows.gather_rows_ideal _ rfl rfl rfl rfl rfl _ _ e k (by norm_num)]
    refine congrArg (fun u => T (ix2 u k)) (Fin.ext ?_)
    show min (BitVec.toInt (broadcastInDim S1700000x1 ![0] bcast_S1700000_S1700000x1_0 w (ix2 e 0))).toNat (100000 - 1) = _
    rw [col_apply, hw']
    rfl

theorem agg1 (c : Dev nD) (v : Fin 100000) (k : Fin 128) :
    Arr.r0 (V5 m ρ) c (ix2 v k)
      = Spec.aggK (Arr.src (V4 m ρ) c) (Arr.dst (V4 m ρ) c) (fun u j => Arr.t0 (V4 m ρ) c (ix2 u j)) v k := by
  have e : (V5 m ρ c main_v29 : FVec Ideal S100000x128 .f32)
      = edgeFn (Arr.t0 (V4 m ρ) c) (Arr.src (V4 m ρ) c) (Arr.dst (V4 m ρ) c) := by
    show StableHlo.after hostOps1 (W4 m ρ c) (Proc.devRef .tc main_v29) = _
    after_results_simp
    rfl
  show (V5 m ρ c main_v29 : FVec Ideal S100000x128 .f32) (ix2 v k) = _
  rw [e]
  exact edgeFn_apply _ _ _ v k

theorem agg2 (c : Dev nD) (v : Fin 100000) (k : Fin 128) :
    Arr.r1 (V7 m ρ) c (ix2 v k)
      = Spec.aggK (Arr.src (V6 m ρ) c) (Arr.dst (V6 m ρ) c) (fun u j => Arr.t1 (V6 m ρ) c (ix2 u j)) v k := by
  have e : (V7 m ρ c main_v46 : FVec Ideal S100000x128 .f32)
      = edgeFn (Arr.t1 (V6 m ρ) c) (Arr.src (V6 m ρ) c) (Arr.dst (V6 m ρ) c) := by
    show StableHlo.after hostOps2 (W6 m ρ c) (Proc.devRef .tc main_v46) = _
    after_results_simp
    rfl
  show (V7 m ρ c main_v46 : FVec Ideal S100000x128 .f32) (ix2 v k) = _
  rw [e]
  exact edgeFn_apply _ _ _ v k

theorem agg3 (c : Dev nD) (v : Fin 100000) (k : Fin 128) :
    Arr.r2 (V9 m ρ) c (ix2 v k)
      = Spec.aggK (Arr.src (V8 m ρ) c) (Arr.dst (V8 m ρ) c) (fun u j => Arr.t2 (V8 m ρ) c (ix2 u j)) v k := by
  have e : (V9 m ρ c main_v63 : FVec Ideal S100000x128 .f32)
      = edgeFn (Arr.t2 (V8 m ρ) c) (Arr.src (V8 m ρ) c) (Arr.dst (V8 m ρ) c) := by
    show StableHlo.after hostOps3 (W8 m ρ c) (Proc.devRef .tc main_v63) = _
    after_results_simp
    rfl
  show (V9 m ρ c main_v63 : FVec Ideal S100000x128 .f32) (ix2 v k) = _
  rw [e]
  exact edgeFn_apply _ _ _ v k

end Cert.KernelIdeal.HostB

end
-- ==== Proof.KHostS.lean ====
import proofs.«416809_j1726576853644_2_alg».proof.Proof.Gen.KernelIdeal.Frame
import proofs.«416809_j1726576853644_2_alg».proof.Proof.Spec
import proofs.«416809_j1726576853644_2_alg».proof.Proof.SpecArgs
import proofs.«416809_j1726576853644_2_alg».proof.Proof.KArr
import proofs.«416809_j1726576853644_2_alg».proof.Proof.KMem

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostS

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! The small host operations between the kernels (a layer's bias row and weight matrix sliced out of the stacks, the
    graph words as a column) and the last stretch: the mean row of each graph times the last weights plus the last bias. -/

theorem bias1 (c : Dev nD) (k : Fin 128) : Arr.b0 (V5 m ρ) c (ix2 0 k) = Arr.bb (V4 m ρ) c (ix2 0 k) := by
  have e : (Arr.b0 (V5 m ρ) c : S1x128.Idx → EReal)
      = shapeCast S1x128 (shapeCast S128 (extractStridedSlice S1x128 ![0, 0] (Arr.bb (V4 m ρ) c) slices_S3x128_S1x128_0_0)
          shapeCasts_S1x128_S128) shapeCasts_S128_S1x128 := by
    show StableHlo.after hostOps1 (W4 m ρ c) (Proc.devRef .tc main_v34) = _
    simp only [hostOps1]
    after_results
    rfl
  rw [e]
  generalize Arr.bb (V4 m ρ) c = x
  refine (shapeCast_apply _ shapeCasts_S128_S1x128 (ix2 0 k) (ix1 k) ?_).trans ?_
  · rewrite [Shape.rowMajor_val_one, Shape.rowMajor_val_two]
    show k.val = 0 * 128 + k.val
    omega
  refine (shapeCast_apply _ shapeCasts_S1x128_S128 (ix1 k) (ix2 0 k) ?_).trans ?_
  · rewrite [Shape.rowMajor_val_one, Shape.rowMajor_val_two]
    show 0 * 128 + k.val = k.val
    omega
  exact extractStridedSlice_apply ![0, 0] x slices_S3x128_S1x128_0_0 (ix2 0 k) (ix2 0 k) (fun a => match a with
    | ⟨0, _⟩ => by show 0 = 0 + 0; omega
    | ⟨1, _⟩ => by show k.val = 0 + k.val; omega)
theorem wgt1 (c : Dev nD) (j k : Fin 128) : Arr.w1 (V5 m ρ) c (ix2 j k) = Arr.ww (V4 m ρ) c (ix3 1 j k) := by
  have e : (Arr.w1 (V5 m ρ) c : S128x128.Idx → EReal)
      = shapeCast S128x128 (extractStridedSlice S1x128x128 ![1, 0, 0] (Arr.ww (V4 m ρ) c) slices_S3x128x128_S1x128x128_1_0_0)
          shapeCasts_S1x128x128_S128x128 := by
    show StableHlo.after hostOps1 (W4 m ρ c) (Proc.devRef .tc main_v33) = _
    simp only [hostOps1]
    after_results
    rfl
  rw [e]
  generalize Arr.ww (V4 m ρ) c = x
  refine (shapeCast_apply _ shapeCasts_S1x128x128_S128x128 (ix2 j k) (ix3 0 j k) ?_).trans ?_
  · rewrite [Shape.rowMajor_val_three, Shape.rowMajor_val_two]
    show (0 * 128 + j.val) * 128 + k.val = j.val * 128 + k.val
    omega
  exact extractStridedSlice_apply ![1, 0, 0] x slices_S3x128x128_S1x128x128_1_0_0 (ix3 0 j k) (ix3 1 j k) (fun a => match a with
    | ⟨0, _⟩ => by show 1 = 1 + 0; omega
    | ⟨1, _⟩ => by show j.val = 0 + j.val; omega
    | ⟨2, _⟩ => by show k.val = 0 + k.val; omega)
theorem bias2 (c : Dev nD) (k : Fin 128) : Arr.b1 (V7 m ρ) c (ix2 0 k) = Arr.bb (V6 m ρ) c (ix2 1 k) := by
  have e : (Arr.b1 (V7 m ρ) c : S1x128.Idx → EReal)
      = shapeCast S1x128 (shapeCast S128 (extractStridedSlice S1x128 ![1, 0] (Arr.bb (V6 m ρ) c) slices_S3x128_S1x128_1_0)
          shapeCasts_S1x128_S128) shapeCasts_S128_S1x128 := by
    show StableHlo.after hostOps2 (W6 m ρ c) (Proc.devRef .tc main_v51) = _
    simp only [hostOps2]
    after_results
    rfl
  rw [e]
  generalize Arr.bb (V6 m ρ) c = x
  refine (shapeCast_apply _ shapeCasts_S128_S1x128 (ix2 0 k) (ix1 k) ?_).trans ?_
  · rewrite [Shape.rowMajor_val_one, Shape.rowMajor_val_two]
    show k.val = 0 * 128 + k.val
    omega
  refine (shapeCast_apply _ shapeCasts_S1x128_S128 (ix1 k) (ix2 0 k) ?_).trans ?_
  · rewrite [Shape.rowMajor_val_one, Shape.rowMajor_val_two]
    show 0 * 128 + k.val = k.val
    omega
  exact extractStridedSlice_apply ![1, 0] x slices_S3x128_S1x128_1_0 (ix2 0 k) (ix2 1 k) (fun a => match a with
    | ⟨0, _⟩ => by show 1 = 1 + 0; omega
    | ⟨1, _⟩ => by show k.val = 0 + k.val; omega)
theorem wgt2 (c : Dev nD) (j k : Fin 128) : Arr.w2 (V7 m ρ) c (ix2 j k) = Arr.ww (V6 m ρ) c (ix3 2 j k) := by
  have e : (Arr.w2 (V7 m ρ) c : S128x128.Idx → EReal)
      = shapeCast S128x128 (extractStridedSlice S1x128x128 ![2, 0, 0] (Arr.ww (V6 m ρ) c) slices_S3x128x128_S1x128x128_2_0_0)
          shapeCasts_S1x128x128_S128x128 := by
    show StableHlo.after hostOps2 (W6 m ρ c) (Proc.devRef .tc main_v50) = _
    simp only [hostOps2]
    after_results
    rfl
  rw [e]
  generalize Arr.ww (V6 m ρ) c = x
  refine (shapeCast_apply _ shapeCasts_S1x128x128_S128x128 (ix2 j k) (ix3 0 j k) ?_).trans ?_
  · rewrite [Shape.rowMajor_val_three, Shape.rowMajor_val_two]
    show (0 * 128 + j.val) * 128 + k.val = j.val * 128 + k.val
    omega
  exact extractStridedSlice_apply ![2, 0, 0] x slices_S3x128x128_S1x128x128_2_0_0 (ix3 0 j k) (ix3 2 j k) (fun a => match a with
    | ⟨0, _⟩ => by show 2 = 2 + 0; omega
    | ⟨1, _⟩ => by show j.val = 0 + j.val; omega
    | ⟨2, _⟩ => by show k.val = 0 + k.val; omega)
theorem bias3 (c : Dev nD) (k : Fin 128) : Arr.b2 (V9 m ρ) c (ix2 0 k) = Arr.bb (V8 m ρ) c (ix2 2 k) := by
  have e : (Arr.b2 (V9 m ρ) c : S1x128.Idx → EReal)
      = shapeCast S1x128 (shapeCast S128 (extractStridedSlice S1x128 ![2, 0] (Arr.bb (V8 m ρ) c) slices_S3x128_S1x128_2_0)
          shapeCasts_S1x128_S128) shapeCasts_S128_S1x128 := by
    show StableHlo.after hostOps3 (W8 m ρ c) (Proc.devRef .tc main_v66) = _
    simp only [hostOps3]
    after_results
    rfl
  rw [e]
  generalize Arr.bb (V8 m ρ) c = x
  refine (shapeCast_apply _ shapeCasts_S128_S1x128 (ix2 0 k) (ix1 k) ?_).trans ?_
  · rewrite [Shape.rowMajor_val_one, Shape.rowMajor_val_two]
    show k.val = 0 * 128 + k.val
    omega
  refine (shapeCast_apply _ shapeCasts_S1x128_S128 (ix1 k) (ix2 0 k) ?_).trans ?_
  · rewrite [Shape.rowMajor_val_one, Shape.rowMajor_val_two]
    show 0 * 128 + k.val = k.val
    omega
  exact extractStridedSlice_apply ![2, 0] x slices_S3x128_S1x128_2_0 (ix2 0 k) (ix2 2 k) (fun a => match a with
    | ⟨0, _⟩ => by show 2 = 2 + 0; omega
    | ⟨1, _⟩ => by show k.val = 0 + k.val; omega)
theorem words3 (c : Dev nD) (v : Fin 100000) : Arr.bt2 (V9 m ρ) c (ix2 v 0) = Arr.bt (V8 m ρ) c (ix1 v) := by
  have e : (Arr.bt2 (V9 m ρ) c : S100000x1.Idx → BitVec 32)
      = shapeCast S100000x1 (Arr.bt (V8 m ρ) c) shapeCasts_S100000_S100000x1 := by
    show StableHlo.after hostOps3 (W8 m ρ c) (Proc.devRef .tc main_v67) = _
    simp only [hostOps3]
    after_results
    rfl
  rw [e]
  generalize Arr.bt (V8 m ρ) c = x
  refine shapeCast_apply x shapeCasts_S100000_S100000x1 (ix2 v 0) (ix1 v) ?_
  rewrite [Shape.rowMajor_val_one, Shape.rowMajor_val_two]
  show v.val = v.val * 1 + 0
  omega

/-- The divisor of graph `g`'s row: the counts row read as a column, at least one, spread along the row. -/
private theorem den_apply (C : FVec Ideal S1x2048 .f32) (g : Fin 2048) (k : Fin 128) :
    broadcastInDim S2048x128 ![0, 1] bcast_S2048x1_S2048x128_0_1
        (maximumf (shapeCast S2048x1 C shapeCasts_S1x2048_S2048x1)
          (broadcastInDim S2048x1 ![] bcast_S_S2048x1 (constant (F := Ideal) S_ .f32 0x3F800000#32))) (ix2 g k)
      = max (C (ix2 0 g)) Spec.ONE := by
  have h1 : shapeCast S2048x1 C shapeCasts_S1x2048_S2048x1 (ix2 g 0) = C (ix2 0 g) := by
    generalize C = x
    refine shapeCast_apply x shapeCasts_S1x2048_S2048x1 (ix2 g 0) (ix2 0 g) ?_
    rewrite [Shape.rowMajor_val_two, Shape.rowMajor_val_two]
    show 0 * 2048 + g.val = g.val * 1 + 0
    omega
  have h2 : broadcastInDim S2048x1 ![] bcast_S_S2048x1 (constant (F := Ideal) S_ .f32 0x3F800000#32) (ix2 g 0)
      = Spec.ONE := by
    generalize hK : constant (F := Ideal) S_ .f32 0x3F800000#32 = K
    refine (broadcastInDim_apply _ bcast_S_S2048x1 K (ix2 g 0) ix0 (fun a => a.elim0)).trans ?_
    subst hK
    exact constant_apply _ _
  generalize hM : maximumf (shapeCast S2048x1 C shapeCasts_S1x2048_S2048x1)
      (broadcastInDim S2048x1 ![] bcast_S_S2048x1 (constant (F := Ideal) S_ .f32 0x3F800000#32)) = M
  refine (broadcastInDim_apply _ bcast_S2048x1_S2048x128_0_1 M (ix2 g k) (ix2 g 0) (fun a => match a with
    | ⟨0, _⟩ => by show g.val = if (2048 : Nat) = 1 then 0 else g.val; rw [if_neg (by decide)]
    | ⟨1, _⟩ => by show 0 = if (1 : Nat) = 1 then 0 else k.val; rw [if_pos rfl])).trans ?_
  subst hM
  rw [maximumf_apply, h1, h2]

/-- The coordinates of the two operand indices of the product with the one-column weights. -/
private theorem dot_lhs_0 (i : S2048x1.Idx) (q : dot_S2048x128_S128x1_S2048x1_1_0_0_1_n_n.contr.Idx) : (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide),
    dif_pos (show (0 : Fin S2048x128.rank) ∈ dot_S2048x128_S128x1_S2048x1_1_0_0_1_n_n.lhsNonContracting by decide)]
  rfl
private theorem dot_lhs_1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
private theorem dot_rhs_0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q
private theorem dot_rhs_1 (i : S2048x1.Idx) (q : dot_S2048x128_S128x1_S2048x1_1_0_0_1_n_n.contr.Idx) : (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide),
    dif_pos (show (1 : Fin S128x1.rank) ∈ dot_S2048x128_S128x1_S2048x1_1_0_0_1_n_n.rhsNonContracting by decide)]
  rfl

/-- The product with the one-column weights at row `g`: the sum over the 128 features. -/
private theorem dot_apply (Y : FVec Ideal S2048x128 .f32) (LW : FVec Ideal S128x1 .f32) (g : Fin 2048) :
    Host.dotGeneral dot_S2048x128_S128x1_S2048x1_1_0_0_1_n_n none Y LW (ix2 g 0) = ∑ k : Fin 128, Y (ix2 g k) * LW (ix2 k 0) := by
  simp only [Host.dotGeneral]
  rw [Ideal.dotGeneral_apply, ← Equiv.sum_comp (ValueIdx.contrEquiv1 dot_S2048x128_S128x1_S2048x1_1_0_0_1_n_n 128 rfl rfl).symm]
  refine Finset.sum_congr rfl fun k _ => ?_
  have hk := ValueIdx.contrEquiv1_symm_val dot_S2048x128_S128x1_S2048x1_1_0_0_1_n_n 128 rfl rfl k
  have el : dot_S2048x128_S128x1_S2048x1_1_0_0_1_n_n.lhsIdx (ix2 g 0) ((ValueIdx.contrEquiv1 dot_S2048x128_S128x1_S2048x1_1_0_0_1_n_n 128 rfl rfl).symm k) = ix2 g k :=
    funext fun a => Fin.ext (by
      match a with
      | ⟨0, _⟩ => exact dot_lhs_0 _ _
      | ⟨1, _⟩ => exact (dot_lhs_1 _ _).trans hk)
  have er : dot_S2048x128_S128x1_S2048x1_1_0_0_1_n_n.rhsIdx (ix2 g 0) ((ValueIdx.contrEquiv1 dot_S2048x128_S128x1_S2048x1_1_0_0_1_n_n 128 rfl rfl).symm k) = ix2 k 0 :=
    funext fun a => Fin.ext (by
      match a with
      | ⟨0, _⟩ => exact (dot_rhs_0 _ _).trans hk
      | ⟨1, _⟩ => exact dot_rhs_1 _ _)
  rw [el, er]

/-- The one-element bias spread down the column reads that element at every row. -/
private theorem bias_apply (LB : FVec Ideal S1 .f32) (g : Fin 2048) :
    broadcastInDim S2048x1 ![0, 1] bcast_S1x1_S2048x1_0_1 (broadcastInDim S1x1 ![1] bcast_S1_S1x1_1 LB) (ix2 g 0)
      = LB (ix1 0) := by
  generalize hB : broadcastInDim S1x1 ![1] bcast_S1_S1x1_1 LB = B
  refine (broadcastInDim_apply _ bcast_S1x1_S2048x1_0_1 B (ix2 g 0) (ix2 0 0) (fun a => match a with
    | ⟨0, _⟩ => by show 0 = if (1 : Nat) = 1 then 0 else g.val; rw [if_pos rfl]
    | ⟨1, _⟩ => by show 0 = if (1 : Nat) = 1 then 0 else 0; rw [if_pos rfl])).trans ?_
  subst hB
  exact broadcastInDim_apply _ bcast_S1_S1x1_1 LB (ix2 0 0) (ix1 0) (fun a => match a with
    | ⟨0, _⟩ => by show 0 = if (1 : Nat) = 1 then 0 else 0; rw [if_pos rfl])

theorem tail_out (c : Dev nD) (g : Fin 2048) :
    Arr.out (Mem.V11 m ρ) c (ix2 g 0)
      = Spec.outOf (fun g k => Arr.sums (V10 m ρ) c (ix2 g k)) (fun g => Arr.cnt (V10 m ρ) c (ix2 0 g))
          (Arr.lw (V10 m ρ) c) (Arr.lb (V10 m ρ) c) g := by
  have e : (Arr.out (Mem.V11 m ρ) c : S2048x1.Idx → EReal)
      = addf (Host.dotGeneral dot_S2048x128_S128x1_S2048x1_1_0_0_1_n_n none
            (Host.divf (Arr.sums (V10 m ρ) c)
              (broadcastInDim S2048x128 ![0, 1] bcast_S2048x1_S2048x128_0_1
                (maximumf (shapeCast S2048x1 (Arr.cnt (V10 m ρ) c) shapeCasts_S1x2048_S2048x1)
                  (broadcastInDim S2048x1 ![] bcast_S_S2048x1 (constant (F := Ideal) S_ .f32 0x3F800000#32)))))
            (Arr.lw (V10 m ρ) c))
          (broadcastInDim S2048x1 ![0, 1] bcast_S1x1_S2048x1_0_1
            (broadcastInDim S1x1 ![1] bcast_S1_S1x1_1 (Arr.lb (V10 m ρ) c))) := by
    show StableHlo.after hostOps4 (W10 m ρ c) (Proc.devRef .tc main_v77) = _
    simp only [hostOps4]
    after_results
    rfl
  rw [e]
  generalize Arr.sums (V10 m ρ) c = S
  generalize Arr.cnt (V10 m ρ) c = C
  generalize Arr.lw (V10 m ρ) c = LW
  generalize Arr.lb (V10 m ρ) c = LB
  unfold Spec.outOf
  rw [addf_apply, dot_apply, bias_apply]
  congr 1
  refine Finset.sum_congr rfl fun k _ => ?_
  congr 1
  show FloatOps.hostDivf (S (ix2 g k)) _ = _
  rw [Ideal.hostDivf_def, den_apply]

end Cert.KernelIdeal.HostS

end
-- ==== Proof.KKeep.lean ====
import proofs.«416809_j1726576853644_2_alg».proof.Proof.Gen.KernelIdeal.Frame
import proofs.«416809_j1726576853644_2_alg».proof.Proof.Spec
import proofs.«416809_j1726576853644_2_alg».proof.Proof.SpecArgs
import proofs.«416809_j1726576853644_2_alg».proof.Proof.KArr
import proofs.«416809_j1726576853644_2_alg».proof.Proof.KMem

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Keep

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! What each stretch of the run leaves alone: a host stretch rewrites only the buffers its operations write, a kernel
    region only its output arrays. -/

/-- The buffers written by the host operations before the first kernel. -/
abbrev wrA : List (Ref sig .tc) :=
  [main_v0, main_v1, main_v2, main_v3, main_v4, main_v5, main_v6, main_cst, main_v7, main_cst_0, main_v8, main_v9,
   main_v10, main_cst_1, main_v11, main_v12, main_v13, main_cst_2,
   main_call0_v0, main_call0_v1, main_v14,
   main_v15, main_v16, main_v17]
/-- The buffers written by the host operations between kernels 0 and 1, 1 and 2, 2 and 3. -/
abbrev wr1 : List (Ref sig .tc) :=
  [main_c, main_v19, main_v20, main_c_3, main_v21, main_v22, main_v23, main_v24, main_v25, main_v26, main_cst_4,
   main_v27, main_v28, main_v29, main_v30, main_v31, main_v32, main_v33, main_v34]
abbrev wr2 : List (Ref sig .tc) :=
  [main_c_5, main_v36, main_v37, main_c_6, main_v38, main_v39, main_v40, main_v41, main_v42, main_v43, main_cst_7,
   main_v44, main_v45, main_v46, main_v47, main_v48, main_v49, main_v50, main_v51]
abbrev wr3 : List (Ref sig .tc) :=
  [main_c_8, main_v53, main_v54, main_c_9, main_v55, main_v56, main_v57, main_v58, main_v59, main_v60, main_cst_10,
   main_v61, main_v62, main_v63, main_v64, main_v65, main_v66, main_v67]

/-- A single written reference that belongs to a list is inside the list's set of device buffers. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each operation before the first kernel writes a buffer of `wrA`. -/
private theorem writes0 : (hostOps0 : List (HloOp τ sig (Elt Ideal))).Forall
    fun op => op.writes ⊆ (wrA.map (Proc.devRef (τ := τ) .tc)).toFinset :=
  ⟨single_sub (y := main_v0) (by decide), single_sub (y := main_v1) (by decide), single_sub (y := main_v2) (by decide),
   single_sub (y := main_v3) (by decide), single_sub (y := main_v4) (by decide), single_sub (y := main_v5) (by decide),
   single_sub (y := main_v6) (by decide), single_sub (y := main_cst) (by decide), single_sub (y := main_v7) (by decide),
   single_sub (y := main_cst_0) (by decide), single_sub (y := main_v8) (by decide), single_sub (y := main_v9) (by decide),
   single_sub (y := main_v10) (by decide), single_sub (y := main_cst_1) (by decide), single_sub (y := main_v11) (by decide),
   single_sub (y := main_v12) (by decide), single_sub (y := main_v13) (by decide), single_sub (y := main_cst_2) (by decide)⟩
private theorem writes0_1 : (hostOps0_1 : List (HloOp τ sig (Elt Ideal))).Forall
    fun op => op.writes ⊆ (wrA.map (Proc.devRef (τ := τ) .tc)).toFinset :=
  ⟨single_sub (y := main_call0_v0) (by decide), single_sub (y := main_call0_v1) (by decide),
   single_sub (y := main_v14) (by decide)⟩
private theorem writes0_2 : (hostOps0_2 : List (HloOp τ sig (Elt Ideal))).Forall
    fun op => op.writes ⊆ (wrA.map (Proc.devRef (τ := τ) .tc)).toFinset :=
  ⟨single_sub (y := main_v15) (by decide), single_sub (y := main_v16) (by decide), single_sub (y := main_v17) (by decide)⟩
/-- Each operation between two kernels writes a buffer of its stretch's list. -/
private theorem writes1 : (hostOps1 : List (HloOp τ sig (Elt Ideal))).Forall
    fun op => op.writes ⊆ (wr1.map (Proc.devRef (τ := τ) .tc)).toFinset :=
  ⟨single_sub (y := main_c) (by decide), single_sub (y := main_v19) (by decide), single_sub (y := main_v20) (by decide),
   single_sub (y := main_c_3) (by decide), single_sub (y := main_v21) (by decide), single_sub (y := main_v22) (by decide),
   single_sub (y := main_v23) (by decide), single_sub (y := main_v24) (by decide), single_sub (y := main_v25) (by decide),
   single_sub (y := main_v26) (by decide), single_sub (y := main_cst_4) (by decide), single_sub (y := main_v27) (by decide),
   single_sub (y := main_v28) (by decide), single_sub (y := main_v29) (by decide), single_sub (y := main_v30) (by decide),
   single_sub (y := main_v31) (by decide), single_sub (y := main_v32) (by decide), single_sub (y := main_v33) (by decide),
   single_sub (y := main_v34) (by decide)⟩
private theorem writes2 : (hostOps2 : List (HloOp τ sig (Elt Ideal))).Forall
    fun op => op.writes ⊆ (wr2.map (Proc.devRef (τ := τ) .tc)).toFinset :=
  ⟨single_sub (y := main_c_5) (by decide), single_sub (y := main_v36) (by decide), single_sub (y := main_v37) (by decide),
   single_sub (y := main_c_6) (by decide), single_sub (y := main_v38) (by decide), single_sub (y := main_v39) (by decide),
   single_sub (y := main_v40) (by decide), single_sub (y := main_v41) (by decide), single_sub (y := main_v42) (by decide),
   single_sub (y := main_v43) (by decide), single_sub (y := main_cst_7) (by decide), single_sub (y := main_v44) (by decide),
   single_sub (y := main_v45) (by decide), single_sub (y := main_v46) (by decide), single_sub (y := main_v47) (by decide),
   single_sub (y := main_v48) (by decide), single_sub (y := main_v49) (by decide), single_sub (y := main_v50) (by decide),
   single_sub (y := main_v51) (by decide)⟩
private theorem writes3 : (hostOps3 : List (HloOp τ sig (Elt Ideal))).Forall
    fun op => op.writes ⊆ (wr3.map (Proc.devRef (τ := τ) .tc)).toFinset :=
  ⟨single_sub (y := main_c_8) (by decide), single_sub (y := main_v53) (by decide), single_sub (y := main_v54) (by decide),
   single_sub (y := main_c_9) (by decide), single_sub (y := main_v55) (by decide), single_sub (y := main_v56) (by decide),
   single_sub (y := main_v57) (by decide), single_sub (y := main_v58) (by decide), single_sub (y := main_v59) (by decide),
   single_sub (y := main_v60) (by decide), single_sub (y := main_cst_10) (by decide), single_sub (y := main_v61) (by decide),
   single_sub (y := main_v62) (by decide), single_sub (y := main_v63) (by decide), single_sub (y := main_v64) (by decide),
   single_sub (y := main_v65) (by decide), single_sub (y := main_v66) (by decide), single_sub (y := main_v67) (by decide)⟩

theorem keepA (c : Dev nD) (b : Ref sig .tc) (hb : b ∉ wrA) : V3 m ρ c b = m ((c : Thread nD τ).loc b) :=
  calc V3 m ρ c b
    _ = W2 m ρ c (Proc.devRef .tc b) := StableHlo.after_of_writes_sub hostOps0_2 _ writes0_2 hb
    _ = W1 m ρ c (Proc.devRef .tc b) := StableHlo.after_of_writes_sub hostOps0_1 _ writes0_1 hb
    _ = W0 m ρ c (Proc.devRef .tc b) := StableHlo.after_of_writes_sub hostOps0 _ writes0 hb
    _ = m ((c : Thread nD τ).loc b) := rfl
theorem keep1 (c : Dev nD) (b : Ref sig .tc) (hb : b ∉ wr1) : V5 m ρ c b = V4 m ρ c b :=
  StableHlo.after_of_writes_sub hostOps1 _ writes1 hb
theorem keep2 (c : Dev nD) (b : Ref sig .tc) (hb : b ∉ wr2) : V7 m ρ c b = V6 m ρ c b :=
  StableHlo.after_of_writes_sub hostOps2 _ writes2 hb
theorem keep3 (c : Dev nD) (b : Ref sig .tc) (hb : b ∉ wr3) : V9 m ρ c b = V8 m ρ c b :=
  StableHlo.after_of_writes_sub hostOps3 _ writes3 hb

/-- A window of each region whose array is not an output array is an input window. -/
private theorem in0 : ∀ w : Fin cfg0.W, Pipeline.arrRef spec0 w ≠ main_v18 → (cfg0.win w).isOut = false := by decide
private theorem in1 : ∀ w : Fin cfg1.W, Pipeline.arrRef spec1 w ≠ main_v35 → (cfg1.win w).isOut = false := by decide
private theorem in2 : ∀ w : Fin cfg2.W, Pipeline.arrRef spec2 w ≠ main_v52 → (cfg2.win w).isOut = false := by decide
private theorem in3 : ∀ w : Fin cfg3.W, Pipeline.arrRef spec3 w ≠ main_v68_0 ∧ Pipeline.arrRef spec3 w ≠ main_v68_1 →
    (cfg3.win w).isOut = false := by decide

theorem keepR0 (c : Dev nD) (b : Ref sig .tc) (hb : b ≠ main_v18) : V4 m ρ c b = V3 m ρ c b := by
  by_cases h : ∀ w, Pipeline.arrRef spec0 w ≠ b
  · exact W4_of_ne m ρ c b h
  · obtain ⟨w, hw⟩ := not_forall.mp h
    obtain rfl : Pipeline.arrRef spec0 w = b := not_not.mp hw
    exact (W4_arr m ρ c w).trans (((dat0 (V3 m ρ) c).arrAt_in w (in0 w hb) _).trans (A_eq0 (V3 m ρ) c w))
theorem keepR1 (c : Dev nD) (b : Ref sig .tc) (hb : b ≠ main_v35) : V6 m ρ c b = V5 m ρ c b := by
  by_cases h : ∀ w, Pipeline.arrRef spec1 w ≠ b
  · exact W6_of_ne m ρ c b h
  · obtain ⟨w, hw⟩ := not_forall.mp h
    obtain rfl : Pipeline.arrRef spec1 w = b := not_not.mp hw
    exact (W6_arr m ρ c w).trans (((dat1 (V5 m ρ) c).arrAt_in w (in1 w hb) _).trans (A_eq1 (V5 m ρ) c w))
theorem keepR2 (c : Dev nD) (b : Ref sig .tc) (hb : b ≠ main_v52) : V8 m ρ c b = V7 m ρ c b := by
  by_cases h : ∀ w, Pipeline.arrRef spec2 w ≠ b
  · exact W8_of_ne m ρ c b h
  · obtain ⟨w, hw⟩ := not_forall.mp h
    obtain rfl : Pipeline.arrRef spec2 w = b := not_not.mp hw
    exact (W8_arr m ρ c w).trans (((dat2 (V7 m ρ) c).arrAt_in w (in2 w hb) _).trans (A_eq2 (V7 m ρ) c w))
theorem keepR3 (c : Dev nD) (b : Ref sig .tc) (hb : b ≠ main_v68_0 ∧ b ≠ main_v68_1) : V10 m ρ c b = V9 m ρ c b := by
  by_cases h : ∀ w, Pipeline.arrRef spec3 w ≠ b
  · exact W10_of_ne m ρ c b h
  · obtain ⟨w, hw⟩ := not_forall.mp h
    obtain rfl : Pipeline.arrRef spec3 w = b := not_not.mp hw
    exact (W10_arr m ρ c w).trans (((dat3 (V9 m ρ) c).arrAt_in w (in3 w hb) _).trans (A_eq3 (V9 m ρ) c w))

/-- The buffers the whole run after the first kernel's entry leaves alone that the value proof reads late. -/
abbrev kept : List (Ref sig .tc) :=
  [main_arg0, main_arg1, main_arg2, main_arg3, main_arg4, main_arg5, main_arg6, main_v3, main_v6, main_v15]

/-- A kept buffer is no region's output array and is written by no host stretch between the kernels. -/
private theorem kept_apart : ∀ b ∈ kept, b ≠ main_v18 ∧ b ∉ wr1 ∧ b ≠ main_v35 ∧ b ∉ wr2 ∧ b ≠ main_v52 ∧ b ∉ wr3
    ∧ (b ≠ main_v68_0 ∧ b ≠ main_v68_1) := by decide

/-- Each kept buffer holds at every later boundary what it held at the first kernel's entry. -/
theorem keep_all (c : Dev nD) (b : Ref sig .tc) (hb : b ∈ kept) :
    V4 m ρ c b = V3 m ρ c b ∧ V5 m ρ c b = V3 m ρ c b ∧ V6 m ρ c b = V3 m ρ c b ∧ V7 m ρ c b = V3 m ρ c b
      ∧ V8 m ρ c b = V3 m ρ c b ∧ V9 m ρ c b = V3 m ρ c b ∧ V10 m ρ c b = V3 m ρ c b := by
  obtain ⟨h4, h5, h6, h7, h8, h9, h10⟩ := kept_apart b hb
  have e4 : V4 m ρ c b = V3 m ρ c b := keepR0 m ρ c b h4
  have e5 : V5 m ρ c b = V3 m ρ c b := (keep1 m ρ c b h5).trans e4
  have e6 : V6 m ρ c b = V3 m ρ c b := (keepR1 m ρ c b h6).trans e5
  have e7 : V7 m ρ c b = V3 m ρ c b := (keep2 m ρ c b h7).trans e6
  have e8 : V8 m ρ c b = V3 m ρ c b := (keepR2 m ρ c b h8).trans e7
  have e9 : V9 m ρ c b = V3 m ρ c b := (keep3 m ρ c b h9).trans e8
  have e10 : V10 m ρ c b = V3 m ρ c b := (keepR3 m ρ c b h10).trans e9
  exact ⟨e4, e5, e6, e7, e8, e9, e10⟩

/-- No host operation before the first kernel writes an argument. -/
private theorem args_apart : ∀ b ∈ ([main_arg0, main_arg1, main_arg2, main_arg3, main_arg4, main_arg5, main_arg6] : List (Ref sig .tc)),
    b ∉ wrA := by decide

/-- The seven arguments hold at the first kernel's entry what the program was launched with. -/
theorem keep_args (c : Dev nD) (b : Ref sig .tc)
    (hb : b ∈ [main_arg0, main_arg1, main_arg2, main_arg3, main_arg4, main_arg5, main_arg6]) :
    V3 m ρ c b = m ((c : Thread nD τ).loc b) :=
  keepA m ρ c b (args_apart b hb)

end Cert.KernelIdeal.Keep

end
-- ==== Proof.Region0.lean ====
import proofs.«416809_j1726576853644_2_alg».proof.Proof.Gen.KernelIdeal.Frame
import proofs.«416809_j1726576853644_2_alg».proof.Proof.Spec
import proofs.«416809_j1726576853644_2_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of an access to a whole block, as the constant function. -/
private theorem zero_offsets : (![0, 0] : Fin 2 → Nat) = fun _ => 0 := funext fun a => by fin_cases a <;> rfl

/-! ## The product of a row block with the weights, at an index -/

/-- The left operand's row is the result's row. -/
private theorem lhs_rowblock_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the summation index. -/
private theorem lhs_rowblock_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the summation index. -/
private theorem rhs_rowblock_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the result's column. -/
private theorem rhs_rowblock_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A row block times the weights, accumulated from zero, at row `p` and column `q`: the sum over the shared axis. -/
private theorem matmul_rowblock_apply (a : FVec Ideal S10000x128 .bf16) (b : FVec Ideal S128x128 .bf16) (p : Fin 10000) (q : Fin 128) :
    matmul dot_S10000x128_S128x128_S10000x128_1_0_0_1_n_n none a b (constant (F := Ideal) S10000x128 .f32 0x00000000#32) (ix2 p q)
      = ∑ j : Fin 128, a (ix2 p j) * b (ix2 j q) := by
  show FloatOps.matmul dot_S10000x128_S128x128_S10000x128_1_0_0_1_n_n none a b (constant (F := Ideal) S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun j _ => ?_
  have hj := ValueIdx.contrEquiv1_symm_val dot_S10000x128_S128x128_S10000x128_1_0_0_1_n_n 128 rfl rfl j
  have el : dot_S10000x128_S128x128_S10000x128_1_0_0_1_n_n.lhsIdx (ix2 p q) ((ValueIdx.contrEquiv1 dot_S10000x128_S128x128_S10000x128_1_0_0_1_n_n 128 rfl rfl).symm j) = ix2 p j := funext fun a => Fin.ext (by
    match a with
    | ⟨0, _⟩ => exact lhs_rowblock_0 _ _
    | ⟨1, _⟩ => exact (lhs_rowblock_1 _ _).trans hj)
  have er : dot_S10000x128_S128x128_S10000x128_1_0_0_1_n_n.rhsIdx (ix2 p q) ((ValueIdx.contrEquiv1 dot_S10000x128_S128x128_S10000x128_1_0_0_1_n_n 128 rfl rfl).symm j) = ix2 j q := funext fun a => Fin.ext (by
    match a with
    | ⟨0, _⟩ => exact (rhs_rowblock_0 _ _).trans hj
    | ⟨1, _⟩ => exact rhs_rowblock_1 _ _)
  rw [el, er]

/-- A column laid along every row, at row `p` and column `q`, is the column's entry at row `p`. -/
private theorem column_broadcast_apply (y : FVec Ideal S10000x1 .f32) (p : Fin 10000) (q : Fin 128) :
    broadcastTo S10000x128 y broadcasts_S10000x1_S10000x128 (ix2 p q) = y (ix2 p 0) := by
  refine broadcastTo_apply y broadcasts_S10000x1_S10000x128 (ix2 p q) (ix2 p (0 : Fin 1)) ?_
  intro a
  match a with
  | ⟨0, _⟩ =>
    show p.val = if (10000 : ℕ) = 1 then 0 else p.val
    rw [if_neg (by decide)]
  | ⟨1, _⟩ =>
    show (0 : ℕ) = if (1 : ℕ) = 1 then 0 else _
    rw [if_pos rfl]

/-! ## The body's arithmetic at an index -/

/-- What the body stores, at row `p` and column `q` of the block: the row of the first block times the weights' column,
    scaled by the factor of row `p`. Every change of format is the identity on extended reals. -/
private theorem payload_apply (x0 : Vec Ideal S10000x128 .f32) (x1 : Vec Ideal S128x128 .f32) (x2 : Vec Ideal S10000x1 .f32)
    (p : Fin 10000) (q : Fin 128) :
    k0_pay1 (F := Ideal) x0 x1 x2 (ix2 p q) = (∑ j : Fin 128, x0 (ix2 p j) * x1 (ix2 j q)) * x2 (ix2 p 0) := by
  unfold k0_pay1
  show mulf (matmul dot_S10000x128_S128x128_S10000x128_1_0_0_1_n_n none (truncf .bf16 x0 bitsLt_bf16_f32) (truncf .bf16 (shapeCast S128x128 x1 shapeCasts_S128x128_S128x128) bitsLt_bf16_f32) (constant (F := Ideal) S10000x128 .f32 0x00000000#32))
      (broadcastTo S10000x128 (shapeCast S10000x1 x2 shapeCasts_S10000x1_S10000x1) broadcasts_S10000x1_S10000x128) (ix2 p q) = _
  rw [mulf_apply, matmul_rowblock_apply, column_broadcast_apply, shapeCast_self, shapeCast_self]
  rfl

/-! ## The blocks of the arrays -/

/-- The printed index maps, decided over the ten points: point `t` takes row block `t` of the rows, of the factors and
    of the output, and the whole weight matrix. -/
private theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t`'s block of the rows is rows `10000 t … 10000 t + 9999` of `x`. -/
private theorem x_block_apply (c : Dev nD) (t : Fin cfg0.N) (z : S10000x128.Idx) (i : S100000x128.Idx)
    (h0 : (i 0).val = t.val * 10000 + (z 0).val) (h1 : (i 1).val = (z 1).val) :
    (iblk0 (F := Ideal) V c 0 t : Vec Ideal S10000x128 .f32) z = Arr.x V c i := by
  obtain ⟨e0, e1, -⟩ := index_facts t
  unfold iblk0
  rw [View.read_apply]
  show V c main_arg0 _ = V c main_arg0 i
  refine congrArg (V c main_arg0) (funext fun a => Fin.ext ?_)
  match a with
  | ⟨0, _⟩ => show win0_0.index t (0 : Fin 2) * 10000 + 1 * (z 0).val = (i 0).val; omega
  | ⟨1, _⟩ => show win0_0.index t (1 : Fin 2) * 128 + 1 * (z 1).val = (i 1).val; omega

/-- Every point's block of the weights is the whole weight matrix. -/
private theorem w_block_apply (c : Dev nD) (t : Fin cfg0.N) (z : S128x128.Idx) :
    (iblk0 (F := Ideal) V c 1 t : Vec Ideal S128x128 .f32) z = Arr.w0 V c z := by
  obtain ⟨-, -, e0, e1, -⟩ := index_facts t
  unfold iblk0
  rw [View.read_apply]
  show V c main_v17 _ = V c main_v17 z
  refine congrArg (V c main_v17) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- Point `t`'s block of the factors is entries `10000 t … 10000 t + 9999` of the factor column. -/
private theorem factor_block_apply (c : Dev nD) (t : Fin cfg0.N) (z : S10000x1.Idx) (i : S100000x1.Idx)
    (h0 : (i 0).val = t.val * 10000 + (z 0).val) (h1 : (i 1).val = (z 1).val) :
    (iblk0 (F := Ideal) V c 2 t : Vec Ideal S10000x1 .f32) z = Arr.dinv2 V c i := by
  obtain ⟨-, -, -, -, e0, e1, -⟩ := index_facts t
  unfold iblk0
  rw [View.read_apply]
  show V c main_v15 _ = V c main_v15 i
  refine congrArg (V c main_v15) (funext fun a => Fin.ext ?_)
  match a with
  | ⟨0, _⟩ => show win0_2.index t (0 : Fin 2) * 10000 + 1 * (z 0).val = (i 0).val; omega
  | ⟨1, _⟩ => show win0_2.index t (1 : Fin 2) * 1 + 1 * (z 1).val = (i 1).val; omega

/-! ## What a point writes back -/

/-- The array the kernel leaves: at node `u` and feature `k`, row `u` of `x` times column `k` of the weights, scaled by
    the factor of node `u`. -/
private abbrev scaledProduct (c : Dev nD) : FVec Ideal S100000x128 .bf16 := fun i =>
  (∑ j : Fin 128, Arr.x V c (ix2 (i 0 : Fin 100000) j) * Arr.w0 V c (ix2 j (i 1 : Fin 128))) * Arr.dinv2 V c (ix2 (i 0 : Fin 100000) 0)

/-- What point `t` writes back is block `t` of that array. -/
private theorem flushed_eq (c : Dev nD) (t : Fin cfg0.N) :
    (dat0 (F := Ideal) V c).flushed 3 t = ((cfg0.win 3).blk t).view.read (Elt Ideal) (scaledProduct V c) := by
  show (cfg0.win 3).cut (grid0.coords t) ((dat0 (F := Ideal) V c).after 3 t) = _
  rw [after0_3]
  unfold out0_3
  rw [View.canon_unit_zero zero_offsets]
  simp only [View.ld_unit_zero (S := S10000x128) zero_offsets, View.ld_unit_zero (S := S128x128) zero_offsets, View.ld_unit_zero (S := S10000x1) zero_offsets]
  obtain ⟨-, -, -, -, -, -, e0, e1⟩ := index_facts t
  funext y
  rw [View.read_apply]
  have hy0 : (y 0).val < 10000 := (y 0).isLt
  have hy1 : (y 1).val < 128 := (y 1).isLt
  have c0 : ((((cfg0.win 3).blk t).view.emb y) 0).val = t.val * 10000 + (y 0).val := by
    show win0_3.index t (0 : Fin 2) * 10000 + 1 * (y 0).val = _; omega
  have c1 : ((((cfg0.win 3).blk t).view.emb y) 1).val = (y 1).val := by
    show win0_3.index t (1 : Fin 2) * 128 + 1 * (y 1).val = _; omega
  refine (congrArg (k0_pay1 (F := Ideal) (iblk0 V c 0 t) (iblk0 V c 1 t) (iblk0 V c 2 t)) (eq_ix2 y)).trans ?_
  refine (payload_apply (iblk0 V c 0 t) (iblk0 V c 1 t) (iblk0 V c 2 t) (y 0) (y 1)).trans ?_
  refine congrArg₂ (· * ·) (Finset.sum_congr rfl fun j _ => congrArg₂ (· * ·) ?_ ?_) ?_
  · exact x_block_apply V c t _ _ c0 rfl
  · exact (w_block_apply V c t _).trans (congrArg (Arr.w0 V c) (funext fun a => Fin.ext (by
      match a with
      | ⟨0, _⟩ => rfl
      | ⟨1, _⟩ => exact c1.symm)))
  · exact factor_block_apply V c t _ _ c0 rfl

/-! ## The ten row blocks cover the array -/

/-- An index of the array is in point `t`'s block iff each coordinate is in the block's range on its axis. -/
private theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v18).slice (win0_3.rect t)).set ↔ _
  rw [View.set_slice_whole, Rect.mem_set_unit]
  exact Iff.rfl

/-- Row `r` lies in the block of point `r / 10000`. -/
private theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  have hlt : (i 0).val / 10000 < grid0.N := by rw [hN]; omega
  refine ⟨⟨(i 0).val / 10000, hlt⟩, flush0_3 _, ?_⟩
  rw [mem_block]
  obtain ⟨-, -, -, -, -, -, e0, e1⟩ := index_facts ⟨(i 0).val / 10000, hlt⟩
  intro a
  match a with
  | ⟨0, _⟩ =>
    show win0_3.index ⟨(i 0).val / 10000, hlt⟩ (0 : Fin 2) * 10000 ≤ (i 0).val ∧ (i 0).val < win0_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, hlt⟩ (1 : Fin 2) * 128 ≤ (i 1).val ∧ (i 1).val < win0_3.index ⟨(i 0).val / 10000, hlt⟩ (1 : Fin 2) * 128 + 128
    rw [e1]; omega

/-- After the first kernel's ten row blocks are written back, the output array holds, at node `u` and feature `k`,
    the row of `x` times the weight matrix, scaled by the node's factor. -/
theorem region0_value (c : Dev nD) (u : Fin 100000) (k : Fin 128) :
    (dat0 (F := Ideal) V c).arrAt 3 cfg0.N (ix2 u k)
      = (∑ j : Fin 128, Arr.x V c (ix2 u j) * Arr.w0 V c (ix2 j k)) * Arr.dinv2 V c (ix2 u 0) :=
  congrFun ((dat0 (F := Ideal) V c).arrAt_eq_of_cover 3 (scaledProduct V c) (fun t _ => flushed_eq V c t) covered) (ix2 u k)

end Cert.KernelIdeal.Region0

end
-- ==== Proof.Region1.lean ====
import proofs.«416809_j1726576853644_2_alg».proof.Proof.Gen.KernelIdeal.Frame
import proofs.«416809_j1726576853644_2_alg».proof.Proof.Spec
import proofs.«416809_j1726576853644_2_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The block origin of every load and store of the body is the zero vector. -/
private theorem hz : (![0, 0] : Fin 2 → Nat) = fun _ => 0 := funext fun a => by fin_cases a <;> rfl

/-! ## The block product's operand indices, axis by axis -/

private theorem lhs_prod_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs_prod_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs_prod_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs_prod_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product into the zero accumulator, at row `p` and column `q`: the sum over the contracted axis of the
    products of the left operand's row `p` and the right operand's column `q`. -/
private theorem prod_apply (A : FVec Ideal S10000x128 .bf16) (B : FVec Ideal S128x128 .bf16) (p : Fin 10000) (q : Fin 128) :
    matmul dot_S10000x128_S128x128_S10000x128_1_0_0_1_n_n none A B (constant (F := Ideal) S10000x128 .f32 0x00000000#32) (ix2 p q)
      = ∑ j : Fin 128, A (ix2 p j) * B (ix2 j q) := by
  simp only [matmul]
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 p q) ((contrEquiv1 dot_S10000x128_S128x128_S10000x128_1_0_0_1_n_n 128 rfl rfl).symm j) = ix2 p j := funext fun a => Fin.ext (by
    match a with
    | ⟨0, _⟩ => exact lhs_prod_0 _ _
    | ⟨1, _⟩ => exact (lhs_prod_1 _ _).trans hj)
  have er : dot_S10000x128_S128x128_S10000x128_1_0_0_1_n_n.rhsIdx (ix2 p q) ((contrEquiv1 dot_S10000x128_S128x128_S10000x128_1_0_0_1_n_n 128 rfl rfl).symm j) = ix2 j q := funext fun a => Fin.ext (by
    match a with
    | ⟨0, _⟩ => exact (rhs_prod_0 _ _).trans hj
    | ⟨1, _⟩ => exact rhs_prod_1 _ _)
  rw [el, er]

/-- A column of per-row factors broadcast along the rows reads, at row `p`, the factor of row `p`. -/
private theorem col_apply (f : FVec Ideal S10000x1 .f32) (p : Fin 10000) (q : Fin 128) :
    broadcastTo S10000x128 f broadcasts_S10000x1_S10000x128 (ix2 p q) = f (ix2 p 0) := by
  refine broadcastTo_apply f broadcasts_S10000x1_S10000x128 (ix2 p q) (ix2 p 0) fun ax => ?_
  match ax with
  | ⟨0, _⟩ => rfl
  | ⟨1, _⟩ => rfl

/-- The body's arithmetic at row `p` and column `q` of a block: the row scaled by its factor, plus the bias, clamped
    below at zero, times the weights, scaled by the row's factor again. The format changes are the identity on the
    extended reals. -/
private theorem pay_apply (x : FVec Ideal S10000x128 .f32) (f : FVec Ideal S10000x1 .f32) (b : FVec Ideal S1x128 .f32)
    (w : FVec Ideal S128x128 .f32) (f' : FVec Ideal S10000x1 .f32) (p : Fin 10000) (q : Fin 128) :
    k1_pay1 (F := Ideal) x f b w f' (ix2 p q)
      = (∑ j : Fin 128, max (x (ix2 p j) * f (ix2 p 0) + b (ix2 0 j)) Spec.Z * w (ix2 j q)) * f' (ix2 p 0) := by
  unfold k1_pay1
  simp only [shapeCast_self]
  rw [truncf_apply, mulf_apply, prod_apply, col_apply]
  refine congrArg (· * f' (ix2 p 0)) (Finset.sum_congr rfl fun j _ => ?_)
  rw [truncf_apply, truncf_apply, maximumf_apply, addf_apply, mulf_apply, col_apply, broadcastTo_1b_ab_apply, broadcast_apply]
  rfl

/-! ## From the blocks to the array -/

/-- What the output array ends holding: at node `i 0` and feature `i 1`. -/
private abbrev G (c : Dev nD) : FVec Ideal S100000x128 .bf16 := fun i =>
  (∑ j : Fin 128, max (Arr.r0 V c (ix2 (i 0) j) * Arr.dinv2 V c (ix2 (i 0) 0) + Arr.b0 V c (ix2 0 j)) Spec.Z
      * Arr.w1 V c (ix2 j (i 1))) * Arr.dinv2 V c (ix2 (i 0) 0)

/-- The body's arithmetic on blocks that are the arrays' rows and columns named by an array index `i`, read at the block
    index `y`, is `G` at `i`. -/
private theorem block_apply (c : Dev nD) (x : FVec Ideal S10000x128 .f32) (b : FVec Ideal S1x128 .f32)
    (w : FVec Ideal S128x128 .f32) (f : FVec Ideal S10000x1 .f32) (y : S10000x128.Idx) (i : S100000x128.Idx)
    (hx : ∀ j : Fin 128, x (ix2 (y 0) j) = Arr.r0 V c (ix2 (i 0) j))
    (hb : ∀ j : Fin 128, b (ix2 0 j) = Arr.b0 V c (ix2 0 j))
    (hw : ∀ j : Fin 128, w (ix2 j (y 1)) = Arr.w1 V c (ix2 j (i 1)))
    (hf : f (ix2 (y 0) 0) = Arr.dinv2 V c (ix2 (i 0) 0)) :
    k1_pay1 (F := Ideal) x f b w f y = G V c i := by
  obtain ⟨p, q, rfl⟩ : ∃ (p : Fin 10000) (q : Fin 128), y = ix2 p q := ⟨y 0, y 1, eq_ix2 y⟩
  rw [pay_apply]
  show _ = (∑ j : Fin 128, _) * _
  rw [← hf]
  refine congrArg (· * f (ix2 p 0)) (Finset.sum_congr rfl fun j _ => ?_)
  rw [← hx j, ← hb j, ← hw j]

/-- The printed index maps over the grid: point `t` reads row block `t` of the summed rows and of the factors, the
    whole bias row and the whole weight matrix, and writes row block `t` of the output. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `G`. -/
private theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S10000x128) hz, View.ld_unit_zero (S := S10000x1) hz,
    View.ld_unit_zero (S := S1x128) hz, View.ld_unit_zero (S := S128x128) hz]
  obtain ⟨e00, e01, e10, e11, e20, e21, e30, e31, e40, e41⟩ := idx_facts t
  funext y

  refine block_apply V c (iblk1 V c 0 t) (iblk1 V c 1 t) (iblk1 V c 2 t) (iblk1 V c 3 t) y
    (((cfg1.win 4).blk t).view.emb y) (fun j => ?_) (fun j => ?_) (fun j => ?_) ?_
  · show V c (Pipeline.arrRef spec1 0) (((cfg1.win 0).blk t).view.emb (ix2 (y 0) j)) = V c (Pipeline.arrRef spec1 0) _
    refine congrArg _ (funext fun a => Fin.ext ?_)
    match a with
    | ⟨0, _⟩ => show win1_0.index t (0 : Fin 2) * 10000 + 1 * (y 0).val = win1_4.index t (0 : Fin 2) * 10000 + 1 * (y 0).val; rw [e00, e40]
    | ⟨1, _⟩ => show win1_0.index t (1 : Fin 2) * 128 + 1 * j.val = j.val; rw [e01]; omega
  · show V c (Pipeline.arrRef spec1 1) (((cfg1.win 1).blk t).view.emb (ix2 0 j)) = V c (Pipeline.arrRef spec1 1) _
    refine congrArg _ (funext fun a => Fin.ext ?_)
    match a with
    | ⟨0, _⟩ => show win1_1.index t (0 : Fin 2) * 1 + 1 * 0 = 0; rw [e10]
    | ⟨1, _⟩ => show win1_1.index t (1 : Fin 2) * 128 + 1 * j.val = j.val; rw [e11]; omega
  · show V c (Pipeline.arrRef spec1 2) (((cfg1.win 2).blk t).view.emb (ix2 j (y 1))) = V c (Pipeline.arrRef spec1 2) _
    refine congrArg _ (funext fun a => Fin.ext ?_)
    match a with
    | ⟨0, _⟩ => show win1_2.index t (0 : Fin 2) * 128 + 1 * j.val = j.val; rw [e20]; omega
    | ⟨1, _⟩ => show win1_2.index t (1 : Fin 2) * 128 + 1 * (y 1).val = win1_4.index t (1 : Fin 2) * 128 + 1 * (y 1).val; rw [e21, e41]
  · show V c (Pipeline.arrRef spec1 3) (((cfg1.win 3).blk t).view.emb (ix2 (y 0) 0)) = V c (Pipeline.arrRef spec1 3) _
    refine congrArg _ (funext fun a => Fin.ext ?_)
    match a with
    | ⟨0, _⟩ => show win1_3.index t (0 : Fin 2) * 10000 + 1 * (y 0).val = win1_4.index t (0 : Fin 2) * 10000 + 1 * (y 0).val; rw [e30, e40]
    | ⟨1, _⟩ => show win1_3.index t (1 : Fin 2) * 1 + 1 * 0 = 0; rw [e31]

/-- An index of the output array is in point `t`'s block iff each coordinate is in the block's range on its axis. -/
private theorem mem_blk (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v35).slice (win1_4.rect t)).set ↔ _
  rw [View.set_slice_whole, Rect.mem_set_unit]
  exact Iff.rfl

/-- Row `u` lies in row block `u / 10000`: the ten blocks cover the array. -/
private theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_4 _, ?_⟩
  obtain ⟨-, -, -, -, -, -, -, -, e40, e41⟩ := idx_facts ⟨(i 0).val / 10000, by rw [hN]; omega⟩
  rw [mem_blk]
  intro a
  match a with
  | ⟨0, _⟩ =>
    show win1_4.index _ (0 : Fin 2) * 10000 ≤ (i 0).val ∧ (i 0).val < win1_4.index _ (0 : Fin 2) * 10000 + 10000
    rw [e40]; show (i 0).val / 10000 * 10000 ≤ (i 0).val ∧ (i 0).val < (i 0).val / 10000 * 10000 + 10000; omega
  | ⟨1, _⟩ =>
    show win1_4.index _ (1 : Fin 2) * 128 ≤ (i 1).val ∧ (i 1).val < win1_4.index _ (1 : Fin 2) * 128 + 128
    rw [e41]; omega

/-- After the second kernel's ten row blocks are written back, the output array holds, at node `u` and feature `k`:
    the input row scaled by the node's factor, plus the bias, clamped below at zero, times the weight matrix, scaled
    by the node's factor again. -/
theorem region1_value (c : Dev nD) (u : Fin 100000) (k : Fin 128) :
    (dat1 (F := Ideal) V c).arrAt 4 cfg1.N (ix2 u k)
      = (∑ j : Fin 128, max (Arr.r0 V c (ix2 u j) * Arr.dinv2 V c (ix2 u 0) + Arr.b0 V c (ix2 0 j)) Spec.Z
            * Arr.w1 V c (ix2 j k)) * Arr.dinv2 V c (ix2 u 0) := by
  rw [(dat1 (F := Ideal) V c).arrAt_eq_of_cover 4 (G V c) (fun t _ => flushed_eq V c t) cover]

end Cert.KernelIdeal.Region1

end
-- ==== Proof.Region2.lean ====
import proofs.«416809_j1726576853644_2_alg».proof.Proof.Gen.KernelIdeal.Frame
import proofs.«416809_j1726576853644_2_alg».proof.Proof.Spec
import proofs.«416809_j1726576853644_2_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The block origin of every load and store of the body is the zero vector. -/
private theorem hz : (![0, 0] : Fin 2 → Nat) = fun _ => 0 := funext fun a => by fin_cases a <;> rfl

/-! ## The block product's operand indices, axis by axis -/

private theorem lhs_prod_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs_prod_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs_prod_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs_prod_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product into the zero accumulator, at row `p` and column `q`: the sum over the contracted axis of the
    products of the left operand's row `p` and the right operand's column `q`. -/
private theorem prod_apply (A : FVec Ideal S10000x128 .bf16) (B : FVec Ideal S128x128 .bf16) (p : Fin 10000) (q : Fin 128) :
    matmul dot_S10000x128_S128x128_S10000x128_1_0_0_1_n_n none A B (constant (F := Ideal) S10000x128 .f32 0x00000000#32) (ix2 p q)
      = ∑ j : Fin 128, A (ix2 p j) * B (ix2 j q) := by
  simp only [matmul]
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 p q) ((contrEquiv1 dot_S10000x128_S128x128_S10000x128_1_0_0_1_n_n 128 rfl rfl).symm j) = ix2 p j := funext fun a => Fin.ext (by
    match a with
    | ⟨0, _⟩ => exact lhs_prod_0 _ _
    | ⟨1, _⟩ => exact (lhs_prod_1 _ _).trans hj)
  have er : dot_S10000x128_S128x128_S10000x128_1_0_0_1_n_n.rhsIdx (ix2 p q) ((contrEquiv1 dot_S10000x128_S128x128_S10000x128_1_0_0_1_n_n 128 rfl rfl).symm j) = ix2 j q := funext fun a => Fin.ext (by
    match a with
    | ⟨0, _⟩ => exact (rhs_prod_0 _ _).trans hj
    | ⟨1, _⟩ => exact rhs_prod_1 _ _)
  rw [el, er]

/-- A column of per-row factors broadcast along the rows reads, at row `p`, the factor of row `p`. -/
private theorem col_apply (f : FVec Ideal S10000x1 .f32) (p : Fin 10000) (q : Fin 128) :
    broadcastTo S10000x128 f broadcasts_S10000x1_S10000x128 (ix2 p q) = f (ix2 p 0) := by
  refine broadcastTo_apply f broadcasts_S10000x1_S10000x128 (ix2 p q) (ix2 p 0) fun ax => ?_
  match ax with
  | ⟨0, _⟩ => rfl
  | ⟨1, _⟩ => rfl

/-- The body's arithmetic at row `p` and column `q` of a block: the row scaled by its factor, plus the bias, clamped
    below at zero, times the weights, scaled by the row's factor again. The format changes are the identity on the
    extended reals. -/
private theorem pay_apply (x : FVec Ideal S10000x128 .f32) (f : FVec Ideal S10000x1 .f32) (b : FVec Ideal S1x128 .f32)
    (w : FVec Ideal S128x128 .f32) (f' : FVec Ideal S10000x1 .f32) (p : Fin 10000) (q : Fin 128) :
    k2_pay1 (F := Ideal) x f b w f' (ix2 p q)
      = (∑ j : Fin 128, max (x (ix2 p j) * f (ix2 p 0) + b (ix2 0 j)) Spec.Z * w (ix2 j q)) * f' (ix2 p 0) := by
  unfold k2_pay1
  simp only [shapeCast_self]
  rw [truncf_apply, mulf_apply, prod_apply, col_apply]
  refine congrArg (· * f' (ix2 p 0)) (Finset.sum_congr rfl fun j _ => ?_)
  rw [truncf_apply, truncf_apply, maximumf_apply, addf_apply, mulf_apply, col_apply, broadcastTo_1b_ab_apply, broadcast_apply]
  rfl

/-! ## From the blocks to the array -/

/-- What the output array ends holding: at node `i 0` and feature `i 1`. -/
private abbrev G (c : Dev nD) : FVec Ideal S100000x128 .bf16 := fun i =>
  (∑ j : Fin 128, max (Arr.r1 V c (ix2 (i 0) j) * Arr.dinv2 V c (ix2 (i 0) 0) + Arr.b1 V c (ix2 0 j)) Spec.Z
      * Arr.w2 V c (ix2 j (i 1))) * Arr.dinv2 V c (ix2 (i 0) 0)

/-- The body's arithmetic on blocks that are the arrays' rows and columns named by an array index `i`, read at the block
    index `y`, is `G` at `i`. -/
private theorem block_apply (c : Dev nD) (x : FVec Ideal S10000x128 .f32) (b : FVec Ideal S1x128 .f32)
    (w : FVec Ideal S128x128 .f32) (f : FVec Ideal S10000x1 .f32) (y : S10000x128.Idx) (i : S100000x128.Idx)
    (hx : ∀ j : Fin 128, x (ix2 (y 0) j) = Arr.r1 V c (ix2 (i 0) j))
    (hb : ∀ j : Fin 128, b (ix2 0 j) = Arr.b1 V c (ix2 0 j))
    (hw : ∀ j : Fin 128, w (ix2 j (y 1)) = Arr.w2 V c (ix2 j (i 1)))
    (hf : f (ix2 (y 0) 0) = Arr.dinv2 V c (ix2 (i 0) 0)) :
    k2_pay1 (F := Ideal) x f b w f y = G V c i := by
  obtain ⟨p, q, rfl⟩ : ∃ (p : Fin 10000) (q : Fin 128), y = ix2 p q := ⟨y 0, y 1, eq_ix2 y⟩
  rw [pay_apply]
  show _ = (∑ j : Fin 128, _) * _
  rw [← hf]
  refine congrArg (· * f (ix2 p 0)) (Finset.sum_congr rfl fun j _ => ?_)
  rw [← hx j, ← hb j, ← hw j]

/-- The printed index maps over the grid: point `t` reads row block `t` of the summed rows and of the factors, the
    whole bias row and the whole weight matrix, and writes row block `t` of the output. -/
private theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of `G`. -/
private theorem flushed_eq (c : Dev nD) (t : Fin cfg2.N) :
    (dat2 (F := Ideal) V c).flushed 4 t = ((cfg2.win 4).blk t).view.read (Elt Ideal) (G V c) := by
  show (cfg2.win 4).cut (grid2.coords t) ((dat2 (F := Ideal) V c).after 4 t) = _
  rw [after2_4]
  unfold out2_4
  rw [View.canon_unit_zero hz]
  simp only [View.ld_unit_zero (S := S10000x128) hz, View.ld_unit_zero (S := S10000x1) hz,
    View.ld_unit_zero (S := S1x128) hz, View.ld_unit_zero (S := S128x128) hz]
  obtain ⟨e00, e01, e10, e11, e20, e21, e30, e31, e40, e41⟩ := idx_facts t
  funext y

  refine block_apply V c (iblk2 V c 0 t) (iblk2 V c 1 t) (iblk2 V c 2 t) (iblk2 V c 3 t) y
    (((cfg2.win 4).blk t).view.emb y) (fun j => ?_) (fun j => ?_) (fun j => ?_) ?_
  · show V c (Pipeline.arrRef spec2 0) (((cfg2.win 0).blk t).view.emb (ix2 (y 0) j)) = V c (Pipeline.arrRef spec2 0) _
    refine congrArg _ (funext fun a => Fin.ext ?_)
    match a with
    | ⟨0, _⟩ => show win2_0.index t (0 : Fin 2) * 10000 + 1 * (y 0).val = win2_4.index t (0 : Fin 2) * 10000 + 1 * (y 0).val; rw [e00, e40]
    | ⟨1, _⟩ => show win2_0.index t (1 : Fin 2) * 128 + 1 * j.val = j.val; rw [e01]; omega
  · show V c (Pipeline.arrRef spec2 1) (((cfg2.win 1).blk t).view.emb (ix2 0 j)) = V c (Pipeline.arrRef spec2 1) _
    refine congrArg _ (funext fun a => Fin.ext ?_)
    match a with
    | ⟨0, _⟩ => show win2_1.index t (0 : Fin 2) * 1 + 1 * 0 = 0; rw [e10]
    | ⟨1, _⟩ => show win2_1.index t (1 : Fin 2) * 128 + 1 * j.val = j.val; rw [e11]; omega
  · show V c (Pipeline.arrRef spec2 2) (((cfg2.win 2).blk t).view.emb (ix2 j (y 1))) = V c (Pipeline.arrRef spec2 2) _
    refine congrArg _ (funext fun a => Fin.ext ?_)
    match a with
    | ⟨0, _⟩ => show win2_2.index t (0 : Fin 2) * 128 + 1 * j.val = j.val; rw [e20]; omega
    | ⟨1, _⟩ => show win2_2.index t (1 : Fin 2) * 128 + 1 * (y 1).val = win2_4.index t (1 : Fin 2) * 128 + 1 * (y 1).val; rw [e21, e41]
  · show V c (Pipeline.arrRef spec2 3) (((cfg2.win 3).blk t).view.emb (ix2 (y 0) 0)) = V c (Pipeline.arrRef spec2 3) _
    refine congrArg _ (funext fun a => Fin.ext ?_)
    match a with
    | ⟨0, _⟩ => show win2_3.index t (0 : Fin 2) * 10000 + 1 * (y 0).val = win2_4.index t (0 : Fin 2) * 10000 + 1 * (y 0).val; rw [e30, e40]
    | ⟨1, _⟩ => show win2_3.index t (1 : Fin 2) * 1 + 1 * 0 = 0; rw [e31]

/-- An index of the output array is in point `t`'s block iff each coordinate is in the block's range on its axis. -/
private theorem mem_blk (t : Fin cfg2.N) (i : S100000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v52).slice (win2_4.rect t)).set ↔ _
  rw [View.set_slice_whole, Rect.mem_set_unit]
  exact Iff.rfl

/-- Row `u` lies in row block `u / 10000`: the ten blocks cover the array. -/
private theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_4 _, ?_⟩
  obtain ⟨-, -, -, -, -, -, -, -, e40, e41⟩ := idx_facts ⟨(i 0).val / 10000, by rw [hN]; omega⟩
  rw [mem_blk]
  intro a
  match a with
  | ⟨0, _⟩ =>
    show win2_4.index _ (0 : Fin 2) * 10000 ≤ (i 0).val ∧ (i 0).val < win2_4.index _ (0 : Fin 2) * 10000 + 10000
    rw [e40]; show (i 0).val / 10000 * 10000 ≤ (i 0).val ∧ (i 0).val < (i 0).val / 10000 * 10000 + 10000; omega
  | ⟨1, _⟩ =>
    show win2_4.index _ (1 : Fin 2) * 128 ≤ (i 1).val ∧ (i 1).val < win2_4.index _ (1 : Fin 2) * 128 + 128
    rw [e41]; omega

/-- The third kernel is the second at other arrays. -/
theorem region2_value (c : Dev nD) (u : Fin 100000) (k : Fin 128) :
    (dat2 (F := Ideal) V c).arrAt 4 cfg2.N (ix2 u k)
      = (∑ j : Fin 128, max (Arr.r1 V c (ix2 u j) * Arr.dinv2 V c (ix2 u 0) + Arr.b1 V c (ix2 0 j)) Spec.Z
            * Arr.w2 V c (ix2 j k)) * Arr.dinv2 V c (ix2 u 0) := by
  rw [(dat2 (F := Ideal) V c).arrAt_eq_of_cover 4 (G V c) (fun t _ => flushed_eq V c t) cover]

end Cert.KernelIdeal.Region2

end
-- ==== Proof.Region3.lean ====
import proofs.«416809_j1726576853644_2_alg».proof.Proof.Gen.KernelIdeal.Frame
import proofs.«416809_j1726576853644_2_alg».proof.Proof.Spec
import proofs.«416809_j1726576853644_2_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

section Pieces
variable {F : FTy → Type} [FloatOps F]

/-- At a later point the body leaves in the counts buffer the counts update of what the buffer held. -/
theorem out_B_5 (c : Dev nD) (i : grid3.Coords) (a1 : Memref sig .tc .vmem S2000x128 .f32) (h1 : a1.IsWhole)
    (a2 : Memref sig .tc .vmem S1x128 .f32) (h2 : a2.IsWhole) (a3 : Memref sig .tc .vmem S2000x1 .f32) (h3 : a3.IsWhole)
    (a4 : Memref sig .tc .vmem S2000x1 .i32) (h4 : a4.IsWhole) (a5 : Memref sig .tc .vmem S2048x128 .f32) (h5 : a5.IsWhole)
    (a6 : Memref sig .tc .vmem S1x2048 .f32) (h6 : a6.IsWhole) (hc : ¬cond3_0 i)
    (x0 : Vec F S2000x128 .f32) (x1 : Vec F S1x128 .f32) (x2 : Vec F S2000x1 .f32) (x3 : Vec F S2000x1 .i32)
    (xo4 : Vec F S2048x128 .f32) (xo5 : Vec F S1x2048 .f32) :
    out3_B_5 c i a1 h1 a2 h2 a3 h3 a4 h4 a5 h5 a6 h6 hc x0 x1 x2 x3 xo4 xo5 = k3_pay5 x3 xo5 := by
  unfold out3_B_5
  rw [View.read_writes_eq_canon _ _ _ (cover3_B_5 c i a1 h1 a2 h2 a3 h3 a4 h4 a5 h5 a6 h6 hc x0 x1 x2 x3 xo4 xo5)]
  unfold kernelRun3_B
  dsimp only
  sl_unfold_words
  rw [View.canon_unit_zero hz]
  simp only [View.readAt_eq_ld, h4.read_unread, h6.read_unread, View.ld_unit_zero (S := S2000x1) hz,
    View.ld_unit_zero (S := S1x2048) hz]

/-- At the first point the body leaves in the counts buffer the counts update of the zero row. -/
theorem out_A_5 (c : Dev nD) (i : grid3.Coords) (a1 : Memref sig .tc .vmem S2000x128 .f32) (h1 : a1.IsWhole)
    (a2 : Memref sig .tc .vmem S1x128 .f32) (h2 : a2.IsWhole) (a3 : Memref sig .tc .vmem S2000x1 .f32) (h3 : a3.IsWhole)
    (a4 : Memref sig .tc .vmem S2000x1 .i32) (h4 : a4.IsWhole) (a5 : Memref sig .tc .vmem S2048x128 .f32) (h5 : a5.IsWhole)
    (a6 : Memref sig .tc .vmem S1x2048 .f32) (h6 : a6.IsWhole) (hc : cond3_0 i)
    (x0 : Vec F S2000x128 .f32) (x1 : Vec F S1x128 .f32) (x2 : Vec F S2000x1 .f32) (x3 : Vec F S2000x1 .i32) :
    out3_A_5 c i a1 h1 a2 h2 a3 h3 a4 h4 a5 h5 a6 h6 hc x0 x1 x2 x3 = k3_pay5 x3 k3_pay2 := by
  unfold out3_A_5
  rw [View.read_writes_eq_canon _ _ _ (cover3_A_5 c i a1 h1 a2 h2 a3 h3 a4 h4 a5 h5 a6 h6 hc x0 x1 x2 x3)]
  unfold kernelRun3_A
  dsimp only
  sl_unfold_words
  rw [View.canon_cons_unit_zero (S := S1x2048) hz, View.readCov_unit_zero (S := S1x2048) _ hz]
  simp only [View.readAt_eq_ld, h4.read_unread, View.ld_unit_zero (S := S2000x1) hz]

/-- At a later point the body leaves in the sums buffer the sums update of what the buffer held. -/
theorem out_B_4 (c : Dev nD) (i : grid3.Coords) (a1 : Memref sig .tc .vmem S2000x128 .f32) (h1 : a1.IsWhole)
    (a2 : Memref sig .tc .vmem S1x128 .f32) (h2 : a2.IsWhole) (a3 : Memref sig .tc .vmem S2000x1 .f32) (h3 : a3.IsWhole)
    (a4 : Memref sig .tc .vmem S2000x1 .i32) (h4 : a4.IsWhole) (a5 : Memref sig .tc .vmem S2048x128 .f32) (h5 : a5.IsWhole)
    (a6 : Memref sig .tc .vmem S1x2048 .f32) (h6 : a6.IsWhole) (hc : ¬cond3_0 i)
    (x0 : Vec F S2000x128 .f32) (x1 : Vec F S1x128 .f32) (x2 : Vec F S2000x1 .f32) (x3 : Vec F S2000x1 .i32)
    (xo4 : Vec F S2048x128 .f32) (xo5 : Vec F S1x2048 .f32) :
    out3_B_4 c i a1 h1 a2 h2 a3 h3 a4 h4 a5 h5 a6 h6 hc x0 x1 x2 x3 xo4 xo5 = k3_pay4 x0 x2 x1 x3 xo4 := by
  unfold out3_B_4
  rw [View.read_writes_eq_canon _ _ _ (cover3_B_4 c i a1 h1 a2 h2 a3 h3 a4 h4 a5 h5 a6 h6 hc x0 x1 x2 x3 xo4 xo5)]
  unfold kernelRun3_B
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S1x128) hz, View.ld_unit_zero (S := S2000x1) hz,
    View.ld_unit_zero (S := S2048x128) hz]

/-- At the first point the body leaves in the sums buffer the sums update of the zero block. -/
theorem out_A_4 (c : Dev nD) (i : grid3.Coords) (a1 : Memref sig .tc .vmem S2000x128 .f32) (h1 : a1.IsWhole)
    (a2 : Memref sig .tc .vmem S1x128 .f32) (h2 : a2.IsWhole) (a3 : Memref sig .tc .vmem S2000x1 .f32) (h3 : a3.IsWhole)
    (a4 : Memref sig .tc .vmem S2000x1 .i32) (h4 : a4.IsWhole) (a5 : Memref sig .tc .vmem S2048x128 .f32) (h5 : a5.IsWhole)
    (a6 : Memref sig .tc .vmem S1x2048 .f32) (h6 : a6.IsWhole) (hc : cond3_0 i)
    (x0 : Vec F S2000x128 .f32) (x1 : Vec F S1x128 .f32) (x2 : Vec F S2000x1 .f32) (x3 : Vec F S2000x1 .i32) :
    out3_A_4 c i a1 h1 a2 h2 a3 h3 a4 h4 a5 h5 a6 h6 hc x0 x1 x2 x3 = k3_pay4 x0 x2 x1 x3 k3_pay1 := by
  unfold out3_A_4
  rw [View.read_writes_eq_canon _ _ _ (cover3_A_4 c i a1 h1 a2 h2 a3 h3 a4 h4 a5 h5 a6 h6 hc x0 x1 x2 x3)]
  unfold kernelRun3_A
  dsimp only
  sl_unfold_words
  rw [View.canon_cons_unit_zero (S := S2048x128) hz, View.readCov_unit_zero (S := S2048x128) _ hz]
  simp only [View.readAt_eq_ld, h1.read_unread, h2.read_unread, h3.read_unread, h4.read_unread,
    View.ld_unit_zero (S := S2000x128) hz, View.ld_unit_zero (S := S1x128) hz, View.ld_unit_zero (S := S2000x1) hz]

end Pieces

section Payloads

/-- The one-hot mask at node `n` of the tile and graph `g`: the node's word compared with `g`'s word. -/
theorem pay3_apply (x3 : IVec S2000x1 32) (n : Fin 2000) (g : Fin 2048) :
    k3_pay3 (F := Ideal) x3 (ix2 n g) = IntOp.cmpi .eq (x3 (ix2 n 0)) (BitVec.ofNat 32 g.val) := by
  unfold k3_pay3
  show IntOp.cmpi .eq
      (broadcastTo S2000x2048 (shapeCast S2000x1 x3 shapeCasts_S2000x1_S2000x1) broadcasts_S2000x1_S2000x2048 (ix2 n g))
      (iota .tc S2000x2048 32 [1] iota_S2000x2048_d1_w32 (ix2 n g)) = _
  rw [iota_single_apply, shapeCast_self,
    broadcastTo_apply x3 broadcasts_S2000x1_S2000x2048 (ix2 n g) (ix2 n 0)
      (fun a => by match a with | ⟨0, _⟩ => rfl | ⟨1, _⟩ => rfl)]

/-- The index a column sum over the tile's nodes reads at node `n`: `(n, g)`. -/
theorem lift_col (g : Fin 2048) (n : Fin 2000) :
    reduces_S2000x2048_S2048.lift (ix1 g) n = (ix2 n g : S2000x2048.Idx) := by
  funext a
  apply Fin.ext
  match a with
  | ⟨0, _⟩ => rfl
  | ⟨1, _⟩ => rfl

/-- The 0/1 weight as the body computes it at node `n` and graph `g`. -/
theorem weight_apply (x3 : IVec S2000x1 32) (n : Fin 2000) (g : Fin 2048) :
    (sitofp .f32 (extui 32 (k3_pay3 (F := Ideal) x3) natLt_1_32) : FVec Ideal S2000x2048 .f32) (ix2 n g)
      = Arr.ohW (x3 (ix2 n 0)) g := by
  show ((((k3_pay3 (F := Ideal) x3 (ix2 n g)).setWidth 32).toInt : ℝ) : EReal) = _
  rw [pay3_apply]

/-- The counts update at graph `g`: what the buffer held plus the tile's column sum of the weights. -/
theorem pay5_apply (x3 : IVec S2000x1 32) (acc : FVec Ideal S1x2048 .f32) (g : Fin 2048) :
    k3_pay5 (F := Ideal) x3 acc (ix2 0 g) = acc (ix2 0 g) + ∑ n : Fin 2000, Arr.ohW (x3 (ix2 n 0)) g := by
  unfold k3_pay5
  show shapeCast S1x2048 acc shapeCasts_S1x2048_S1x2048 (ix2 0 g)
      + shapeCast S1x2048 (multiReduction (F := Ideal) .add [0] S2048
          (sitofp .f32 (extui 32 (k3_pay3 (F := Ideal) x3) natLt_1_32)) 0x00000000#32 reduces_S2000x2048_S2048 (.inl rfl) rfl)
          shapeCasts_S2048_S1x2048 (ix2 0 g) = _
  rw [shapeCast_self]
  refine congrArg (acc (ix2 0 g) + ·) ?_
  refine (shapeCast_apply _ shapeCasts_S2048_S1x2048 (ix2 0 g) (ix1 g) ?_).trans ?_
  · rw [Shape.rowMajor_val_one, Shape.rowMajor_val_two]
    show g.val = 0 * 2048 + g.val
    omega
  refine (Ideal.multiReduction_add_single _ 0x00000000#32 reduces_S2000x2048_S2048 (.inl rfl) rfl (ix1 g)).trans ?_
  show ∑ n : Fin 2000, (sitofp .f32 (extui 32 (k3_pay3 (F := Ideal) x3) natLt_1_32) : FVec Ideal S2000x2048 .f32)
      (reduces_S2000x2048_S2048.lift (ix1 g) n) = _
  refine Finset.sum_congr rfl fun n _ => ?_
  rw [lift_col, weight_apply]

end Payloads

section PayloadSums

/-- The contraction of the sums update runs over the tile's node axis of both operands. -/
theorem lhs_pool_0 (j : S2048x128.Idx) (q : dot_S2000x2048_S2000x128_S2048x128_0_0_1_1_n_n.contr.Idx) :
    (dot_S2000x2048_S2000x128_S2048x128_0_0_1_1_n_n.lhsIdx j q 0).val = (q ⟨0, by decide⟩).val :=
  dot_S2000x2048_S2000x128_S2048x128_0_0_1_1_n_n.lhsIdx_val_of_single rfl j q
theorem lhs_pool_1 (j : S2048x128.Idx) (q : dot_S2000x2048_S2000x128_S2048x128_0_0_1_1_n_n.contr.Idx) :
    (dot_S2000x2048_S2000x128_S2048x128_0_0_1_1_n_n.lhsIdx j q 1).val = (j 0).val := by
  unfold DotDims.lhsIdx
  rw [dif_neg (show ¬(1 : Fin S2000x2048.rank) ∈ dot_S2000x2048_S2000x128_S2048x128_0_0_1_1_n_n.lhsBatch by decide), dif_pos (show (1 : Fin S2000x2048.rank) ∈ dot_S2000x2048_S2000x128_S2048x128_0_0_1_1_n_n.lhsNonContracting by decide)]
  rfl
theorem rhs_pool_0 (j : S2048x128.Idx) (q : dot_S2000x2048_S2000x128_S2048x128_0_0_1_1_n_n.contr.Idx) :
    (dot_S2000x2048_S2000x128_S2048x128_0_0_1_1_n_n.rhsIdx j q 0).val = (q ⟨0, by decide⟩).val :=
  dot_S2000x2048_S2000x128_S2048x128_0_0_1_1_n_n.rhsIdx_val_of_single rfl j q
theorem rhs_pool_1 (j : S2048x128.Idx) (q : dot_S2000x2048_S2000x128_S2048x128_0_0_1_1_n_n.contr.Idx) :
    (dot_S2000x2048_S2000x128_S2048x128_0_0_1_1_n_n.rhsIdx j q 1).val = (j 1).val := by
  unfold DotDims.rhsIdx
  rw [dif_neg (show ¬(1 : Fin S2000x128.rank) ∈ dot_S2000x2048_S2000x128_S2048x128_0_0_1_1_n_n.rhsBatch by decide), dif_pos (show (1 : Fin S2000x128.rank) ∈ dot_S2000x2048_S2000x128_S2048x128_0_0_1_1_n_n.rhsNonContracting by decide)]
  rfl

/-- The tile's activated rows as the body computes them: row times factor plus bias, clamped below at zero. -/
def actBody (x0 : FVec Ideal S2000x128 .f32) (x2 : FVec Ideal S2000x1 .f32) (x1 : FVec Ideal S1x128 .f32) :
    FVec Ideal S2000x128 .bf16 :=
  truncf .bf16 (maximumf
    (addf (mulf (shapeCast S2000x128 x0 shapeCasts_S2000x128_S2000x128)
        (broadcastTo S2000x128 (shapeCast S2000x1 x2 shapeCasts_S2000x1_S2000x1) broadcasts_S2000x1_S2000x128))
      (broadcastTo S2000x128 (shapeCast S1x128 x1 shapeCasts_S1x128_S1x128) broadcasts_S1x128_S2000x128))
    (broadcast S2000x128 (Scalar.ofBits (F := Ideal) .f32 0x00000000#32))) bitsLt_bf16_f32

/-- The tile's 0/1 weights as the body computes them. -/
def wBody (x3 : IVec S2000x1 32) : FVec Ideal S2000x2048 .bf16 :=
  truncf .bf16 (sitofp .f32 (extui 32 (k3_pay3 (F := Ideal) x3) natLt_1_32) : FVec Ideal S2000x2048 .f32) bitsLt_bf16_f32

theorem actBody_apply (x0 : FVec Ideal S2000x128 .f32) (x2 : FVec Ideal S2000x1 .f32) (x1 : FVec Ideal S1x128 .f32)
    (n : Fin 2000) (k : Fin 128) :
    actBody x0 x2 x1 (ix2 n k) = max (x0 (ix2 n k) * x2 (ix2 n 0) + x1 (ix2 0 k)) Spec.Z := by
  show max (shapeCast S2000x128 x0 shapeCasts_S2000x128_S2000x128 (ix2 n k)
        * broadcastTo S2000x128 (shapeCast S2000x1 x2 shapeCasts_S2000x1_S2000x1) broadcasts_S2000x1_S2000x128 (ix2 n k)
      + broadcastTo S2000x128 (shapeCast S1x128 x1 shapeCasts_S1x128_S1x128) broadcasts_S1x128_S2000x128 (ix2 n k)) Spec.Z = _
  rw [shapeCast_self, shapeCast_self, shapeCast_self,
    broadcastTo_apply x2 broadcasts_S2000x1_S2000x128 (ix2 n k) (ix2 n 0)
      (fun a => by match a with | ⟨0, _⟩ => rfl | ⟨1, _⟩ => rfl),
    broadcastTo_apply x1 broadcasts_S1x128_S2000x128 (ix2 n k) (ix2 0 k)
      (fun a => by match a with | ⟨0, _⟩ => rfl | ⟨1, _⟩ => rfl)]

theorem wBody_apply (x3 : IVec S2000x1 32) (n : Fin 2000) (g : Fin 2048) :
    wBody x3 (ix2 n g) = Arr.ohW (x3 (ix2 n 0)) g := weight_apply x3 n g

/-- The sums update is what the buffer held plus the weights' transpose times the activated rows. -/
theorem pay4_eq (x0 : FVec Ideal S2000x128 .f32) (x2 : FVec Ideal S2000x1 .f32) (x1 : FVec Ideal S1x128 .f32)
    (x3 : IVec S2000x1 32) (acc : FVec Ideal S2048x128 .f32) :
    k3_pay4 (F := Ideal) x0 x2 x1 x3 acc
      = addf (shapeCast S2048x128 acc shapeCasts_S2048x128_S2048x128)
          (matmul dot_S2000x2048_S2000x128_S2048x128_0_0_1_1_n_n none (wBody x3) (actBody x0 x2 x1)
            (constant (F := Ideal) S2048x128 .f32 0x00000000#32)) := rfl

/-- The sums update at graph `g` and feature `k`: what the buffer held plus the tile's sum of weight times row. -/
theorem pay4_apply (x0 : FVec Ideal S2000x128 .f32) (x2 : FVec Ideal S2000x1 .f32) (x1 : FVec Ideal S1x128 .f32)
    (x3 : IVec S2000x1 32) (acc : FVec Ideal S2048x128 .f32) (g : Fin 2048) (k : Fin 128) :
    k3_pay4 (F := Ideal) x0 x2 x1 x3 acc (ix2 g k)
      = acc (ix2 g k) + ∑ n : Fin 2000, Arr.ohW (x3 (ix2 n 0)) g
          * max (x0 (ix2 n k) * x2 (ix2 n 0) + x1 (ix2 0 k)) Spec.Z := by
  rw [pay4_eq]
  show shapeCast S2048x128 acc shapeCasts_S2048x128_S2048x128 (ix2 g k)
      + FloatOps.matmul dot_S2000x2048_S2000x128_S2048x128_0_0_1_1_n_n none (wBody x3) (actBody x0 x2 x1)
          (constant (F := Ideal) S2048x128 .f32 0x00000000#32) (ix2 g k) = _
  rw [shapeCast_self]
  refine congrArg (acc (ix2 g k) + ·) ?_
  rw [Ideal.matmul_constant_zero_apply,
    ← Equiv.sum_comp (contrEquiv1 dot_S2000x2048_S2000x128_S2048x128_0_0_1_1_n_n 2000 rfl rfl).symm]
  refine Finset.sum_congr rfl fun n _ => ?_
  have hk := contrEquiv1_symm_val dot_S2000x2048_S2000x128_S2048x128_0_0_1_1_n_n 2000 rfl rfl n
  have el : dot_S2000x2048_S2000x128_S2048x128_0_0_1_1_n_n.lhsIdx (ix2 g k)
      ((contrEquiv1 dot_S2000x2048_S2000x128_S2048x128_0_0_1_1_n_n 2000 rfl rfl).symm n) = (ix2 n g : S2000x2048.Idx) :=
    funext fun a => Fin.ext (by
      match a with
      | ⟨0, _⟩ => exact (lhs_pool_0 _ _).trans hk
      | ⟨1, _⟩ => exact lhs_pool_1 _ _)
  have er : dot_S2000x2048_S2000x128_S2048x128_0_0_1_1_n_n.rhsIdx (ix2 g k)
      ((contrEquiv1 dot_S2000x2048_S2000x128_S2048x128_0_0_1_1_n_n 2000 rfl rfl).symm n) = (ix2 n k : S2000x128.Idx) :=
    funext fun a => Fin.ext (by
      match a with
      | ⟨0, _⟩ => exact (rhs_pool_0 _ _).trans hk
      | ⟨1, _⟩ => exact rhs_pool_1 _ _)
  rw [el, er, wBody_apply, actBody_apply]

/-- The zero block and the zero row the first point stores. -/
theorem pay1_apply (j : S2048x128.Idx) : k3_pay1 (F := Ideal) j = Spec.Z := rfl
theorem pay2_apply (j : S1x2048.Idx) : k3_pay2 (F := Ideal) j = Spec.Z := rfl

end PayloadSums

/-! ## The tile's blocks, read off the arrays -/

/-- The region's point count. -/
theorem hN : cfg3.N = 50 := N_3

/-- The index maps at every point of the grid: the row blocks move with the point, the others stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Each input block at a point, at its literal type. -/
abbrev rblk (c : Dev nD) (t : Fin cfg3.N) : FVec Ideal S2000x128 .f32 := iblk3 V c 0 t
abbrev bblk (c : Dev nD) (t : Fin cfg3.N) : FVec Ideal S1x128 .f32 := iblk3 V c 1 t
abbrev fblk (c : Dev nD) (t : Fin cfg3.N) : FVec Ideal S2000x1 .f32 := iblk3 V c 2 t
abbrev wblk (c : Dev nD) (t : Fin cfg3.N) : IVec S2000x1 32 := iblk3 V c 3 t

/-- Row `n` of the tile at point `t` is node `2000 t + n`. -/
theorem wblk_apply (c : Dev nD) (t : Fin cfg3.N) (n : Fin 2000) (hv : 2000 * t.val + n.val < 100000) :
    wblk V c t (ix2 n 0) = Arr.bt2 V c (ix2 ⟨2000 * t.val + n.val, hv⟩ 0) := by
  obtain ⟨-, -, -, -, -, -, e0, e1⟩ := idx_facts t
  show V c main_v67 (((cfg3.win 3).blk t).view.emb (ix2 n 0)) = V c main_v67 _
  refine congrArg (V c main_v67) (funext fun a => Fin.ext ?_)
  match a with
  | ⟨0, _⟩ => show win3_3.index t (0 : Fin 2) * 2000 + 1 * n.val = 2000 * t.val + n.val; omega
  | ⟨1, _⟩ => show win3_3.index t (1 : Fin 2) * 1 + 1 * 0 = 0; omega

theorem fblk_apply (c : Dev nD) (t : Fin cfg3.N) (n : Fin 2000) (hv : 2000 * t.val + n.val < 100000) :
    fblk V c t (ix2 n 0) = Arr.dinv2 V c (ix2 ⟨2000 * t.val + n.val, hv⟩ 0) := by
  obtain ⟨-, -, -, -, e0, e1, -, -⟩ := idx_facts t
  show V c main_v15 (((cfg3.win 2).blk t).view.emb (ix2 n 0)) = V c main_v15 _
  refine congrArg (V c main_v15) (funext fun a => Fin.ext ?_)
  match a with
  | ⟨0, _⟩ => show win3_2.index t (0 : Fin 2) * 2000 + 1 * n.val = 2000 * t.val + n.val; omega
  | ⟨1, _⟩ => show win3_2.index t (1 : Fin 2) * 1 + 1 * 0 = 0; omega

theorem rblk_apply (c : Dev nD) (t : Fin cfg3.N) (n : Fin 2000) (k : Fin 128) (hv : 2000 * t.val + n.val < 100000) :
    rblk V c t (ix2 n k) = Arr.r2 V c (ix2 ⟨2000 * t.val + n.val, hv⟩ k) := by
  obtain ⟨e0, e1, -, -, -, -, -, -⟩ := idx_facts t
  show V c main_v63 (((cfg3.win 0).blk t).view.emb (ix2 n k)) = V c main_v63 _
  refine congrArg (V c main_v63) (funext fun a => Fin.ext ?_)
  match a with
  | ⟨0, _⟩ => show win3_0.index t (0 : Fin 2) * 2000 + 1 * n.val = 2000 * t.val + n.val; omega
  | ⟨1, _⟩ => show win3_0.index t (1 : Fin 2) * 128 + 1 * k.val = k.val; omega

theorem bblk_apply (c : Dev nD) (t : Fin cfg3.N) (k : Fin 128) :
    bblk V c t (ix2 0 k) = Arr.b2 V c (ix2 0 k) := by
  obtain ⟨-, -, e0, e1, -, -, -, -⟩ := idx_facts t
  show V c main_v66 (((cfg3.win 1).blk t).view.emb (ix2 0 k)) = V c main_v66 _
  refine congrArg (V c main_v66) (funext fun a => Fin.ext ?_)
  match a with
  | ⟨0, _⟩ => show win3_1.index t (0 : Fin 2) * 1 + 1 * 0 = 0; omega
  | ⟨1, _⟩ => show win3_1.index t (1 : Fin 2) * 128 + 1 * k.val = k.val; omega

/-! ## The accumulation over the points -/

/-- Tile `t`'s share of a sum over the nodes: the sum over its two thousand rows. -/
def tileSum (f : Fin 100000 → EReal) (t : ℕ) : EReal :=
  if h : t < 50 then ∑ r : Fin 2000, f ⟨2000 * t + r.val, by omega⟩ else 0

/-- The fifty tiles' shares make up the sum over all nodes. -/
theorem sum_tileSum (f : Fin 100000 → EReal) : ∑ t ∈ Finset.range 50, tileSum f t = ∑ v : Fin 100000, f v := by
  rw [Finset.sum_range, ← Spec.sum_tiles f]
  refine Finset.sum_congr rfl fun t _ => ?_
  unfold tileSum
  rw [dif_pos t.isLt]

/-- Node `v`'s 0/1 weight for graph `g`, and its activated row at feature `k`. -/
abbrev wgt (c : Dev nD) (g : Fin 2048) (v : Fin 100000) : EReal := Arr.ohW (Arr.bt2 V c (ix2 v 0)) g
abbrev hrow (c : Dev nD) (k : Fin 128) (v : Fin 100000) : EReal :=
  max (Arr.r2 V c (ix2 v k) * Arr.dinv2 V c (ix2 v 0) + Arr.b2 V c (ix2 0 k)) Spec.Z

/-- A tile's share of the weights, over the point's block of graph words. -/
theorem tileSum_wgt (c : Dev nD) (t : Fin cfg3.N) (g : Fin 2048) :
    tileSum (wgt V c g) t.val = ∑ n : Fin 2000, Arr.ohW (wblk V c t (ix2 n 0)) g := by
  have ht : t.val < 50 := lt_of_lt_of_eq t.isLt hN
  unfold tileSum
  rw [dif_pos ht]
  refine Finset.sum_congr rfl fun n _ => ?_
  have hn := n.isLt
  rw [wblk_apply V c t n (by omega)]

/-- A tile's share of the weighted rows, over the point's blocks. -/
theorem tileSum_wrow (c : Dev nD) (t : Fin cfg3.N) (g : Fin 2048) (k : Fin 128) :
    tileSum (fun v => wgt V c g v * hrow V c k v) t.val
      = ∑ n : Fin 2000, Arr.ohW (wblk V c t (ix2 n 0)) g
          * max (rblk V c t (ix2 n k) * fblk V c t (ix2 n 0) + bblk V c t (ix2 0 k)) Spec.Z := by
  have ht : t.val < 50 := lt_of_lt_of_eq t.isLt hN
  unfold tileSum
  rw [dif_pos ht]
  refine Finset.sum_congr rfl fun n _ => ?_
  have hn := n.isLt
  rw [wblk_apply V c t n (by omega), rblk_apply V c t n k (by omega), fblk_apply V c t n (by omega), bblk_apply V c t k]

/-- The counts after the first point: zero plus the first tile's share. -/
theorem cnt_first (c : Dev nD) (t : Fin cfg3.N) (h0 : t.val % 50 = 0) (g : Fin 2048) :
    (outsAt3 V c t.val t.isLt).2 (ix2 0 g) = Spec.Z + tileSum (wgt V c g) t.val := by
  rw [outsAt3_A V c t h0]
  dsimp only
  refine (congrFun (out_A_5 (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) ((hcond3_0 t).mpr h0)
    (rblk V c t) (bblk V c t) (fblk V c t) (wblk V c t)) (ix2 0 g)).trans ?_
  refine (pay5_apply (wblk V c t) (k3_pay2 (F := Ideal)) g).trans ?_
  rw [tileSum_wgt, pay2_apply]

/-- The counts after a later point: what the point before left plus the tile's share. -/
theorem cnt_next (c : Dev nD) (t : Fin cfg3.N) (h0 : ¬t.val % 50 = 0) (g : Fin 2048) :
    (outsAt3 V c t.val t.isLt).2 (ix2 0 g)
      = (outsAt3 V c (t.val - 1) (Nat.lt_of_le_of_lt (Nat.sub_le _ _) t.isLt)).2 (ix2 0 g)
        + tileSum (wgt V c g) t.val := by
  rw [outsAt3_B V c t h0]
  dsimp only
  refine (congrFun (out_B_5 (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) (fun h => h0 ((hcond3_0 t).mp h))
    (rblk V c t) (bblk V c t) (fblk V c t) (wblk V c t)
    (outsAt3 V c (t.val - 1) (Nat.lt_of_le_of_lt (Nat.sub_le _ _) t.isLt)).1
    (outsAt3 V c (t.val - 1) (Nat.lt_of_le_of_lt (Nat.sub_le _ _) t.isLt)).2) (ix2 0 g)).trans ?_
  refine (pay5_apply (wblk V c t) (outsAt3 V c (t.val - 1) (Nat.lt_of_le_of_lt (Nat.sub_le _ _) t.isLt)).2 g).trans ?_
  rw [tileSum_wgt]

/-- After point `n` the counts buffer holds zero plus the shares of tiles `0 … n`. -/
theorem cnt_inv (c : Dev nD) (g : Fin 2048) : ∀ (n : ℕ) (h : n < cfg3.N),
    (outsAt3 V c n h).2 (ix2 0 g) = Spec.Z + ∑ t ∈ Finset.range (n + 1), tileSum (wgt V c g) t
  | 0, h => by
    rw [Finset.sum_range_one]
    exact cnt_first V c ⟨0, h⟩ rfl g
  | n + 1, h => by
    have h50 : n + 1 < 50 := lt_of_lt_of_eq h hN
    have hB : ¬(⟨n + 1, h⟩ : Fin cfg3.N).val % 50 = 0 := by dsimp only; omega
    refine (cnt_next V c ⟨n + 1, h⟩ hB g).trans ?_
    show (outsAt3 V c n _).2 (ix2 0 g) + _ = _
    rw [cnt_inv c g n (Nat.lt_of_succ_lt h), Finset.sum_range_succ _ (n + 1), add_assoc]

/-- The sums after the first point. -/
theorem sums_first (c : Dev nD) (t : Fin cfg3.N) (h0 : t.val % 50 = 0) (g : Fin 2048) (k : Fin 128) :
    (outsAt3 V c t.val t.isLt).1 (ix2 g k) = Spec.Z + tileSum (fun v => wgt V c g v * hrow V c k v) t.val := by
  rw [outsAt3_A V c t h0]
  dsimp only
  refine (congrFun (out_A_4 (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) ((hcond3_0 t).mpr h0)
    (rblk V c t) (bblk V c t) (fblk V c t) (wblk V c t)) (ix2 g k)).trans ?_
  refine (pay4_apply (rblk V c t) (fblk V c t) (bblk V c t) (wblk V c t) (k3_pay1 (F := Ideal)) g k).trans ?_
  rw [tileSum_wrow, pay1_apply]

/-- The sums after a later point. -/
theorem sums_next (c : Dev nD) (t : Fin cfg3.N) (h0 : ¬t.val % 50 = 0) (g : Fin 2048) (k : Fin 128) :
    (outsAt3 V c t.val t.isLt).1 (ix2 g k)
      = (outsAt3 V c (t.val - 1) (Nat.lt_of_le_of_lt (Nat.sub_le _ _) t.isLt)).1 (ix2 g k)
        + tileSum (fun v => wgt V c g v * hrow V c k v) t.val := by
  rw [outsAt3_B V c t h0]
  dsimp only
  refine (congrFun (out_B_4 (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) (fun h => h0 ((hcond3_0 t).mp h))
    (rblk V c t) (bblk V c t) (fblk V c t) (wblk V c t)
    (outsAt3 V c (t.val - 1) (Nat.lt_of_le_of_lt (Nat.sub_le _ _) t.isLt)).1
    (outsAt3 V c (t.val - 1) (Nat.lt_of_le_of_lt (Nat.sub_le _ _) t.isLt)).2) (ix2 g k)).trans ?_
  refine (pay4_apply (rblk V c t) (fblk V c t) (bblk V c t) (wblk V c t)
    (outsAt3 V c (t.val - 1) (Nat.lt_of_le_of_lt (Nat.sub_le _ _) t.isLt)).1 g k).trans ?_
  rw [tileSum_wrow]

/-- After point `n` the sums buffer holds zero plus the shares of tiles `0 … n`. -/
theorem sums_inv (c : Dev nD) (g : Fin 2048) (k : Fin 128) : ∀ (n : ℕ) (h : n < cfg3.N),
    (outsAt3 V c n h).1 (ix2 g k)
      = Spec.Z + ∑ t ∈ Finset.range (n + 1), tileSum (fun v => wgt V c g v * hrow V c k v) t
  | 0, h => by
    rw [Finset.sum_range_one]
    exact sums_first V c ⟨0, h⟩ rfl g k
  | n + 1, h => by
    have h50 : n + 1 < 50 := lt_of_lt_of_eq h hN
    have hB : ¬(⟨n + 1, h⟩ : Fin cfg3.N).val % 50 = 0 := by dsimp only; omega
    refine (sums_next V c ⟨n + 1, h⟩ hB g k).trans ?_
    show (outsAt3 V c n _).1 (ix2 g k) + _ = _
    rw [sums_inv c g k n (Nat.lt_of_succ_lt h), Finset.sum_range_succ _ (n + 1), add_assoc]

/-! ## The output arrays: what the last point left -/

/-- The last point. -/
abbrev tLast : Fin cfg3.N := ⟨49, by rw [hN]; decide⟩

/-- What the last point leaves in the two carried buffers, as contents of the result arrays. -/
abbrev sumsEnd (c : Dev nD) : Buf (Elt Ideal) ((c : Thread nD τ).loc main_v68_0) := (outsAt3 V c tLast.val tLast.isLt).1
abbrev cntEnd (c : Dev nD) : Buf (Elt Ideal) ((c : Thread nD τ).loc main_v68_1) := (outsAt3 V c tLast.val tLast.isLt).2

/-- The one write-back of the counts, at the last point, writes what that point left: its block is the whole array. -/
theorem flushed5_eq (c : Dev nD) (t : Fin cfg3.N) (hf : (cfg3.win 5).flush t = true) :
    (dat3 (F := Ideal) V c).flushed 5 t = ((cfg3.win 5).blk t).view.read (Elt Ideal) (cntEnd V c) := by
  have h49 : t.val = 49 := by have := (flush3_5 t).mp hf; have := lt_of_lt_of_eq t.isLt hN; omega
  obtain rfl : t = tLast := Fin.ext h49
  show (cfg3.win 5).cut (grid3.coords tLast) ((dat3 V c).after 5 tLast) = _
  rw [after3_5]
  have hz' : (fun a => win3_5.index tLast a * main_v68_1.ty.shape.size a) = fun _ => 0 :=
    funext fun a => by fin_cases a <;> decide +kernel
  exact (Memref.read_access_unit_zero (Elt Ideal) main_v68_1 hz' (fun a => by rw [congrFun hz' a]; simp) (cntEnd V c)).symm

/-- So the counts array ends holding what the last point left. -/
theorem final5 (c : Dev nD) : (dat3 (F := Ideal) V c).arrAt 5 cfg3.N = cntEnd V c :=
  (dat3 (F := Ideal) V c).arrAt_eq_of_cover 5 (cntEnd V c) (flushed5_eq V c) fun i =>
    ⟨tLast, (flush3_5 tLast).mpr rfl, by
      show i ∈ ((View.whole main_v68_1).slice (win3_5.rect tLast)).set
      rw [View.set_slice_whole, Rect.mem_set_unit]
      intro a
      have h0 : (i 0 : Nat) < 1 := (i 0).isLt
      have h1 : (i 1 : Nat) < 2048 := (i 1).isLt
      match a with
      | ⟨0, _⟩ =>
        show win3_5.index tLast 0 * win3_5.size 0 ≤ (i 0 : Nat)
          ∧ (i 0 : Nat) < win3_5.index tLast 0 * win3_5.size 0 + win3_5.xsize (grid3.coords tLast) 0
        rw [show win3_5.index tLast 0 * win3_5.size 0 = 0 from by decide +kernel,
          show win3_5.xsize (grid3.coords tLast) 0 = 1 from by decide +kernel]; omega
      | ⟨1, _⟩ =>
        show win3_5.index tLast 1 * win3_5.size 1 ≤ (i 1 : Nat)
          ∧ (i 1 : Nat) < win3_5.index tLast 1 * win3_5.size 1 + win3_5.xsize (grid3.coords tLast) 1
        rw [show win3_5.index tLast 1 * win3_5.size 1 = 0 from by decide +kernel,
          show win3_5.xsize (grid3.coords tLast) 1 = 2048 from by decide +kernel]; omega⟩

/-- The one write-back of the sums, at the last point, likewise. -/
theorem flushed4_eq (c : Dev nD) (t : Fin cfg3.N) (hf : (cfg3.win 4).flush t = true) :
    (dat3 (F := Ideal) V c).flushed 4 t = ((cfg3.win 4).blk t).view.read (Elt Ideal) (sumsEnd V c) := by
  have h49 : t.val = 49 := by have := (flush3_4 t).mp hf; have := lt_of_lt_of_eq t.isLt hN; omega
  obtain rfl : t = tLast := Fin.ext h49
  show (cfg3.win 4).cut (grid3.coords tLast) ((dat3 V c).after 4 tLast) = _
  rw [after3_4]
  have hz' : (fun a => win3_4.index tLast a * main_v68_0.ty.shape.size a) = fun _ => 0 :=
    funext fun a => by fin_cases a <;> decide +kernel
  exact (Memref.read_access_unit_zero (Elt Ideal) main_v68_0 hz' (fun a => by rw [congrFun hz' a]; simp) (sumsEnd V c)).symm

theorem final4 (c : Dev nD) : (dat3 (F := Ideal) V c).arrAt 4 cfg3.N = sumsEnd V c :=
  (dat3 (F := Ideal) V c).arrAt_eq_of_cover 4 (sumsEnd V c) (flushed4_eq V c) fun i =>
    ⟨tLast, (flush3_4 tLast).mpr rfl, by
      show i ∈ ((View.whole main_v68_0).slice (win3_4.rect tLast)).set
      rw [View.set_slice_whole, Rect.mem_set_unit]
      intro a
      have h0 : (i 0 : Nat) < 2048 := (i 0).isLt
      have h1 : (i 1 : Nat) < 128 := (i 1).isLt
      match a with
      | ⟨0, _⟩ =>
        show win3_4.index tLast 0 * win3_4.size 0 ≤ (i 0 : Nat)
          ∧ (i 0 : Nat) < win3_4.index tLast 0 * win3_4.size 0 + win3_4.xsize (grid3.coords tLast) 0
        rw [show win3_4.index tLast 0 * win3_4.size 0 = 0 from by decide +kernel,
          show win3_4.xsize (grid3.coords tLast) 0 = 2048 from by decide +kernel]; omega
      | ⟨1, _⟩ =>
        show win3_4.index tLast 1 * win3_4.size 1 ≤ (i 1 : Nat)
          ∧ (i 1 : Nat) < win3_4.index tLast 1 * win3_4.size 1 + win3_4.xsize (grid3.coords tLast) 1
        rw [show win3_4.index tLast 1 * win3_4.size 1 = 0 from by decide +kernel,
          show win3_4.xsize (grid3.coords tLast) 1 = 128 from by decide +kernel]; omega⟩

/-- After the pooling kernel's fifty points the sums array holds, at graph `g` and feature `k`, zero plus the sum
    over ALL nodes of the node's 0/1 weight for `g` times its activated row. -/
theorem region3_sums (c : Dev nD) (g : Fin 2048) (k : Fin 128) :
    (dat3 (F := Ideal) V c).arrAt 4 cfg3.N (ix2 g k)
      = Spec.Z + ∑ v : Fin 100000, Arr.ohW (Arr.bt2 V c (ix2 v 0)) g
          * max (Arr.r2 V c (ix2 v k) * Arr.dinv2 V c (ix2 v 0) + Arr.b2 V c (ix2 0 k)) Spec.Z := by
  rw [final4 V c]
  show (outsAt3 V c 49 _).1 (ix2 g k) = _
  rw [sums_inv V c g k 49 _, sum_tileSum]

/-- and the counts array, at graph `g`, zero plus the sum over all nodes of the 0/1 weights. -/
theorem region3_cnt (c : Dev nD) (g : Fin 2048) :
    (dat3 (F := Ideal) V c).arrAt 5 cfg3.N (ix2 0 g)
      = Spec.Z + ∑ v : Fin 100000, Arr.ohW (Arr.bt2 V c (ix2 v 0)) g := by
  rw [final5 V c]
  show (outsAt3 V c 49 _).2 (ix2 0 g) = _
  rw [cnt_inv V c g 49 _, sum_tileSum]

end Cert.KernelIdeal.Region3

end
-- ==== Proof.KValue.lean ====
import proofs.«416809_j1726576853644_2_alg».proof.Proof.Gen.KernelIdeal.Frame
import proofs.«416809_j1726576853644_2_alg».proof.Proof.Spec
import proofs.«416809_j1726576853644_2_alg».proof.Proof.SpecArgs
import proofs.«416809_j1726576853644_2_alg».proof.Proof.KArr
import proofs.«416809_j1726576853644_2_alg».proof.Proof.KMem
import proofs.«416809_j1726576853644_2_alg».proof.Proof.KHostA
import proofs.«416809_j1726576853644_2_alg».proof.Proof.KHostB
import proofs.«416809_j1726576853644_2_alg».proof.Proof.KHostS
import proofs.«416809_j1726576853644_2_alg».proof.Proof.KKeep
import proofs.«416809_j1726576853644_2_alg».proof.Proof.Region0
import proofs.«416809_j1726576853644_2_alg».proof.Proof.Region1
import proofs.«416809_j1726576853644_2_alg».proof.Proof.Region2
import proofs.«416809_j1726576853644_2_alg».proof.Proof.Region3
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! The kernel program's result, graph by graph: the scale-first arrangement of the launch memory's arrays.

    The run crosses eleven boundaries. The edge words, the node factors and the seven arguments are written before the
    first kernel's entry and never again, so every later boundary finds them as that entry did. Each kernel's output
    table, and each host stretch's edge sum of it, is then the next table of the arrangement. -/

section
variable (c : Dev nD)

/-- The source and destination words, the layers' matrices and bias rows, out of the launch memory. -/
abbrev SRC := HostA.srcT (Arr.ei (Mem.V0 m) c)
abbrev DST := HostA.dstT (Arr.ei (Mem.V0 m) c)
abbrev WL (l : Fin 3) := Spec.wSlice (Arr.ww (Mem.V0 m) c) l
abbrev BL (l : Fin 3) := Spec.bSlice (Arr.bb (Mem.V0 m) c) l

/-! ### What every boundary after the first kernel's entry still holds -/

theorem src3 : Arr.src (V3 m ρ) c = SRC m c := HostA.V3_src m ρ c
theorem dst3 : Arr.dst (V3 m ρ) c = DST m c := HostA.V3_dst m ρ c
theorem dinv3 (v : Fin 100000) : Arr.dinv2 (V3 m ρ) c (ix2 v 0) = Spec.dinv (DST m c) v := by
  rw [HostA.V3_dinv2, dst3]

theorem src4 : Arr.src (V4 m ρ) c = SRC m c := ((Keep.keep_all m ρ c main_v3 (by decide)).1).trans (src3 m ρ c)
theorem dst4 : Arr.dst (V4 m ρ) c = DST m c := ((Keep.keep_all m ρ c main_v6 (by decide)).1).trans (dst3 m ρ c)
theorem src6 : Arr.src (V6 m ρ) c = SRC m c := ((Keep.keep_all m ρ c main_v3 (by decide)).2.2.1).trans (src3 m ρ c)
theorem dst6 : Arr.dst (V6 m ρ) c = DST m c := ((Keep.keep_all m ρ c main_v6 (by decide)).2.2.1).trans (dst3 m ρ c)
theorem src8 : Arr.src (V8 m ρ) c = SRC m c := ((Keep.keep_all m ρ c main_v3 (by decide)).2.2.2.2.1).trans (src3 m ρ c)
theorem dst8 : Arr.dst (V8 m ρ) c = DST m c := ((Keep.keep_all m ρ c main_v6 (by decide)).2.2.2.2.1).trans (dst3 m ρ c)

theorem dinv5 (v : Fin 100000) : Arr.dinv2 (V5 m ρ) c (ix2 v 0) = Spec.dinv (DST m c) v :=
  (congrFun ((Keep.keep_all m ρ c main_v15 (by decide)).2.1) (ix2 v 0)).trans (dinv3 m ρ c v)
theorem dinv7 (v : Fin 100000) : Arr.dinv2 (V7 m ρ) c (ix2 v 0) = Spec.dinv (DST m c) v :=
  (congrFun ((Keep.keep_all m ρ c main_v15 (by decide)).2.2.2.1) (ix2 v 0)).trans (dinv3 m ρ c v)
theorem dinv9 (v : Fin 100000) : Arr.dinv2 (V9 m ρ) c (ix2 v 0) = Spec.dinv (DST m c) v :=
  (congrFun ((Keep.keep_all m ρ c main_v15 (by decide)).2.2.2.2.2.1) (ix2 v 0)).trans (dinv3 m ρ c v)

theorem x3 : Arr.x (V3 m ρ) c = Arr.x (Mem.V0 m) c := Keep.keep_args m ρ c main_arg0 (by decide)
theorem ww4 : Arr.ww (V4 m ρ) c = Arr.ww (Mem.V0 m) c :=
  ((Keep.keep_all m ρ c main_arg3 (by decide)).1).trans (Keep.keep_args m ρ c main_arg3 (by decide))
theorem ww6 : Arr.ww (V6 m ρ) c = Arr.ww (Mem.V0 m) c :=
  ((Keep.keep_all m ρ c main_arg3 (by decide)).2.2.1).trans (Keep.keep_args m ρ c main_arg3 (by decide))
theorem bb4 : Arr.bb (V4 m ρ) c = Arr.bb (Mem.V0 m) c :=
  ((Keep.keep_all m ρ c main_arg4 (by decide)).1).trans (Keep.keep_args m ρ c main_arg4 (by decide))
theorem bb6 : Arr.bb (V6 m ρ) c = Arr.bb (Mem.V0 m) c :=
  ((Keep.keep_all m ρ c main_arg4 (by decide)).2.2.1).trans (Keep.keep_args m ρ c main_arg4 (by decide))
theorem bb8 : Arr.bb (V8 m ρ) c = Arr.bb (Mem.V0 m) c :=
  ((Keep.keep_all m ρ c main_arg4 (by decide)).2.2.2.2.1).trans (Keep.keep_args m ρ c main_arg4 (by decide))
theorem bt8 : Arr.bt (V8 m ρ) c = Arr.bt (Mem.V0 m) c :=
  ((Keep.keep_all m ρ c main_arg2 (by decide)).2.2.2.2.1).trans (Keep.keep_args m ρ c main_arg2 (by decide))
theorem lw10 : Arr.lw (V10 m ρ) c = Arr.lw (Mem.V0 m) c :=
  ((Keep.keep_all m ρ c main_arg5 (by decide)).2.2.2.2.2.2).trans (Keep.keep_args m ρ c main_arg5 (by decide))
theorem lb10 : Arr.lb (V10 m ρ) c = Arr.lb (Mem.V0 m) c :=
  ((Keep.keep_all m ρ c main_arg6 (by decide)).2.2.2.2.2.2).trans (Keep.keep_args m ρ c main_arg6 (by decide))

/-! ### Layer by layer -/

/-- The first kernel's output table: the input times the first matrix, each row scaled by its node's factor. -/
theorem t0_eq (u : Fin 100000) (k : Fin 128) :
    Arr.t0 (V4 m ρ) c (ix2 u k) = Spec.tK0 (DST m c) (Arr.x (Mem.V0 m) c) (WL m c 0) u k := by
  calc Arr.t0 (V4 m ρ) c (ix2 u k)
      = (dat0 (F := Ideal) (V3 m ρ) c).arrAt 3 cfg0.N (ix2 u k) := (congrFun (hF0 m ρ c 3) (ix2 u k)).symm
    _ = (∑ j : Fin 128, Arr.x (V3 m ρ) c (ix2 u j) * Arr.w0 (V3 m ρ) c (ix2 j k)) * Arr.dinv2 (V3 m ρ) c (ix2 u 0) :=
        Region0.region0_value (V3 m ρ) c u k
    _ = _ := by
        unfold Spec.tK0 Spec.scaled Spec.mm
        rw [dinv3, x3]
        refine congrArg (fun s => s * Spec.dinv (DST m c) u) (Finset.sum_congr rfl fun j _ => ?_)
        rw [HostA.V3_w0]
        rfl

/-- The first edge sum. -/
theorem r0_eq (v : Fin 100000) (k : Fin 128) :
    Arr.r0 (V5 m ρ) c (ix2 v k) = Spec.rK0 (SRC m c) (DST m c) (Arr.x (Mem.V0 m) c) (WL m c 0) v k := by
  rw [HostB.agg1, src4, dst4]
  unfold Spec.rK0
  exact congrArg (fun T => Spec.aggK (SRC m c) (DST m c) T v k) (funext fun u => funext fun j => t0_eq m ρ c u j)

/-- The second kernel's output table. -/
theorem t1_eq (u : Fin 100000) (k : Fin 128) :
    Arr.t1 (V6 m ρ) c (ix2 u k)
      = Spec.tK1 (SRC m c) (DST m c) (Arr.x (Mem.V0 m) c) (WL m c 0) (WL m c 1) (BL m c 0) u k := by
  calc Arr.t1 (V6 m ρ) c (ix2 u k)
      = (dat1 (F := Ideal) (V5 m ρ) c).arrAt 4 cfg1.N (ix2 u k) := (congrFun (hF1 m ρ c 4) (ix2 u k)).symm
    _ = (∑ j : Fin 128, max (Arr.r0 (V5 m ρ) c (ix2 u j) * Arr.dinv2 (V5 m ρ) c (ix2 u 0) + Arr.b0 (V5 m ρ) c (ix2 0 j)) Spec.Z
            * Arr.w1 (V5 m ρ) c (ix2 j k)) * Arr.dinv2 (V5 m ρ) c (ix2 u 0) := Region1.region1_value (V5 m ρ) c u k
    _ = _ := by
        unfold Spec.tK1 Spec.scaled Spec.mm Spec.actK
        rw [dinv5]
        refine congrArg (fun s => s * Spec.dinv (DST m c) u) (Finset.sum_congr rfl fun j _ => ?_)
        rw [r0_eq, HostS.bias1, bb4, HostS.wgt1, ww4]
        rfl

/-- The second edge sum. -/
theorem r1_eq (v : Fin 100000) (k : Fin 128) :
    Arr.r1 (V7 m ρ) c (ix2 v k)
      = Spec.rK1 (SRC m c) (DST m c) (Arr.x (Mem.V0 m) c) (WL m c 0) (WL m c 1) (BL m c 0) v k := by
  rw [HostB.agg2, src6, dst6]
  unfold Spec.rK1
  exact congrArg (fun T => Spec.aggK (SRC m c) (DST m c) T v k) (funext fun u => funext fun j => t1_eq m ρ c u j)

/-- The third kernel's output table. -/
theorem t2_eq (u : Fin 100000) (k : Fin 128) :
    Arr.t2 (V8 m ρ) c (ix2 u k)
      = Spec.tK2 (SRC m c) (DST m c) (Arr.x (Mem.V0 m) c) (WL m c 0) (WL m c 1) (WL m c 2) (BL m c 0) (BL m c 1) u k := by
  calc Arr.t2 (V8 m ρ) c (ix2 u k)
      = (dat2 (F := Ideal) (V7 m ρ) c).arrAt 4 cfg2.N (ix2 u k) := (congrFun (hF2 m ρ c 4) (ix2 u k)).symm
    _ = (∑ j : Fin 128, max (Arr.r1 (V7 m ρ) c (ix2 u j) * Arr.dinv2 (V7 m ρ) c (ix2 u 0) + Arr.b1 (V7 m ρ) c (ix2 0 j)) Spec.Z
            * Arr.w2 (V7 m ρ) c (ix2 j k)) * Arr.dinv2 (V7 m ρ) c (ix2 u 0) := Region2.region2_value (V7 m ρ) c u k
    _ = _ := by
        unfold Spec.tK2 Spec.scaled Spec.mm Spec.actK
        rw [dinv7]
        refine congrArg (fun s => s * Spec.dinv (DST m c) u) (Finset.sum_congr rfl fun j _ => ?_)
        rw [r1_eq, HostS.bias2, bb6, HostS.wgt2, ww6]
        rfl

/-- The third edge sum. -/
theorem r2_eq (v : Fin 100000) (k : Fin 128) :
    Arr.r2 (V9 m ρ) c (ix2 v k)
      = Spec.rK2 (SRC m c) (DST m c) (Arr.x (Mem.V0 m) c) (WL m c 0) (WL m c 1) (WL m c 2) (BL m c 0) (BL m c 1) v k := by
  rw [HostB.agg3, src8, dst8]
  unfold Spec.rK2
  exact congrArg (fun T => Spec.aggK (SRC m c) (DST m c) T v k) (funext fun u => funext fun j => t2_eq m ρ c u j)

/-- The last activated table, as the pooling kernel computes it from its inputs. -/
theorem h3_eq (v : Fin 100000) (k : Fin 128) :
    max (Arr.r2 (V9 m ρ) c (ix2 v k) * Arr.dinv2 (V9 m ρ) c (ix2 v 0) + Arr.b2 (V9 m ρ) c (ix2 0 k)) Spec.Z
      = Spec.hK3 (SRC m c) (DST m c) (Arr.x (Mem.V0 m) c) (WL m c 0) (WL m c 1) (WL m c 2) (BL m c 0) (BL m c 1) (BL m c 2) v k := by
  unfold Spec.hK3 Spec.actK
  rw [r2_eq, dinv9, HostS.bias3, bb8]
  rfl

/-- The pooled sums and counts at the pooling kernel's exit. -/
theorem sums_eq (g : Fin 2048) (k : Fin 128) :
    Arr.sums (V10 m ρ) c (ix2 g k)
      = Spec.sumsK (Arr.bt (Mem.V0 m) c)
          (Spec.hK3 (SRC m c) (DST m c) (Arr.x (Mem.V0 m) c) (WL m c 0) (WL m c 1) (WL m c 2) (BL m c 0) (BL m c 1) (BL m c 2)) g k := by
  calc Arr.sums (V10 m ρ) c (ix2 g k)
      = (dat3 (F := Ideal) (V9 m ρ) c).arrAt 4 cfg3.N (ix2 g k) := (congrFun (hF3 m ρ c 4) (ix2 g k)).symm
    _ = Spec.Z + ∑ v : Fin 100000, Arr.ohW (Arr.bt2 (V9 m ρ) c (ix2 v 0)) g
          * max (Arr.r2 (V9 m ρ) c (ix2 v k) * Arr.dinv2 (V9 m ρ) c (ix2 v 0) + Arr.b2 (V9 m ρ) c (ix2 0 k)) Spec.Z :=
        Region3.region3_sums (V9 m ρ) c g k
    _ = _ := by
        unfold Spec.sumsK Spec.oh
        refine congrArg (Spec.Z + ·) (Finset.sum_congr rfl fun v _ => ?_)
        rw [h3_eq, HostS.words3, bt8]

theorem cnt_eq (g : Fin 2048) :
    Arr.cnt (V10 m ρ) c (ix2 0 g) = Spec.cntK (Arr.bt (Mem.V0 m) c) g := by
  calc Arr.cnt (V10 m ρ) c (ix2 0 g)
      = (dat3 (F := Ideal) (V9 m ρ) c).arrAt 5 cfg3.N (ix2 0 g) := (congrFun (hF3 m ρ c 5) (ix2 0 g)).symm
    _ = Spec.Z + ∑ v : Fin 100000, Arr.ohW (Arr.bt2 (V9 m ρ) c (ix2 v 0)) g := Region3.region3_cnt (V9 m ρ) c g
    _ = _ := by
        unfold Spec.cntK Spec.oh
        refine congrArg (Spec.Z + ·) (Finset.sum_congr rfl fun v _ => ?_)
        rw [HostS.words3, bt8]

end

theorem kernel_value (c : Dev nD) (g : Fin 2048) :
    Arr.out (Mem.V11 m ρ) c (ix2 g 0)
      = Spec.outK (HostA.srcT (Arr.ei (Mem.V0 m) c)) (HostA.dstT (Arr.ei (Mem.V0 m) c)) (Arr.bt (Mem.V0 m) c)
          (Arr.x (Mem.V0 m) c)
          (Spec.wSlice (Arr.ww (Mem.V0 m) c) 0) (Spec.wSlice (Arr.ww (Mem.V0 m) c) 1) (Spec.wSlice (Arr.ww (Mem.V0 m) c) 2)
          (Spec.bSlice (Arr.bb (Mem.V0 m) c) 0) (Spec.bSlice (Arr.bb (Mem.V0 m) c) 1) (Spec.bSlice (Arr.bb (Mem.V0 m) c) 2)
          (Arr.lw (Mem.V0 m) c) (Arr.lb (Mem.V0 m) c) g := by
  rw [HostS.tail_out, lw10, lb10]
  unfold Spec.outK
  rw [show (fun g k => Arr.sums (V10 m ρ) c (ix2 g k)) = _ from funext fun g => funext fun k => sums_eq m ρ c g k,
    show (fun g => Arr.cnt (V10 m ρ) c (ix2 0 g)) = _ from funext fun g => cnt_eq m ρ c g]

end Cert.KernelIdeal.Value

end
-- ==== Proof.RefRead1.lean ====
import proofs.«416809_j1726576853644_2_alg».proof.Proof.RefReadP
import proofs.«416809_j1726576853644_2_alg».proof.Proof.Spec
import proofs.«416809_j1726576853644_2_alg».proof.Proof.SpecArgs
import proofs.«416809_j1726576853644_2_alg».proof.Proof.LibScatterGatherRows
import proofs.«416809_j1726576853644_2_alg».proof.Proof.LibGatherStacked

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.ReadP
open Idealize.ShloMosaic Idealize.ShloMosaic.TcCoe Idealize.ShloMosaic.ValueIdx Idealize.SL.Sem
open scoped BigOperators

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 : (⟨S3x128, .f32⟩ : BufTy).Contents (Elt Ideal)) (x5 : (⟨S128x1, .f32⟩ : BufTy).Contents (Elt Ideal))
  (x6 : (⟨S1, .f32⟩ : BufTy).Contents (Elt Ideal))

/-! The reference's node factors and edge weights, read at an index. -/

/-- The column of destination words at row `e` is the destination word of edge `e`. -/
private theorem dstcol_at (e : Fin 1700000) :
    val_main_v9 (F := Ideal) x1 (ix2 e 0) = val_main_v6 (F := Ideal) x1 (ix1 e) := by
  rw [val_main_v9_apply]
  generalize val_main_v6 (F := Ideal) x1 = y
  congr 1
  exact funext fun a => Fin.ext (by match a with | ⟨0, _⟩ => rfl)

/-- The degree: zero plus one for every edge landing on the node. -/
private theorem ref_deg (v : Fin 100000) :
    val_main_v10 (F := Ideal) x1 (ix1 v) = Spec.deg (val_main_v6 (F := Ideal) x1) v := by
  unfold val_main_v10
  have hcol := dstcol_at x1
  generalize val_main_v9 (F := Ideal) x1 = col at hcol ⊢
  generalize val_main_v6 (F := Ideal) x1 = dst at hcol ⊢
  rw [Cert.LibScatterGatherRows.scatterAdd_vec scatter_S100000_S1700000x1_S1700000_n_0_0_1 rfl rfl rfl rfl]
  unfold Spec.deg
  have h8 : val_main_v8 (F := Ideal) (ix1 v) = Spec.Z := by
    rw [val_main_v8_apply, val_main_cst_0_apply]; rfl
  have h7 : ∀ e : Fin 1700000, val_main_v7 (F := Ideal) (ix1 e) = Spec.ONE := by
    intro e; rw [val_main_v7_apply, val_main_cst_apply]; rfl
  rw [h8]
  simp only [hcol, h7]

/-- The node factor: the inverse square root of the number of edges landing on the node. -/
theorem ref_dinv (v : Fin 100000) :
    val_main_v14 (F := Ideal) x1 (ix1 v) = Spec.dinv (val_main_v6 (F := Ideal) x1) v := by
  rw [val_main_v14_apply, val_main_v12_apply, val_main_v13_apply, val_main_call0_v1_apply, val_main_call0_v0_apply,
    val_main_cst_2_apply, val_main_v11_apply, val_main_cst_1_apply, ref_deg]
  unfold Spec.dinv
  generalize Spec.deg (val_main_v6 (F := Ideal) x1) v = d
  rfl

/-- A vector gathered by a column of words: where the column's word for edge `e` is the wrapped word `w`,
    the gathered element is the table at the row `w` names. -/
private theorem gather_factor (tab : (⟨S100000, .f32⟩ : BufTy).Contents (Elt Ideal))
    (col : (⟨S1700000x1, .i32⟩ : BufTy).Contents (Elt Ideal)) (w : BitVec 32) (e : Fin 1700000)
    (h : col (ix2 e 0) = Spec.wrapW w) :
    Host.gather gather_S100000_S1700000x1_S1700000_n_0_n_n_0_1_1 tab col (ix1 e) = tab (ix1 (Spec.rowOf w)) := by
  rw [Cert.LibGatherStacked.gather_vec gather_S100000_S1700000x1_S1700000_n_0_n_n_0_1_1 rfl rfl rfl rfl rfl tab col e
    (by omega)]
  refine congrArg (fun r : Fin 100000 => tab (ix1 r)) (Fin.ext ?_)
  show min (col (ix2 e 0)).toInt.toNat (100000 - 1) = min (Spec.wrapW w).toInt.toNat 99999
  rw [h]

/-- The column of wrapped source words at row `e` is the wrapped source word of edge `e`. -/
private theorem srcwrap_at (e : Fin 1700000) :
    val_main_v20 (F := Ideal) x1 (ix2 e 0) = Spec.wrapW (val_main_v3 (F := Ideal) x1 (ix1 e)) := by
  rw [val_main_v20_apply,
    show idx_main_v20 (ix2 e 0) = ix1 e from funext fun a => Fin.ext (by match a with | ⟨0, _⟩ => rfl),
    val_main_v19_apply, val_main_v16_apply, val_main_v18_apply, val_main_v15_apply, val_main_c_apply,
    val_main_v17_apply, val_main_c_3_apply]
  generalize val_main_v3 (F := Ideal) x1 (ix1 e) = w
  rfl

/-- The column of wrapped destination words at row `e` is the wrapped destination word of edge `e`. -/
private theorem dstwrap_at (e : Fin 1700000) :
    val_main_v27 (F := Ideal) x1 (ix2 e 0) = Spec.wrapW (val_main_v6 (F := Ideal) x1 (ix1 e)) := by
  rw [val_main_v27_apply,
    show idx_main_v27 (ix2 e 0) = ix1 e from funext fun a => Fin.ext (by match a with | ⟨0, _⟩ => rfl),
    val_main_v26_apply, val_main_v23_apply, val_main_v25_apply, val_main_v22_apply, val_main_c_4_apply,
    val_main_v24_apply, val_main_c_5_apply]
  generalize val_main_v6 (F := Ideal) x1 (ix1 e) = w
  rfl

/-- The edge weight: the product of the factors at the edge's source row and destination row. -/
theorem ref_nrm (e : Fin 1700000) :
    val_main_v30 (F := Ideal) x1 (ix2 e 0) = Spec.nrm (val_main_v3 (F := Ideal) x1) (val_main_v6 (F := Ideal) x1) e := by
  rw [val_main_v30_apply,
    show idx_main_v30 (ix2 e 0) = ix1 e from funext fun a => Fin.ext (by match a with | ⟨0, _⟩ => rfl),
    val_main_v29_apply]
  unfold val_main_v21 val_main_v28 Spec.nrm
  have hs := srcwrap_at x1 e
  have hd := dstwrap_at x1 e
  have hf := ref_dinv x1
  generalize val_main_v20 (F := Ideal) x1 = cs at hs ⊢
  generalize val_main_v27 (F := Ideal) x1 = cd at hd ⊢
  generalize val_main_v14 (F := Ideal) x1 = tab at hf ⊢
  rw [gather_factor tab cs _ e hs, gather_factor tab cd _ e hd, hf, hf]
  rfl

end Cert.ReferenceIdeal.RefVal

end
-- ==== Proof.RefRead2.lean ====
import proofs.«416809_j1726576853644_2_alg».proof.Proof.RefReadP
import proofs.«416809_j1726576853644_2_alg».proof.Proof.Spec
import proofs.«416809_j1726576853644_2_alg».proof.Proof.SpecArgs
import proofs.«416809_j1726576853644_2_alg».proof.Proof.LibScatterGatherRows
import proofs.«416809_j1726576853644_2_alg».proof.Proof.LibGatherStacked
import proofs.«416809_j1726576853644_2_alg».proof.Proof.RefRead1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.ReadP
open Idealize.ShloMosaic Idealize.ShloMosaic.TcCoe Idealize.ShloMosaic.ValueIdx Idealize.SL.Sem
open scoped BigOperators

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 : (⟨S3x128, .f32⟩ : BufTy).Contents (Elt Ideal)) (x5 : (⟨S128x1, .f32⟩ : BufTy).Contents (Elt Ideal))
  (x6 : (⟨S1, .f32⟩ : BufTy).Contents (Elt Ideal))

/-! The reference's three layers, read at an index: each is the weighted edge sum of the previous table times the
    layer's matrix, plus the layer's bias, clamped below at zero. -/

/-- ONE LAYER over arbitrary operand arrays. Given a product table `M`, a column of wrapped source words, the edge
    weights spread along the rows, a table of zeros, a column of destination words, the bias spread over the nodes
    and a second table of zeros, the chain "gather the product's rows by the source column, multiply by the weights,
    scatter-add into the zeros by the destination column, add the bias, take the maximum with zero" is, at `(v, k)`,
    the weighted sum over the edges landing on `v` plus the bias, clamped below at zero. -/
private theorem layer_at (src dst : IVec ⟨1, ![1700000]⟩ 32) (M : Spec.Tab)
    (b : (⟨1, ![128]⟩ : Shape).Idx → EReal)
    (prod : FVec Ideal S100000x128 .f32) (srcCol : IVec S1700000x1 32) (wt : FVec Ideal S1700000x128 .f32)
    (zeros : FVec Ideal S100000x128 .f32) (dstCol : IVec S1700000x1 32)
    (bias zero2 : FVec Ideal S100000x128 .f32)
    (hprod : ∀ (u : Fin 100000) (k : Fin 128), prod (ix2 u k) = M u k)
    (hsrc : ∀ e : Fin 1700000, srcCol (ix2 e 0) = Spec.wrapW (src (ix1 e)))
    (hwt : ∀ (e : Fin 1700000) (k : Fin 128), wt (ix2 e k) = Spec.nrm src dst e)
    (hz : ∀ (v : Fin 100000) (k : Fin 128), zeros (ix2 v k) = Spec.Z)
    (hdst : ∀ e : Fin 1700000, dstCol (ix2 e 0) = dst (ix1 e))
    (hb : ∀ (v : Fin 100000) (k : Fin 128), bias (ix2 v k) = b (ix1 k))
    (hz2 : ∀ (v : Fin 100000) (k : Fin 128), zero2 (ix2 v k) = Spec.Z)
    (v : Fin 100000) (k : Fin 128) :
    maximumf (addf (Host.scatterAdd (F := Ideal) scatter_S100000x128_S1700000x1_S1700000x128_1_0_0_1 zeros dstCol
        (mulf (Host.gather gather_S100000x128_S1700000x1_S1700000x128_1_0_n_n_0_1_1128 prod srcCol) wt)) bias) zero2 (ix2 v k)
      = Spec.actR b (Spec.aggR src dst M) v k := by
  rw [maximumf_apply, addf_apply,
    Cert.LibScatterGatherRows.scatterAdd_rows scatter_S100000x128_S1700000x1_S1700000x128_1_0_0_1 rfl rfl rfl rfl,
    hz, hb, hz2]
  unfold Spec.actR Spec.aggR
  -- the edges whose destination word is v are the edges landing on v
  have hfil : (Finset.univ.filter fun e : Fin 1700000 => (dstCol (ix2 e 0)).toInt = (v.val : ℤ))
      = Finset.univ.filter (fun e : Fin 1700000 => Spec.lands dst v e) :=
    Finset.filter_congr fun e _ => by rw [hdst]
  rw [hfil]
  -- each landing edge contributes the product's row at its source row, times its weight
  have hterm : ∀ e : Fin 1700000,
      mulf (Host.gather gather_S100000x128_S1700000x1_S1700000x128_1_0_n_n_0_1_1128 prod srcCol) wt (ix2 e k)
        = M (Spec.rowOf (src (ix1 e))) k * Spec.nrm src dst e := by
    intro e
    have hrow : (⟨min (srcCol (ix2 e 0)).toInt.toNat (100000 - 1), by omega⟩ : Fin 100000)
        = Spec.rowOf (src (ix1 e)) := by
      apply Fin.ext
      have h1 : (100000 - 1 : Nat) = 99999 := rfl
      show min (srcCol (ix2 e 0)).toInt.toNat (100000 - 1) = min (Spec.wrapW (src (ix1 e))).toInt.toNat 99999
      rw [h1, hsrc]
    rw [mulf_apply,
      Cert.LibScatterGatherRows.gather_rows_ideal gather_S100000x128_S1700000x1_S1700000x128_1_0_n_n_0_1_1128
        rfl rfl rfl rfl rfl prod srcCol e k (by decide),
      hprod, hrow, hwt]
  simp only [hterm]

/-! ### The first layer's operands -/

private theorem w0_at (j k : Fin 128) :
    val_main_v32 (F := Ideal) x3 (ix2 j k) = Spec.wSlice x3 0 (ix2 j k) := by
  rw [val_main_v32_apply, val_main_v31_apply, Spec.wSlice_ix2]
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

private theorem prod1_at (u : Fin 100000) (k : Fin 128) :
    val_main_v33 (F := Ideal) x0 x3 (ix2 u k) = Spec.mm (Spec.tab0 x0) (Spec.wSlice x3 0) u k := by
  rw [val_main_v33_apply]
  unfold Spec.mm
  refine Finset.sum_congr rfl fun j _ => ?_
  have el : lidx_main_v33 (ix2 u k) j = ix2 u j :=
    funext fun a => Fin.ext (by match a with | ⟨0, _⟩ => rfl | ⟨1, _⟩ => rfl)
  have er : ridx_main_v33 (ix2 u k) j = ix2 j k :=
    funext fun a => Fin.ext (by match a with | ⟨0, _⟩ => rfl | ⟨1, _⟩ => rfl)
  rw [el, er, w0_at]

private theorem src1_at (e : Fin 1700000) :
    val_main_v39 (F := Ideal) x1 (ix2 e 0) = Spec.wrapW (val_main_v3 (F := Ideal) x1 (ix1 e)) := by
  have ei : idx_main_v39 (ix2 e (0 : Fin 1)) = ix1 e :=
    funext fun a => Fin.ext (by match a with | ⟨0, _⟩ => rfl)
  rw [val_main_v39_apply, ei, val_main_v38_apply, val_main_v35_apply, val_main_v37_apply, val_main_v34_apply,
    val_main_v36_apply, val_main_c_6_apply, val_main_c_7_apply]
  generalize val_main_v3 (F := Ideal) x1 (ix1 e) = w
  rfl

private theorem wt1_at (e : Fin 1700000) (k : Fin 128) :
    val_main_v41 (F := Ideal) x1 (ix2 e k)
      = Spec.nrm (val_main_v3 (F := Ideal) x1) (val_main_v6 (F := Ideal) x1) e := by
  have ei : idx_main_v41 (ix2 e k) = ix2 e (0 : Fin 1) :=
    funext fun a => Fin.ext (by match a with | ⟨0, _⟩ => rfl | ⟨1, _⟩ => rfl)
  rw [val_main_v41_apply, ei, ref_nrm]

private theorem z1_at (v : Fin 100000) (k : Fin 128) : val_main_v43 (F := Ideal) (ix2 v k) = Spec.Z := by
  rw [val_main_v43_apply, val_main_cst_8_apply, Ideal.ofBits_def]

private theorem dst1_at (e : Fin 1700000) :
    val_main_v44 (F := Ideal) x1 (ix2 e 0) = val_main_v6 (F := Ideal) x1 (ix1 e) := by
  have ei : idx_main_v44 (ix2 e (0 : Fin 1)) = ix1 e :=
    funext fun a => Fin.ext (by match a with | ⟨0, _⟩ => rfl)
  rw [val_main_v44_apply, ei]

private theorem b0_at (v : Fin 100000) (k : Fin 128) :
    val_main_v49 (F := Ideal) x4 (ix2 v k) = Spec.bSlice x4 0 (ix1 k) := by
  rw [val_main_v49_apply, val_main_v48_apply, val_main_v47_apply, val_main_v46_apply, Spec.bSlice_ix1]
  congr 1
  funext a
  apply Fin.ext
  have hk := k.isLt
  match a with
  | ⟨0, _⟩ => rfl
  | ⟨1, _⟩ => show k.val % 128 = k.val; omega

private theorem relu1_at (v : Fin 100000) (k : Fin 128) : val_main_call1_v0 (F := Ideal) (ix2 v k) = Spec.Z := by
  rw [val_main_call1_v0_apply, val_main_call1_cst_apply, Ideal.ofBits_def]

theorem ref_layer1 (v : Fin 100000) (k : Fin 128) :
    val_main_v51 (F := Ideal) x0 x1 x3 x4 (ix2 v k)
      = Spec.hR1 (val_main_v3 (F := Ideal) x1) (val_main_v6 (F := Ideal) x1) x0 (Spec.wSlice x3 0) (Spec.bSlice x4 0) v k := by
  unfold val_main_v51 val_main_v50 val_main_v45 val_main_v42 val_main_v40 Spec.hR1
  exact layer_at (val_main_v3 (F := Ideal) x1) (val_main_v6 (F := Ideal) x1) (Spec.mm (Spec.tab0 x0) (Spec.wSlice x3 0))
    (Spec.bSlice x4 0) (val_main_v33 (F := Ideal) x0 x3) (val_main_v39 (F := Ideal) x1) (val_main_v41 (F := Ideal) x1)
    (val_main_v43 (F := Ideal)) (val_main_v44 (F := Ideal) x1) (val_main_v49 (F := Ideal) x4) (val_main_call1_v0 (F := Ideal))
    (prod1_at x0 x3) (src1_at x1) (wt1_at x1) z1_at (dst1_at x1) (b0_at x4) relu1_at v k

/-! ### The second layer's operands -/

private theorem w1_at (j k : Fin 128) :
    val_main_v53 (F := Ideal) x3 (ix2 j k) = Spec.wSlice x3 1 (ix2 j k) := by
  rw [val_main_v53_apply, val_main_v52_apply, Spec.wSlice_ix2]
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

private theorem src2_at (e : Fin 1700000) :
    val_main_v60 (F := Ideal) x1 (ix2 e 0) = Spec.wrapW (val_main_v3 (F := Ideal) x1 (ix1 e)) := by
  have ei : idx_main_v60 (ix2 e (0 : Fin 1)) = ix1 e :=
    funext fun a => Fin.ext (by match a with | ⟨0, _⟩ => rfl)
  rw [val_main_v60_apply, ei, val_main_v59_apply, val_main_v56_apply, val_main_v58_apply, val_main_v55_apply,
    val_main_v57_apply, val_main_c_9_apply, val_main_c_10_apply]
  generalize val_main_v3 (F := Ideal) x1 (ix1 e) = w
  rfl

private theorem wt2_at (e : Fin 1700000) (k : Fin 128) :
    val_main_v62 (F := Ideal) x1 (ix2 e k)
      = Spec.nrm (val_main_v3 (F := Ideal) x1) (val_main_v6 (F := Ideal) x1) e := by
  have ei : idx_main_v62 (ix2 e k) = ix2 e (0 : Fin 1) :=
    funext fun a => Fin.ext (by match a with | ⟨0, _⟩ => rfl | ⟨1, _⟩ => rfl)
  rw [val_main_v62_apply, ei, ref_nrm]

private theorem z2_at (v : Fin 100000) (k : Fin 128) : val_main_v64 (F := Ideal) (ix2 v k) = Spec.Z := by
  rw [val_main_v64_apply, val_main_cst_11_apply, Ideal.ofBits_def]

private theorem dst2_at (e : Fin 1700000) :
    val_main_v65 (F := Ideal) x1 (ix2 e 0) = val_main_v6 (F := Ideal) x1 (ix1 e) := by
  have ei : idx_main_v65 (ix2 e (0 : Fin 1)) = ix1 e :=
    funext fun a => Fin.ext (by match a with | ⟨0, _⟩ => rfl)
  rw [val_main_v65_apply, ei]

private theorem b1_at (v : Fin 100000) (k : Fin 128) :
    val_main_v70 (F := Ideal) x4 (ix2 v k) = Spec.bSlice x4 1 (ix1 k) := by
  rw [val_main_v70_apply, val_main_v69_apply, val_main_v68_apply, val_main_v67_apply, Spec.bSlice_ix1]
  congr 1
  funext a
  apply Fin.ext
  have hk := k.isLt
  match a with
  | ⟨0, _⟩ => rfl
  | ⟨1, _⟩ => show k.val % 128 = k.val; omega

private theorem relu2_at (v : Fin 100000) (k : Fin 128) : val_main_call2_v0 (F := Ideal) (ix2 v k) = Spec.Z := by
  rw [val_main_call2_v0_apply, val_main_call2_cst_apply, Ideal.ofBits_def]

private theorem prod2_at (u : Fin 100000) (k : Fin 128) :
    val_main_v54 (F := Ideal) x0 x1 x3 x4 (ix2 u k)
      = Spec.mm (Spec.hR1 (val_main_v3 (F := Ideal) x1) (val_main_v6 (F := Ideal) x1) x0 (Spec.wSlice x3 0) (Spec.bSlice x4 0))
          (Spec.wSlice x3 1) u k := by
  rw [val_main_v54_apply]
  unfold Spec.mm
  refine Finset.sum_congr rfl fun j _ => ?_
  have el : lidx_main_v54 (ix2 u k) j = ix2 u j :=
    funext fun a => Fin.ext (by match a with | ⟨0, _⟩ => rfl | ⟨1, _⟩ => rfl)
  have er : ridx_main_v54 (ix2 u k) j = ix2 j k :=
    funext fun a => Fin.ext (by match a with | ⟨0, _⟩ => rfl | ⟨1, _⟩ => rfl)
  rw [el, er, w1_at, ref_layer1]

theorem ref_layer2 (v : Fin 100000) (k : Fin 128) :
    val_main_v72 (F := Ideal) x0 x1 x3 x4 (ix2 v k)
      = Spec.hR2 (val_main_v3 (F := Ideal) x1) (val_main_v6 (F := Ideal) x1) x0 (Spec.wSlice x3 0) (Spec.wSlice x3 1)
          (Spec.bSlice x4 0) (Spec.bSlice x4 1) v k := by
  unfold val_main_v72 val_main_v71 val_main_v66 val_main_v63 val_main_v61 Spec.hR2
  exact layer_at (val_main_v3 (F := Ideal) x1) (val_main_v6 (F := Ideal) x1)
    (Spec.mm (Spec.hR1 (val_main_v3 (F := Ideal) x1) (val_main_v6 (F := Ideal) x1) x0 (Spec.wSlice x3 0) (Spec.bSlice x4 0))
      (Spec.wSlice x3 1))
    (Spec.bSlice x4 1) (val_main_v54 (F := Ideal) x0 x1 x3 x4) (val_main_v60 (F := Ideal) x1) (val_main_v62 (F := Ideal) x1)
    (val_main_v64 (F := Ideal)) (val_main_v65 (F := Ideal) x1) (val_main_v70 (F := Ideal) x4) (val_main_call2_v0 (F := Ideal))
    (prod2_at x0 x1 x3 x4) (src2_at x1) (wt2_at x1) z2_at (dst2_at x1) (b1_at x4) relu2_at v k

/-! ### The third layer's operands -/

private theorem w2_at (j k : Fin 128) :
    val_main_v74 (F := Ideal) x3 (ix2 j k) = Spec.wSlice x3 2 (ix2 j k) := by
  rw [val_main_v74_apply, val_main_v73_apply, Spec.wSlice_ix2]
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

private theorem src3_at (e : Fin 1700000) :
    val_main_v81 (F := Ideal) x1 (ix2 e 0) = Spec.wrapW (val_main_v3 (F := Ideal) x1 (ix1 e)) := by
  have ei : idx_main_v81 (ix2 e (0 : Fin 1)) = ix1 e :=
    funext fun a => Fin.ext (by match a with | ⟨0, _⟩ => rfl)
  rw [val_main_v81_apply, ei, val_main_v80_apply, val_main_v77_apply, val_main_v79_apply, val_main_v76_apply,
    val_main_v78_apply, val_main_c_12_apply, val_main_c_13_apply]
  generalize val_main_v3 (F := Ideal) x1 (ix1 e) = w
  rfl

private theorem wt3_at (e : Fin 1700000) (k : Fin 128) :
    val_main_v83 (F := Ideal) x1 (ix2 e k)
      = Spec.nrm (val_main_v3 (F := Ideal) x1) (val_main_v6 (F := Ideal) x1) e := by
  have ei : idx_main_v83 (ix2 e k) = ix2 e (0 : Fin 1) :=
    funext fun a => Fin.ext (by match a with | ⟨0, _⟩ => rfl | ⟨1, _⟩ => rfl)
  rw [val_main_v83_apply, ei, ref_nrm]

private theorem z3_at (v : Fin 100000) (k : Fin 128) : val_main_v85 (F := Ideal) (ix2 v k) = Spec.Z := by
  rw [val_main_v85_apply, val_main_cst_14_apply, Ideal.ofBits_def]

private theorem dst3_at (e : Fin 1700000) :
    val_main_v86 (F := Ideal) x1 (ix2 e 0) = val_main_v6 (F := Ideal) x1 (ix1 e) := by
  have ei : idx_main_v86 (ix2 e (0 : Fin 1)) = ix1 e :=
    funext fun a => Fin.ext (by match a with | ⟨0, _⟩ => rfl)
  rw [val_main_v86_apply, ei]

private theorem b2_at (v : Fin 100000) (k : Fin 128) :
    val_main_v91 (F := Ideal) x4 (ix2 v k) = Spec.bSlice x4 2 (ix1 k) := by
  rw [val_main_v91_apply, val_main_v90_apply, val_main_v89_apply, val_main_v88_apply, Spec.bSlice_ix1]
  congr 1
  funext a
  apply Fin.ext
  have hk := k.isLt
  match a with
  | ⟨0, _⟩ => rfl
  | ⟨1, _⟩ => show k.val % 128 = k.val; omega

private theorem relu3_at (v : Fin 100000) (k : Fin 128) : val_main_call3_v0 (F := Ideal) (ix2 v k) = Spec.Z := by
  rw [val_main_call3_v0_apply, val_main_call3_cst_apply, Ideal.ofBits_def]

private theorem prod3_at (u : Fin 100000) (k : Fin 128) :
    val_main_v75 (F := Ideal) x0 x1 x3 x4 (ix2 u k)
      = Spec.mm (Spec.hR2 (val_main_v3 (F := Ideal) x1) (val_main_v6 (F := Ideal) x1) x0 (Spec.wSlice x3 0) (Spec.wSlice x3 1)
            (Spec.bSlice x4 0) (Spec.bSlice x4 1))
          (Spec.wSlice x3 2) u k := by
  rw [val_main_v75_apply]
  unfold Spec.mm
  refine Finset.sum_congr rfl fun j _ => ?_
  have el : lidx_main_v75 (ix2 u k) j = ix2 u j :=
    funext fun a => Fin.ext (by match a with | ⟨0, _⟩ => rfl | ⟨1, _⟩ => rfl)
  have er : ridx_main_v75 (ix2 u k) j = ix2 j k :=
    funext fun a => Fin.ext (by match a with | ⟨0, _⟩ => rfl | ⟨1, _⟩ => rfl)
  rw [el, er, w2_at, ref_layer2]

theorem ref_layer3 (v : Fin 100000) (k : Fin 128) :
    val_main_v93 (F := Ideal) x0 x1 x3 x4 (ix2 v k)
      = Spec.hR3 (val_main_v3 (F := Ideal) x1) (val_main_v6 (F := Ideal) x1) x0 (Spec.wSlice x3 0) (Spec.wSlice x3 1)
          (Spec.wSlice x3 2) (Spec.bSlice x4 0) (Spec.bSlice x4 1) (Spec.bSlice x4 2) v k := by
  unfold val_main_v93 val_main_v92 val_main_v87 val_main_v84 val_main_v82 Spec.hR3
  exact layer_at (val_main_v3 (F := Ideal) x1) (val_main_v6 (F := Ideal) x1)
    (Spec.mm (Spec.hR2 (val_main_v3 (F := Ideal) x1) (val_main_v6 (F := Ideal) x1) x0 (Spec.wSlice x3 0) (Spec.wSlice x3 1)
        (Spec.bSlice x4 0) (Spec.bSlice x4 1))
      (Spec.wSlice x3 2))
    (Spec.bSlice x4 2) (val_main_v75 (F := Ideal) x0 x1 x3 x4) (val_main_v81 (F := Ideal) x1) (val_main_v83 (F := Ideal) x1)
    (val_main_v85 (F := Ideal)) (val_main_v86 (F := Ideal) x1) (val_main_v91 (F := Ideal) x4) (val_main_call3_v0 (F := Ideal))
    (prod3_at x0 x1 x3 x4) (src3_at x1) (wt3_at x1) z3_at (dst3_at x1) (b2_at x4) relu3_at v k

end Cert.ReferenceIdeal.RefVal

end
-- ==== Proof.RefRead3.lean ====
import proofs.«416809_j1726576853644_2_alg».proof.Proof.RefReadP
import proofs.«416809_j1726576853644_2_alg».proof.Proof.Spec
import proofs.«416809_j1726576853644_2_alg».proof.Proof.SpecArgs
import proofs.«416809_j1726576853644_2_alg».proof.Proof.LibScatterGatherRows
import proofs.«416809_j1726576853644_2_alg».proof.Proof.LibGatherStacked

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.ReadP
open Idealize.ShloMosaic Idealize.ShloMosaic.TcCoe Idealize.ShloMosaic.ValueIdx Idealize.SL.Sem
open scoped BigOperators

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 : (⟨S3x128, .f32⟩ : BufTy).Contents (Elt Ideal)) (x5 : (⟨S128x1, .f32⟩ : BufTy).Contents (Elt Ideal))
  (x6 : (⟨S1, .f32⟩ : BufTy).Contents (Elt Ideal))

/-! The reference's pooling and last linear map, read at an index. -/

/-- The pooled sums: each graph's rows added up. -/
theorem ref_sums (g : Fin 2048) (k : Fin 128) :
    val_main_v96 (F := Ideal) x0 x1 x2 x3 x4 (ix2 g k)
      = Spec.sumsR x2 (fun u j => val_main_v93 (F := Ideal) x0 x1 x3 x4 (ix2 u j)) g k := by
  -- the graph words as a column, read at row e, are the graph word of node e
  have h95 : ∀ e : Fin 100000, val_main_v95 (F := Ideal) x2 (ix2 e 0) = x2 (ix1 e) := by
    intro e
    rw [val_main_v95_apply]
    congr 1
    funext a
    match a with
    | ⟨0, _⟩ => rfl
  -- the operand is all the word of +0.0
  have h94 : val_main_v94 (F := Ideal) (ix2 g k) = Spec.Z := by
    rw [val_main_v94_apply, val_main_cst_15_apply]
    rfl
  unfold val_main_v96
  -- the last table stays one opaque function of its index
  generalize val_main_v93 (F := Ideal) x0 x1 x3 x4 = H
  rw [Cert.LibScatterGatherRows.scatterAdd_rows scatter_S2048x128_S100000x1_S100000x128_1_0_0_1 rfl rfl rfl rfl]
  unfold Spec.sumsR
  rw [h94]
  simp only [h95]

/-- The pooled counts: each graph's number of nodes. -/
theorem ref_cnt (g : Fin 2048) : val_main_v100 (F := Ideal) x2 (ix1 g) = Spec.cntR x2 g := by
  -- the graph words as a column, read at row e, are the graph word of node e
  have h99 : ∀ e : Fin 100000, val_main_v99 (F := Ideal) x2 (ix2 e 0) = x2 (ix1 e) := by
    intro e
    rw [val_main_v99_apply]
    congr 1
    funext a
    match a with
    | ⟨0, _⟩ => rfl
  -- the updates are all the word of 1.0, the operand all the word of +0.0
  have h97 : ∀ e : Fin 100000, val_main_v97 (F := Ideal) (ix1 e) = Spec.ONE := by
    intro e
    rw [val_main_v97_apply, val_main_cst_16_apply]
    rfl
  have h98 : val_main_v98 (F := Ideal) (ix1 g) = Spec.Z := by
    rw [val_main_v98_apply, val_main_cst_17_apply]
    rfl
  unfold val_main_v100
  rw [Cert.LibScatterGatherRows.scatterAdd_vec scatter_S2048_S100000x1_S100000_n_0_0_1 rfl rfl rfl rfl]
  unfold Spec.cntR
  rw [h98]
  simp only [h99, h97]

/-- The result: each graph's mean row times the last weights plus the last bias. -/
theorem ref_out (g : Fin 2048) :
    val_main_v109 (F := Ideal) x0 x1 x2 x3 x4 x5 x6 (ix2 g 0)
      = Spec.outOf (fun g k => val_main_v96 (F := Ideal) x0 x1 x2 x3 x4 (ix2 g k))
          (fun g => val_main_v100 (F := Ideal) x2 (ix1 g)) x5 x6 g := by
  -- the product's operands at (g, 0), term k: row g column k of the quotient, row k of the weights
  have hl : ∀ k : Fin 128, lidx_main_v106 (ix2 g (0 : Fin 1)) k = ix2 g k := fun k =>
    funext fun a => Fin.ext (by match a with | ⟨0, _⟩ => rfl | ⟨1, _⟩ => rfl)
  have hr : ∀ k : Fin 128, ridx_main_v106 (ix2 g (0 : Fin 1)) k = ix2 k 0 := fun k =>
    funext fun a => Fin.ext (by match a with | ⟨0, _⟩ => rfl | ⟨1, _⟩ => rfl)
  -- the count, made a column and repeated along the row, is read at g
  have hc : ∀ k : Fin 128, idx_main_v103 (idx_main_v104 (ix2 g k)) = ix1 g := fun k =>
    funext fun a => Fin.ext (by match a with | ⟨0, _⟩ => rfl)
  -- the bias, repeated down the column, is read at its one element
  have hb : idx_main_v107 (idx_main_v108 (ix2 g (0 : Fin 1))) = ix1 0 :=
    funext fun a => Fin.ext (by match a with | ⟨0, _⟩ => rfl)
  rw [val_main_v109_apply, val_main_v106_apply, val_main_v108_apply, val_main_v107_apply, hb]
  unfold Spec.outOf
  simp only [hl, hr, val_main_v105_apply, val_main_v104_apply, val_main_v103_apply, val_main_v102_apply,
    val_main_v101_apply, val_main_cst_18_apply, hc, Ideal.hostDivf_def, Ideal.maximumf_def, Ideal.addf_def,
    Ideal.ofBits_def]

end Cert.ReferenceIdeal.RefVal

end
-- ==== Proof.RefRead.lean ====
import proofs.«416809_j1726576853644_2_alg».proof.Proof.RefReadP
import proofs.«416809_j1726576853644_2_alg».proof.Proof.Spec
import proofs.«416809_j1726576853644_2_alg».proof.Proof.SpecArgs
import proofs.«416809_j1726576853644_2_alg».proof.Proof.LibScatterGatherRows
import proofs.«416809_j1726576853644_2_alg».proof.Proof.LibGatherStacked
import proofs.«416809_j1726576853644_2_alg».proof.Proof.RefRead1
import proofs.«416809_j1726576853644_2_alg».proof.Proof.RefRead2
import proofs.«416809_j1726576853644_2_alg».proof.Proof.RefRead3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.ReadP
open Idealize.ShloMosaic Idealize.ShloMosaic.TcCoe Idealize.ShloMosaic.ValueIdx Idealize.SL.Sem
open scoped BigOperators

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 : (⟨S3x128, .f32⟩ : BufTy).Contents (Elt Ideal)) (x5 : (⟨S128x1, .f32⟩ : BufTy).Contents (Elt Ideal))
  (x6 : (⟨S1, .f32⟩ : BufTy).Contents (Elt Ideal))

/-! The reference's result, graph by graph: the weight-inside arrangement of its arguments. -/

theorem ref_value (g : Fin 2048) :
    val_main_v109 (F := Ideal) x0 x1 x2 x3 x4 x5 x6 (ix2 g 0)
      = Spec.outR (val_main_v3 (F := Ideal) x1) (val_main_v6 (F := Ideal) x1) x2 x0
          (Spec.wSlice x3 0) (Spec.wSlice x3 1) (Spec.wSlice x3 2)
          (Spec.bSlice x4 0) (Spec.bSlice x4 1) (Spec.bSlice x4 2) x5 x6 g := by
  rw [ref_out]
  unfold Spec.outR
  have hs : (fun g k => val_main_v96 (F := Ideal) x0 x1 x2 x3 x4 (ix2 g k))
      = Spec.sumsR x2 (Spec.hR3 (val_main_v3 (F := Ideal) x1) (val_main_v6 (F := Ideal) x1) x0
          (Spec.wSlice x3 0) (Spec.wSlice x3 1) (Spec.wSlice x3 2) (Spec.bSlice x4 0) (Spec.bSlice x4 1) (Spec.bSlice x4 2)) := by
    funext g k
    rw [ref_sums]
    exact congrArg (fun H => Spec.sumsR x2 H g k) (funext fun u => funext fun j => ref_layer3 x0 x1 x3 x4 u j)
  have hc : (fun g => val_main_v100 (F := Ideal) x2 (ix1 g)) = Spec.cntR x2 := funext fun g => ref_cnt x2 g
  rw [hs, hc]

end Cert.ReferenceIdeal.RefVal

end
-- ==== Proof.lean ====
/- A three-layer graph convolution with mean pooling, computed two ways.

   The kernel program scales each node's row by the node's factor (the inverse square root of its degree, self-loop
   counted) before the rows are summed over the edges, and scales the sum by the landing node's factor afterwards; it
   pools by a sum over all nodes of a 0/1 weight times the row. The reference multiplies each edge's row by the product
   of the two factors inside the sum and pools by a sum over the graph's nodes. A factor is a nonnegative real, and a
   nonnegative real moves across a finite sum of extended reals, so the two results agree graph by graph
   (`Cert.Spec.outK_eq_outR`). Each program's result is read off its run index by index: the kernel program's in
   `Cert.KernelIdeal.Value.kernel_value`, the reference's in `Cert.ReferenceIdeal.RefVal.ref_value`. -/
import proofs.«416809_j1726576853644_2_alg».proof.Defs
import proofs.«416809_j1726576853644_2_alg».proof.Proof.Gen.Kernel
import proofs.«416809_j1726576853644_2_alg».proof.Proof.Gen.Kernel.Skeleton
import proofs.«416809_j1726576853644_2_alg».proof.Proof.Gen.Kernel.Launch
import proofs.«416809_j1726576853644_2_alg».proof.Proof.Gen.Kernel.Points
import proofs.«416809_j1726576853644_2_alg».proof.Proof.Gen.Kernel.Frame
import proofs.«416809_j1726576853644_2_alg».proof.Proof.Gen.KernelIdeal
import proofs.«416809_j1726576853644_2_alg».proof.Proof.Gen.KernelIdeal.Skeleton
import proofs.«416809_j1726576853644_2_alg».proof.Proof.Gen.KernelIdeal.Launch
import proofs.«416809_j1726576853644_2_alg».proof.Proof.Gen.KernelIdeal.Points
import proofs.«416809_j1726576853644_2_alg».proof.Proof.Gen.KernelIdeal.Frame
import proofs.«416809_j1726576853644_2_alg».proof.Proof.Gen.ReferenceIdeal
import proofs.«416809_j1726576853644_2_alg».proof.Proof.Gen.Pre_finite_inputs
import proofs.«416809_j1726576853644_2_alg».proof.Proof.Spec
import proofs.«416809_j1726576853644_2_alg».proof.Proof.KernelRun
import proofs.«416809_j1726576853644_2_alg».proof.Proof.KValue
import proofs.«416809_j1726576853644_2_alg».proof.Proof.RefRunP
import proofs.«416809_j1726576853644_2_alg».proof.Proof.RefReadP
import proofs.«416809_j1726576853644_2_alg».proof.Proof.RefRead
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- The two programs build the edges' source words, and their destination words, by the same operations of the edge array. -/
theorem src_eq : Cert.KernelIdeal.HostA.srcT = Cert.ReferenceIdeal.ReadP.val_main_v3 (F := Ideal) := rfl
theorem dst_eq : Cert.KernelIdeal.HostA.dstT = Cert.ReferenceIdeal.ReadP.val_main_v6 (F := Ideal) := rfl

/-- From memories agreeing on the arguments both programs end with the same result: the kernel program's is the
    scale-first arrangement of its arguments, the reference's the weight-inside arrangement, and the two agree. -/
theorem algebraic : Cert.algebraic_KernelIdeal_ReferenceIdeal := by
  intro m ρ m' ρ' _ hagree
  refine ⟨fun c => Cert.KernelIdeal.Gen.W11 m ρ c (Proc.devRef .tc Cert.KernelIdeal.main_v77),
    Cert.KernelIdeal.Run.run_main (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v109_eq]
  obtain ⟨h0, h1, h2, h3, h4, h5, h6⟩ := hagree c
  rw [h0, h1, h2, h3, h4, h5, h6]
  funext i
  obtain ⟨g, z, rfl⟩ : ∃ (g : Fin 2048) (z : Fin 1), i = ix2 g z := ⟨i 0, i 1, eq_ix2 i⟩
  obtain rfl : z = 0 := Subsingleton.elim _ _
  rw [Cert.ReferenceIdeal.RefVal.ref_value]
  refine Eq.trans ?_ (Cert.KernelIdeal.Value.kernel_value m ρ c g).symm
  rw [src_eq, dst_eq]
  exact (Cert.Spec.outK_eq_outR _ _ _ _ _ _ _ _ _ _ _ _ g).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
